-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_5" .f32 0x3E4CCCCD#32 ((1 / 5 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S2000000 : Shape := ⟨1, ![2000000]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S500000 .f32) (main_arg1 : FVec F S2000000 .f32) (main_arg2 : IVec S2000000 32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  main_v8
-- ==== Kernel.lean ====
abbrev S500000 : Shape := ⟨1, ![500000]⟩
abbrev S2000000 : Shape := ⟨1, ![2000000]⟩
abbrev S_ : Shape := ⟨0, ![]⟩
abbrev S2000000x1 : Shape := ⟨2, ![2000000, 1]⟩
abbrev S2015232 : Shape := ⟨1, ![2015232]⟩
abbrev S2015232x42 : Shape := ⟨2, ![2015232, 42]⟩
abbrev S16384 : Shape := ⟨1, ![16384]⟩
abbrev S16384x42 : Shape := ⟨2, ![16384, 42]⟩
abbrev S16384x1 : Shape := ⟨2, ![16384, 1]⟩
abbrev S2000000x42 : Shape := ⟨2, ![2000000, 42]⟩

abbrev nBuf : Space → Nat
  | .hbm => 20
  | .vmem => 6
  | .smem => 0
  | _ => 0

abbrev bufTy : (tb : Table) → Fin (tcTables nBuf tb) → BufTy
  | .hbm, ⟨0, _⟩ => ⟨S500000, .f32⟩
  | .hbm, ⟨1, _⟩ => ⟨S2000000, .f32⟩
  | .hbm, ⟨2, _⟩ => ⟨S2000000, .i32⟩
  | .hbm, ⟨3, _⟩ => ⟨S_, .i32⟩
  | .hbm, ⟨4, _⟩ => ⟨S2000000, .i32⟩
  | .hbm, ⟨5, _⟩ => ⟨S2000000, .i1⟩
  | .hbm, ⟨6, _⟩ => ⟨S_, .i32⟩
  | .hbm, ⟨7, _⟩ => ⟨S2000000, .i32⟩
  | .hbm, ⟨8, _⟩ => ⟨S2000000, .i32⟩
  | .hbm, ⟨9, _⟩ => ⟨S2000000, .i32⟩
  | .hbm, ⟨10, _⟩ => ⟨S2000000x1, .i32⟩
  | .hbm, ⟨11, _⟩ => ⟨S2000000, .f32⟩
  | .hbm, ⟨12, _⟩ => ⟨S_, .f32⟩
  | .hbm, ⟨13, _⟩ => ⟨S_, .f32⟩
  | .hbm, ⟨14, _⟩ => ⟨S2015232, .f32⟩
  | .hbm, ⟨15, _⟩ => ⟨S_, .f32⟩
  | .hbm, ⟨16, _⟩ => ⟨S_, .f32⟩
  | .hbm, ⟨17, _⟩ => ⟨S2015232, .f32⟩
  | .hbm, ⟨18, _⟩ => ⟨S2015232x42, .f32⟩
  | .hbm, ⟨19, _⟩ => ⟨S2000000x42, .f32⟩
  | .local _ .vmem, ⟨0, _⟩ => ⟨S16384, .f32⟩
  | .local _ .vmem, ⟨1, _⟩ => ⟨S16384, .f32⟩
  | .local _ .vmem, ⟨2, _⟩ => ⟨S16384, .f32⟩
  | .local _ .vmem, ⟨3, _⟩ => ⟨S16384, .f32⟩
  | .local _ .vmem, ⟨4, _⟩ => ⟨S16384x42, .f32⟩
  | .local _ .vmem, ⟨5, _⟩ => ⟨S16384x42, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_v0 : Ref sig .tc := ⟨.hbm, 13, rfl⟩
abbrev main_v7 : Ref sig .tc := ⟨.hbm, 14, rfl⟩
abbrev main_cst_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![123], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x42 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  pads_S2000000_S2015232_0152320 : S2000000.Pads (![0] : Fin 1 → Nat) ![15232] ![0] S2015232
  h_S_ : 0 < S_.numel
  inb_S16384_S16384_0 : ∀ a, (![0] : Fin 1 → Nat) a + S16384.size a ≤ S16384.size a
  h_S16384 : 0 < S16384.numel
  shapeCasts_S16384_S16384 : S16384.ShapeCasts S16384
  shapeCasts_S16384_S16384x1 : S16384.ShapeCasts S16384x1
  concatenates_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x1_S16384x42_d1 : Shape.Concatenates (S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: S16384x1 :: []) S16384x42 1
  inb_S16384x42_S16384x42_0_0 : ∀ a, (![0, 0] : Fin 2 → Nat) a + S16384x42.size a ≤ S16384x42.size a
  h_S16384x42 : 0 < S16384x42.numel
  slices_S2015232x42_S2000000x42_0_0 : S2015232x42.Slices ![0, 0] S2000000x42
  gather_S500000_S2000000x1_S2000000_n_0_n_n_0_1_1_wf : GatherDims.WF S500000 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384.size a ≤ S2015232.size a
  hwx0_0 : ∀ i : grid0.Coords, EltTy.bits .f32 = 32 ∨ (Rect.block (s := S2015232) S16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384.size a ≤ S2015232.size a
  hwx0_1 : ∀ i : grid0.Coords, EltTy.bits .f32 = 32 ∨ (Rect.block (s := S2015232) S16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x42.size a ≤ S2015232x42.size a
  hwx0_2 : ∀ i : grid0.Coords, EltTy.bits .f32 = 32 ∨ (Rect.block (s := S2015232x42) S16384x42.size (cc0_transform_2 i) (hinb0_2 i)).WholeWords (EltTy.packing .f32)

variable [Facts₀]

def gather_S500000_S2000000x1_S2000000_n_0_n_n_0_1_1 : GatherDims S500000 S2000000x1 S2000000 where
  offsetDims := []
  collapsedSliceDims := [0]
  operandBatchingDims := []
  startIndicesBatchingDims := []
  startIndexMap := [0]
  indexVectorDim := 1
  sliceSizes := ![1]
  wf := gather_S500000_S2000000x1_S2000000_n_0_n_n_0_1_1_wf

abbrev win0_0 : Pipeline.Window sig grid0 :=
  Pipeline.Window.ofSpec (Memref.whole main_v7) S16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S16384x42.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000 : Shape := ⟨1, ![500000]⟩
abbrev S2000000 : Shape := ⟨1, ![2000000]⟩
abbrev S7x6 : Shape := ⟨2, ![7, 6]⟩
abbrev S7 : Shape := ⟨1, ![7]⟩
abbrev S_ : Shape := ⟨0, ![]⟩
abbrev S1x6 : Shape := ⟨2, ![1, 6]⟩
abbrev S6 : Shape := ⟨1, ![6]⟩
abbrev S500000x1 : Shape := ⟨2, ![500000, 1]⟩
abbrev S500000x6 : Shape := ⟨2, ![500000, 6]⟩
abbrev S500000x1x6 : Shape := ⟨3, ![500000, 1, 6]⟩
abbrev S500000x7x6 : Shape := ⟨3, ![500000, 7, 6]⟩
abbrev S500000x1x1 : Shape := ⟨3, ![500000, 1, 1]⟩
abbrev S2000000x1 : Shape := ⟨2, ![2000000, 1]⟩
abbrev S2000000x7 : Shape := ⟨2, ![2000000, 7]⟩
abbrev S1x7 : Shape := ⟨2, ![1, 7]⟩
abbrev S2000000x7x6 : Shape := ⟨3, ![2000000, 7, 6]⟩
abbrev S2000000x7x1 : Shape := ⟨3, ![2000000, 7, 1]⟩
abbrev S2000000x42 : Shape := ⟨2, ![2000000, 42]⟩

abbrev nBuf : Space → Nat
  | .hbm => 337
  | .vmem => 0
  | .smem => 0
  | _ => 0

abbrev hbmTy0_0 (i : Nat) : BufTy := match i % 128 with
  | 0 => ⟨S500000, .f32⟩
  | 1 => ⟨S2000000, .f32⟩
  | 2 => ⟨S2000000, .i32⟩
  | 3 => ⟨S7x6, .f32⟩
  | 4 => ⟨S7x6, .f32⟩
  | 5 => ⟨S7, .f32⟩
  | 6 => ⟨S_, .f32⟩
  | 7 => ⟨S500000, .f32⟩
  | 8 => ⟨S500000, .f32⟩
  | 9 => ⟨S1x6, .f32⟩
  | 10 => ⟨S6, .f32⟩
  | 11 => ⟨S1x6, .f32⟩
  | 12 => ⟨S6, .f32⟩
  | 13 => ⟨S500000x1, .f32⟩
  | 14 => ⟨S1x6, .f32⟩
  | 15 => ⟨S500000x6, .f32⟩
  | 16 => ⟨S500000x6, .f32⟩
  | 17 => ⟨S500000x6, .f32⟩
  | 18 => ⟨S500000x6, .f32⟩
  | 19 => ⟨S500000x6, .f32⟩
  | 20 => ⟨S1x6, .f32⟩
  | 21 => ⟨S500000x6, .f32⟩
  | 22 => ⟨S500000x6, .f32⟩
  | 23 => ⟨S1x6, .f32⟩
  | 24 => ⟨S6, .f32⟩
  | 25 => ⟨S1x6, .f32⟩
  | 26 => ⟨S6, .f32⟩
  | 27 => ⟨S500000x1, .f32⟩
  | 28 => ⟨S1x6, .f32⟩
  | 29 => ⟨S500000x6, .f32⟩
  | 30 => ⟨S500000x6, .f32⟩
  | 31 => ⟨S500000x6, .f32⟩
  | 32 => ⟨S500000x6, .f32⟩
  | 33 => ⟨S500000x6, .f32⟩
  | 34 => ⟨S500000x6, .f32⟩
  | 35 => ⟨S500000x6, .f32⟩
  | 36 => ⟨S500000x6, .f32⟩
  | 37 => ⟨S500000x6, .f32⟩
  | 38 => ⟨S500000x6, .f32⟩
  | 39 => ⟨S500000x6, .f32⟩
  | 40 => ⟨S1x6, .f32⟩
  | 41 => ⟨S500000x6, .f32⟩
  | 42 => ⟨S500000x6, .f32⟩
  | 43 => ⟨S1x6, .f32⟩
  | 44 => ⟨S6, .f32⟩
  | 45 => ⟨S1x6, .f32⟩
  | 46 => ⟨S6, .f32⟩
  | 47 => ⟨S500000x1, .f32⟩
  | 48 => ⟨S1x6, .f32⟩
  | 49 => ⟨S500000x6, .f32⟩
  | 50 => ⟨S500000x6, .f32⟩
  | 51 => ⟨S500000x6, .f32⟩
  | 52 => ⟨S500000x6, .f32⟩
  | 53 => ⟨S500000x6, .f32⟩
  | 54 => ⟨S500000x6, .f32⟩
  | 55 => ⟨S500000x6, .f32⟩
  | 56 => ⟨S500000x6, .f32⟩
  | 57 => ⟨S500000x6, .f32⟩
  | 58 => ⟨S500000x6, .f32⟩
  | 59 => ⟨S500000x6, .f32⟩
  | 60 => ⟨S_, .f32⟩
  | 61 => ⟨S500000x6, .f32⟩
  | 62 => ⟨S500000x6, .f32⟩
  | 63 => ⟨S500000x6, .f32⟩
  | 64 => ⟨S500000x6, .f32⟩
  | 65 => ⟨S1x6, .f32⟩
  | 66 => ⟨S500000x6, .f32⟩
  | 67 => ⟨S500000x6, .f32⟩
  | 68 => ⟨S1x6, .f32⟩
  | 69 => ⟨S6, .f32⟩
  | 70 => ⟨S1x6, .f32⟩
  | 71 => ⟨S6, .f32⟩
  | 72 => ⟨S500000x1, .f32⟩
  | 73 => ⟨S1x6, .f32⟩
  | 74 => ⟨S500000x6, .f32⟩
  | 75 => ⟨S500000x6, .f32⟩
  | 76 => ⟨S500000x6, .f32⟩
  | 77 => ⟨S500000x6, .f32⟩
  | 78 => ⟨S500000x6, .f32⟩
  | 79 => ⟨S500000x6, .f32⟩
  | 80 => ⟨S500000x6, .f32⟩
  | 81 => ⟨S500000x6, .f32⟩
  | 82 => ⟨S500000x6, .f32⟩
  | 83 => ⟨S500000x6, .f32⟩
  | 84 => ⟨S500000x6, .f32⟩
  | 85 => ⟨S_, .f32⟩
  | 86 => ⟨S500000x6, .f32⟩
  | 87 => ⟨S500000x6, .f32⟩
  | 88 => ⟨S500000x6, .f32⟩
  | 89 => ⟨S500000x6, .f32⟩
  | 90 => ⟨S_, .f32⟩
  | 91 => ⟨S500000x6, .f32⟩
  | 92 => ⟨S500000x6, .f32⟩
  | 93 => ⟨S500000x6, .f32⟩
  | 94 => ⟨S500000x6, .f32⟩
  | 95 => ⟨S1x6, .f32⟩
  | 96 => ⟨S500000x6, .f32⟩
  | 97 => ⟨S500000x6, .f32⟩
  | 98 => ⟨S1x6, .f32⟩
  | 99 => ⟨S6, .f32⟩
  | 100 => ⟨S1x6, .f32⟩
  | 101 => ⟨S6, .f32⟩
  | 102 => ⟨S500000x1, .f32⟩
  | 103 => ⟨S1x6, .f32⟩
  | 104 => ⟨S500000x6, .f32⟩
  | 105 => ⟨S500000x6, .f32⟩
  | 106 => ⟨S500000x6, .f32⟩
  | 107 => ⟨S500000x6, .f32⟩
  | 108 => ⟨S500000x6, .f32⟩
  | 109 => ⟨S500000x6, .f32⟩
  | 110 => ⟨S500000x6, .f32⟩
  | 111 => ⟨S500000x6, .f32⟩
  | 112 => ⟨S500000x6, .f32⟩
  | 113 => ⟨S500000x6, .f32⟩
  | 114 => ⟨S500000x6, .f32⟩
  | 115 => ⟨S_, .f32⟩
  | 116 => ⟨S500000x6, .f32⟩
  | 117 => ⟨S500000x6, .f32⟩
  | 118 => ⟨S500000x6, .f32⟩
  | 119 => ⟨S500000x6, .f32⟩
  | 120 => ⟨S_, .f32⟩
  | 121 => ⟨S500000x6, .f32⟩
  | 122 => ⟨S500000x6, .f32⟩
  | 123 => ⟨S500000x6, .f32⟩
  | 124 => ⟨S500000x6, .f32⟩
  | 125 => ⟨S_, .f32⟩
  | 126 => ⟨S500000x6, .f32⟩
  | 127 => ⟨S500000x6, .f32⟩
  | _ => ⟨S500000, .f32⟩

abbrev hbmTy0_1 (i : Nat) : BufTy := match i % 128 with
  | 0 => ⟨S500000x6, .f32⟩
  | 1 => ⟨S500000x6, .f32⟩
  | 2 => ⟨S1x6, .f32⟩
  | 3 => ⟨S500000x6, .f32⟩
  | 4 => ⟨S500000x6, .f32⟩
  | 5 => ⟨S1x6, .f32⟩
  | 6 => ⟨S6, .f32⟩
  | 7 => ⟨S1x6, .f32⟩
  | 8 => ⟨S6, .f32⟩
  | 9 => ⟨S500000x1, .f32⟩
  | 10 => ⟨S1x6, .f32⟩
  | 11 => ⟨S500000x6, .f32⟩
  | 12 => ⟨S500000x6, .f32⟩
  | 13 => ⟨S500000x6, .f32⟩
  | 14 => ⟨S500000x6, .f32⟩
  | 15 => ⟨S500000x6, .f32⟩
  | 16 => ⟨S500000x6, .f32⟩
  | 17 => ⟨S500000x6, .f32⟩
  | 18 => ⟨S500000x6, .f32⟩
  | 19 => ⟨S500000x6, .f32⟩
  | 20 => ⟨S500000x6, .f32⟩
  | 21 => ⟨S500000x6, .f32⟩
  | 22 => ⟨S_, .f32⟩
  | 23 => ⟨S500000x6, .f32⟩
  | 24 => ⟨S500000x6, .f32⟩
  | 25 => ⟨S500000x6, .f32⟩
  | 26 => ⟨S500000x6, .f32⟩
  | 27 => ⟨S_, .f32⟩
  | 28 => ⟨S500000x6, .f32⟩
  | 29 => ⟨S500000x6, .f32⟩
  | 30 => ⟨S500000x6, .f32⟩
  | 31 => ⟨S500000x6, .f32⟩
  | 32 => ⟨S_, .f32⟩
  | 33 => ⟨S500000x6, .f32⟩
  | 34 => ⟨S500000x6, .f32⟩
  | 35 => ⟨S500000x6, .f32⟩
  | 36 => ⟨S500000x6, .f32⟩
  | 37 => ⟨S_, .f32⟩
  | 38 => ⟨S500000x6, .f32⟩
  | 39 => ⟨S500000x6, .f32⟩
  | 40 => ⟨S500000x6, .f32⟩
  | 41 => ⟨S500000x6, .f32⟩
  | 42 => ⟨S1x6, .f32⟩
  | 43 => ⟨S500000x6, .f32⟩
  | 44 => ⟨S500000x6, .f32⟩
  | 45 => ⟨S1x6, .f32⟩
  | 46 => ⟨S6, .f32⟩
  | 47 => ⟨S1x6, .f32⟩
  | 48 => ⟨S6, .f32⟩
  | 49 => ⟨S500000x1, .f32⟩
  | 50 => ⟨S1x6, .f32⟩
  | 51 => ⟨S500000x6, .f32⟩
  | 52 => ⟨S500000x6, .f32⟩
  | 53 => ⟨S500000x6, .f32⟩
  | 54 => ⟨S500000x6, .f32⟩
  | 55 => ⟨S500000x6, .f32⟩
  | 56 => ⟨S500000x6, .f32⟩
  | 57 => ⟨S500000x6, .f32⟩
  | 58 => ⟨S500000x6, .f32⟩
  | 59 => ⟨S500000x6, .f32⟩
  | 60 => ⟨S500000x6, .f32⟩
  | 61 => ⟨S500000x6, .f32⟩
  | 62 => ⟨S_, .f32⟩
  | 63 => ⟨S500000x6, .f32⟩
  | 64 => ⟨S500000x6, .f32⟩
  | 65 => ⟨S500000x6, .f32⟩
  | 66 => ⟨S500000x6, .f32⟩
  | 67 => ⟨S_, .f32⟩
  | 68 => ⟨S500000x6, .f32⟩
  | 69 => ⟨S500000x6, .f32⟩
  | 70 => ⟨S500000x6, .f32⟩
  | 71 => ⟨S500000x6, .f32⟩
  | 72 => ⟨S_, .f32⟩
  | 73 => ⟨S500000x6, .f32⟩
  | 74 => ⟨S500000x6, .f32⟩
  | 75 => ⟨S500000x6, .f32⟩
  | 76 => ⟨S500000x6, .f32⟩
  | 77 => ⟨S_, .f32⟩
  | 78 => ⟨S500000x6, .f32⟩
  | 79 => ⟨S500000x6, .f32⟩
  | 80 => ⟨S500000x6, .f32⟩
  | 81 => ⟨S500000x6, .f32⟩
  | 82 => ⟨S_, .f32⟩
  | 83 => ⟨S500000x6, .f32⟩
  | 84 => ⟨S500000x6, .f32⟩
  | 85 => ⟨S500000x6, .f32⟩
  | 86 => ⟨S500000x6, .f32⟩
  | 87 => ⟨S1x6, .f32⟩
  | 88 => ⟨S500000x6, .f32⟩
  | 89 => ⟨S500000x6, .f32⟩
  | 90 => ⟨S500000x1x6, .f32⟩
  | 91 => ⟨S500000x1x6, .f32⟩
  | 92 => ⟨S500000x1x6, .f32⟩
  | 93 => ⟨S500000x1x6, .f32⟩
  | 94 => ⟨S500000x1x6, .f32⟩
  | 95 => ⟨S500000x1x6, .f32⟩
  | 96 => ⟨S500000x1x6, .f32⟩
  | 97 => ⟨S500000x7x6, .f32⟩
  | 98 => ⟨S500000, .f32⟩
  | 99 => ⟨S500000, .f32⟩
  | 100 => ⟨S500000, .f32⟩
  | 101 => ⟨S500000, .f32⟩
  | 102 => ⟨S_, .f32⟩
  | 103 => ⟨S500000, .f32⟩
  | 104 => ⟨S500000, .f32⟩
  | 105 => ⟨S_, .f32⟩
  | 106 => ⟨S500000, .f32⟩
  | 107 => ⟨S500000, .f32⟩
  | 108 => ⟨S500000, .f32⟩
  | 109 => ⟨S_, .f32⟩
  | 110 => ⟨S500000, .f32⟩
  | 111 => ⟨S500000, .f32⟩
  | 112 => ⟨S500000, .f32⟩
  | 113 => ⟨S_, .f32⟩
  | 114 => ⟨S500000, .f32⟩
  | 115 => ⟨S500000, .f32⟩
  | 116 => ⟨S500000, .f32⟩
  | 117 => ⟨S500000, .f32⟩
  | 118 => ⟨S_, .f32⟩
  | 119 => ⟨S500000, .f32⟩
  | 120 => ⟨S500000, .i1⟩
  | 121 => ⟨S_, .f32⟩
  | 122 => ⟨S500000, .f32⟩
  | 123 => ⟨S500000, .f32⟩
  | 124 => ⟨S500000x1x1, .f32⟩
  | 125 => ⟨S500000x7x6, .f32⟩
  | 126 => ⟨S500000x7x6, .f32⟩
  | 127 => ⟨S2000000, .f32⟩
  | _ => ⟨S500000, .f32⟩

abbrev hbmTy0_2 (i : Nat) : BufTy := match i % 128 with
  | 0 => ⟨S_, .f32⟩
  | 1 => ⟨S2000000, .f32⟩
  | 2 => ⟨S_, .f32⟩
  | 3 => ⟨S2000000, .f32⟩
  | 4 => ⟨S2000000, .f32⟩
  | 5 => ⟨S2000000, .f32⟩
  | 6 => ⟨S_, .f32⟩
  | 7 => ⟨S2000000, .f32⟩
  | 8 => ⟨S2000000, .f32⟩
  | 9 => ⟨S2000000, .f32⟩
  | 10 => ⟨S_, .f32⟩
  | 11 => ⟨S2000000, .f32⟩
  | 12 => ⟨S2000000, .f32⟩
  | 13 => ⟨S_, .f32⟩
  | 14 => ⟨S2000000, .f32⟩
  | 15 => ⟨S2000000, .f32⟩
  | 16 => ⟨S2000000, .f32⟩
  | 17 => ⟨S_, .f32⟩
  | 18 => ⟨S2000000, .f32⟩
  | 19 => ⟨S2000000, .f32⟩
  | 20 => ⟨S2000000, .f32⟩
  | 21 => ⟨S_, .f32⟩
  | 22 => ⟨S2000000, .f32⟩
  | 23 => ⟨S2000000, .f32⟩
  | 24 => ⟨S_, .f32⟩
  | 25 => ⟨S2000000, .f32⟩
  | 26 => ⟨S2000000, .f32⟩
  | 27 => ⟨S2000000, .f32⟩
  | 28 => ⟨S_, .f32⟩
  | 29 => ⟨S2000000, .f32⟩
  | 30 => ⟨S2000000, .f32⟩
  | 31 => ⟨S2000000, .f32⟩
  | 32 => ⟨S_, .f32⟩
  | 33 => ⟨S2000000, .f32⟩
  | 34 => ⟨S2000000, .f32⟩
  | 35 => ⟨S_, .f32⟩
  | 36 => ⟨S2000000, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S2000000, .f32⟩
  | 43 => ⟨S_, .f32⟩
  | 44 => ⟨S2000000, .f32⟩
  | 45 => ⟨S2000000, .f32⟩
  | 46 => ⟨S_, .f32⟩
  | 47 => ⟨S2000000, .f32⟩
  | 48 => ⟨S2000000, .f32⟩
  | 49 => ⟨S2000000, .f32⟩
  | 50 => ⟨S_, .f32⟩
  | 51 => ⟨S2000000, .f32⟩
  | 52 => ⟨S2000000, .f32⟩
  | 53 => ⟨S2000000, .f32⟩
  | 54 => ⟨S_, .f32⟩
  | 55 => ⟨S2000000, .f32⟩
  | 56 => ⟨S2000000, .f32⟩
  | 57 => ⟨S2000000x1, .f32⟩
  | 58 => ⟨S2000000x1, .f32⟩
  | 59 => ⟨S2000000x1, .f32⟩
  | 60 => ⟨S2000000x1, .f32⟩
  | 61 => ⟨S2000000x1, .f32⟩
  | 62 => ⟨S2000000x1, .f32⟩
  | 63 => ⟨S2000000x1, .f32⟩
  | 64 => ⟨S2000000x7, .f32⟩
  | 65 => ⟨S1x7, .f32⟩
  | 66 => ⟨S2000000x7, .f32⟩
  | 67 => ⟨S2000000x7, .f32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i32⟩
  | 74 => ⟨S2000000, .i32⟩
  | 75 => ⟨S2000000x1, .i32⟩
  | 76 => ⟨S2000000x7x6, .f32⟩
  | 77 => ⟨S2000000x7x1, .f32⟩
  | 78 => ⟨S2000000x7x6, .f32⟩
  | 79 => ⟨S2000000x7x6, .f32⟩
  | 80 => ⟨S2000000x42, .f32⟩
  | _ => ⟨S500000, .f32⟩

abbrev hbmTy (i : Nat) : BufTy := match i / 128 with
  | 0 => hbmTy0_0 i
  | 1 => hbmTy0_1 i
  | 2 => hbmTy0_2 i
  | _ => ⟨S500000, .f32⟩

abbrev bufTy : (tb : Table) → Fin (tcTables nBuf tb) → BufTy
  | .hbm, ⟨i, _⟩ => hbmTy i
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_3 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_cst_4 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_cst_5 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_cst_6 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_cst_7 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_cst_8 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_cst_9 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_cst_10 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_cst_11 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_cst_12 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_cst_13 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_cst_14 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_cst_15 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_cst_16 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_cst_17 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_cst_18 : Ref sig .tc := ⟨.hbm, 230, rfl⟩
abbrev main_v208 : Ref sig .tc := ⟨.hbm, 231, rfl⟩
abbrev main_v209 : Ref sig .tc := ⟨.hbm, 232, rfl⟩
abbrev main_cst_19 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_cst_20 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_cst_21 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_cst_22 : Ref sig .tc := ⟨.hbm, 246, rfl⟩
abbrev main_v220 : Ref sig .tc := ⟨.hbm, 247, rfl⟩
abbrev main_v221 : Ref sig .tc := ⟨.hbm, 248, rfl⟩
abbrev main_cst_23 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_cst_24 : Ref sig .tc := ⟨.hbm, 256, rfl⟩
abbrev main_v228 : Ref sig .tc := ⟨.hbm, 257, rfl⟩
abbrev main_cst_25 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_cst_26 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_cst_27 : Ref sig .tc := ⟨.hbm, 266, rfl⟩
abbrev main_v235 : Ref sig .tc := ⟨.hbm, 267, rfl⟩
abbrev main_v236 : Ref sig .tc := ⟨.hbm, 268, rfl⟩
abbrev main_cst_28 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_cst_29 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_cst_30 : Ref sig .tc := ⟨.hbm, 277, rfl⟩
abbrev main_v243 : Ref sig .tc := ⟨.hbm, 278, rfl⟩
abbrev main_v244 : Ref sig .tc := ⟨.hbm, 279, rfl⟩
abbrev main_cst_31 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_cst_32 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_cst_33 : Ref sig .tc := ⟨.hbm, 288, rfl⟩
abbrev main_v251 : Ref sig .tc := ⟨.hbm, 289, rfl⟩
abbrev main_v252 : Ref sig .tc := ⟨.hbm, 290, rfl⟩
abbrev main_cst_34 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_cst_35 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_cst_36 : Ref sig .tc := ⟨.hbm, 299, rfl⟩
abbrev main_v259 : Ref sig .tc := ⟨.hbm, 300, rfl⟩
abbrev main_v260 : Ref sig .tc := ⟨.hbm, 301, rfl⟩
abbrev main_cst_37 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_cst_38 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_cst_39 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_c : Ref sig .tc := ⟨.hbm, 324, rfl⟩
abbrev main_v280 : Ref sig .tc := ⟨.hbm, 325, rfl⟩
abbrev main_v281 : Ref sig .tc := ⟨.hbm, 326, rfl⟩
abbrev main_c_40 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  slices_S7x6_S1x6_0_0 : S7x6.Slices ![0, 0] S1x6
  shapeCasts_S1x6_S6 : S1x6.ShapeCasts S6
  bcast_S500000_S500000x1_0 : S500000.BroadcastsInDim S500000x1 (![0] : Fin 1 → Fin S500000x1.rank)
  bcast_S6_S1x6_1 : S6.BroadcastsInDim S1x6 (![1] : Fin 1 → Fin S1x6.rank)
  bcast_S1x6_S500000x6_0_1 : S1x6.BroadcastsInDim S500000x6 (![0, 1] : Fin 2 → Fin S500000x6.rank)
  bcast_S500000x1_S500000x6_0_1 : S500000x1.BroadcastsInDim S500000x6 (![0, 1] : Fin 2 → Fin S500000x6.rank)
  slices_S7x6_S1x6_1_0 : S7x6.Slices ![1, 0] S1x6
  slices_S7x6_S1x6_2_0 : S7x6.Slices ![2, 0] S1x6
  bcast_S_S500000x6 : S_.BroadcastsInDim S500000x6 (![] : Fin 0 → Fin S500000x6.rank)
  slices_S7x6_S1x6_3_0 : S7x6.Slices ![3, 0] S1x6
  slices_S7x6_S1x6_4_0 : S7x6.Slices ![4, 0] S1x6
  slices_S7x6_S1x6_5_0 : S7x6.Slices ![5, 0] S1x6
  slices_S7x6_S1x6_6_0 : S7x6.Slices ![6, 0] S1x6
  bcast_S500000x6_S500000x1x6_0_2 : S500000x6.BroadcastsInDim S500000x1x6 (![0, 2] : Fin 2 → Fin S500000x1x6.rank)
  concatenates_S500000x1x6_S500000x1x6_S500000x1x6_S500000x1x6_S500000x1x6_S500000x1x6_S500000x1x6_S500000x7x6_d1 : Shape.Concatenates [S500000x1x6, S500000x1x6, S500000x1x6, S500000x1x6, S500000x1x6, S500000x1x6, S500000x1x6] S500000x7x6 1
  bcast_S500000_S500000x1x1_0 : S500000.BroadcastsInDim S500000x1x1 (![0] : Fin 1 → Fin S500000x1x1.rank)
  bcast_S500000x1x1_S500000x7x6_0_1_2 : S500000x1x1.BroadcastsInDim S500000x7x6 (![0, 1, 2] : Fin 3 → Fin S500000x7x6.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x1_S2000000x1_S2000000x1_S2000000x1_S2000000x7_d1 : Shape.Concatenates [S2000000x1, S2000000x1, S2000000x1, S2000000x1, S2000000x1, S2000000x1, S2000000x1] S2000000x7 1
  bcast_S7_S1x7_1 : S7.BroadcastsInDim S1x7 (![1] : Fin 1 → Fin S1x7.rank)
  bcast_S1x7_S2000000x7_0_1 : S1x7.BroadcastsInDim S2000000x7 (![0, 1] : Fin 2 → Fin S2000000x7.rank)
  bcast_S2000000x7_S2000000x7x1_0_1 : S2000000x7.BroadcastsInDim S2000000x7x1 (![0, 1] : Fin 2 → Fin S2000000x7x1.rank)
  bcast_S2000000x7x1_S2000000x7x6_0_1_2 : S2000000x7x1.BroadcastsInDim S2000000x7x6 (![0, 1, 2] : Fin 3 → Fin S2000000x7x6.rank)
  shapeCasts_S2000000x7x6_S2000000x42 : S2000000x7x6.ShapeCasts S2000000x42
  gather_S500000x7x6_S2000000x1_S2000000x7x6_12_0_n_n_0_1_176_wf : GatherDims.WF S500000x7x6 S2000000x1 S2000000x7x6 [1, 2] [0] [] [0] [] 1 ![1, 7, 6]

variable [Facts₀]

def gather_S500000x7x6_S2000000x1_S2000000x7x6_12_0_n_n_0_1_176 : GatherDims S500000x7x6 S2000000x1 S2000000x7x6 where
  offsetDims := [1, 2]
  collapsedSliceDims := [0]
  operandBatchingDims := []
  startIndicesBatchingDims := []
  startIndexMap := [0]
  indexVectorDim := 1
  sliceSizes := ![1, 7, 6]
  wf := gather_S500000x7x6_S2000000x1_S2000000x7x6_12_0_n_n_0_1_176_wf

class Facts : Prop extends Facts₀ where

variable [Facts]
-- ==== Proof.Spec.lean ====
/-
  The specification, over the extended reals, with no program in sight.

  One output entry. For an edge feature with scaled distance x = d / 5 and angle a, and for an order l (0..6) and a
  radial index k (0..5), the entry is

      N(l,k) · j_l(Z(l,k) · x) · env(x) · P_l(cos a) · Y(l)

  where j_l is the spherical Bessel function by its upward recurrence from j_0 = sin z / z and
  j_1 = sin z / z² − cos z / z (step: j_{m+1} = (2m+1)/z · j_m − j_{m−1}), P_l the Legendre polynomial by its
  recurrence (l+1) P_{l+1} = (2l+1) t P_l − l P_{l−1} from P_0 = 1, P_1 = t, env the polynomial cutoff
  1/x − 21 x⁵ + 35 x⁶ − 15 x⁷ below x = 1 and zero from there on, and N, Z, Y three tables of float words.

  The two programs arrange this product differently: one multiplies (N · j) by env, the other env by (N · j); one forms
  x⁵ as (x²·x²)·x and the last envelope term as c·(x⁶·x), the other x·(x²·x²) and (c·x⁶)·x; one scales the distance by
  the reciprocal 1/5, the other divides by 5. Multiplication of extended reals is commutative and associative with no
  side condition, and division by a nonzero real IS multiplication by its reciprocal on every extended real, so the two
  arrangements are one function (`colR_eq`); no finiteness is used.
-/
import Idealize.ShloMosaic.PureOps.Ideal
import Idealize.ShloMosaic.Lib.ValueIdx

noncomputable section

namespace Cert.Basis

open Idealize.ShloMosaic Idealize.ShloMosaic.ValueIdx

/-- The extended real an f32 word denotes. -/
abbrev w (b : BitVec 32) : EReal := Ideal.ofBits .f32 b

/-- The word of 5.0 denotes the real 5. -/
theorem w_five : w 0x40A00000#32 = ((5 : ℝ) : EReal) := by
  simp [Ideal.ofBits, Ideal.ieee, -EReal.coe_mul]; norm_num

/-! ## The scaled distance -/

/-- The exact reciprocal of the cutoff. -/
def inv5 : EReal := ((1 / 5 : ℝ) : EReal)
/-- The distance times the reciprocal of the cutoff … -/
def xK (d : EReal) : EReal := d * inv5
/-- … and the distance divided by the cutoff. -/
def xR (d : EReal) : EReal := Ideal.div d (w 0x40A00000#32)

/-- Dividing by 5 is multiplying by 1/5, on every extended real. -/
theorem xR_eq (d : EReal) : xR d = xK d := by
  unfold xR xK inv5
  rw [w_five, Ideal.div_coe (by norm_num)]

/-! ## The envelope -/

/-- The cutoff polynomial with x⁵ formed as (x²·x²)·x and every higher power by one more factor on the right. -/
def envPolyK (x : EReal) : EReal :=
  Ideal.div (w 0x3F800000#32) x + w 0xC1A80000#32 * (x * x * (x * x) * x)
    + w 0x420C0000#32 * (x * x * (x * x) * x * x)
    + w 0xC1700000#32 * (x * x * (x * x) * x * x * x)
/-- The same polynomial with x⁵ formed as x·(x²·x²) and the last term's factor x applied after its coefficient. -/
def envPolyR (x : EReal) : EReal :=
  Ideal.div (w 0x3F800000#32) x + w 0xC1A80000#32 * (x * (x * x * (x * x)))
    + w 0x420C0000#32 * (x * (x * x * (x * x)) * x)
    + w 0xC1700000#32 * (x * (x * x * (x * x)) * x) * x
/-- The polynomial below 1, zero from 1 on. -/
def envK (x : EReal) : EReal :=
  Scalar.select (Ideal.cmp .olt x (w 0x3F800000#32)) (envPolyK x) (w 0x00000000#32)
def envR (x : EReal) : EReal :=
  Scalar.select (Ideal.cmp .olt x (w 0x3F800000#32)) (envPolyR x) (w 0x00000000#32)

theorem envPolyR_eq (x : EReal) : envPolyR x = envPolyK x := by
  unfold envPolyR envPolyK
  have h5 : x * (x * x * (x * x)) = x * x * (x * x) * x := mul_comm _ _
  rw [h5, mul_assoc (w 0xC1700000#32)]

theorem envR_eq (x : EReal) : envR x = envK x := by
  unfold envR envK; rw [envPolyR_eq]

/-! ## The spherical Bessel functions, by the upward recurrence -/

def sj0 (z : EReal) : EReal := Ideal.div (Ideal.sin z) z
def sj1 (z : EReal) : EReal := Ideal.div (Ideal.sin z) (z * z) - Ideal.div (Ideal.cos z) z
/-- One step: (2m+1)/z · j_m − j_{m−1}, the odd number given by its word. -/
def sjStep (cw : BitVec 32) (z jc jm1 : EReal) : EReal := Ideal.div (w cw) z * jc - jm1
def sj2 (z : EReal) : EReal := sjStep 0x40400000#32 z (sj1 z) (sj0 z)
def sj3 (z : EReal) : EReal := sjStep 0x40A00000#32 z (sj2 z) (sj1 z)
def sj4 (z : EReal) : EReal := sjStep 0x40E00000#32 z (sj3 z) (sj2 z)
def sj5 (z : EReal) : EReal := sjStep 0x41100000#32 z (sj4 z) (sj3 z)
def sj6 (z : EReal) : EReal := sjStep 0x41300000#32 z (sj5 z) (sj4 z)
/-- j_l, for the seven orders. -/
def sj : Fin 7 → EReal → EReal
  | 0 => sj0 | 1 => sj1 | 2 => sj2 | 3 => sj3 | 4 => sj4 | 5 => sj5 | 6 => sj6

/-! ## The Legendre polynomials, by their recurrence -/

/-- One step: ((2l+1) t · P_l − l · P_{l−1}) / (l+1), the three numbers given by their words. -/
def legStep (aw bw cw : BitVec 32) (t p pm1 : EReal) : EReal :=
  Ideal.div (w aw * t * p - w bw * pm1) (w cw)
def leg0 (_t : EReal) : EReal := w 0x3F800000#32
def leg1 (t : EReal) : EReal := t
def leg2 (t : EReal) : EReal := legStep 0x40400000#32 0x3F800000#32 0x40000000#32 t (leg1 t) (leg0 t)
def leg3 (t : EReal) : EReal := legStep 0x40A00000#32 0x40000000#32 0x40400000#32 t (leg2 t) (leg1 t)
def leg4 (t : EReal) : EReal := legStep 0x40E00000#32 0x40400000#32 0x40800000#32 t (leg3 t) (leg2 t)
def leg5 (t : EReal) : EReal := legStep 0x41100000#32 0x40800000#32 0x40A00000#32 t (leg4 t) (leg3 t)
def leg6 (t : EReal) : EReal := legStep 0x41300000#32 0x40A00000#32 0x40C00000#32 t (leg5 t) (leg4 t)
/-- P_l, for the seven orders. -/
def leg : Fin 7 → EReal → EReal
  | 0 => leg0 | 1 => leg1 | 2 => leg2 | 3 => leg3 | 4 => leg4 | 5 => leg5 | 6 => leg6

/-! ## One entry, in the two arrangements -/

/-- (N · j_l(Z · x)) · env(x) · (P_l(cos a) · Y), with x = d · (1/5). -/
def colK (l : Fin 7) (zw nw yw : BitVec 32) (d a : EReal) : EReal :=
  w nw * sj l (w zw * xK d) * envK (xK d) * (leg l (Ideal.cos a) * w yw)
/-- env(x) · (N · j_l(Z · x)) · (P_l(cos a) · Y), with x = d / 5. -/
def colR (l : Fin 7) (zw nw yw : BitVec 32) (d a : EReal) : EReal :=
  envR (xR d) * (w nw * sj l (w zw * xR d)) * (leg l (Ideal.cos a) * w yw)

/-- The two arrangements are one function. -/
theorem colR_eq (l : Fin 7) (zw nw yw : BitVec 32) (d a : EReal) : colR l zw nw yw d a = colK l zw nw yw d a := by
  unfold colR colK
  rw [xR_eq, envR_eq, mul_comm (envK (xK d))]

/-! ## The three tables of words, row-major -/

/-- The normalisers N(l,k), at 6·l + k. -/
def Nt : Fin 42 → BitVec 32 := fun
  | 0 => 0x408E2C19#32
  | 1 => 0x410E2C19#32
  | 2 => 0x41554225#32
  | 3 => 0x418E2C19#32
  | 4 => 0x41B1B71F#32
  | 5 => 0x41D54225#32
  | 6 => 0x40D052C6#32
  | 7 => 0x413042CC#32
  | 8 => 0x4177C47B#32
  | 9 => 0x419F8ADF#32
  | 10 => 0x41C328A8#32
  | 11 => 0x41E6C0A4#32
  | 12 => 0x4108AEAE#32
  | 13 => 0x4151A0CD#32
  | 14 => 0x418CD0C6#32
  | 15 => 0x41B0A1B7#32
  | 16 => 0x41D45B2F#32
  | 17 => 0x41F8074F#32
  | 18 => 0x412918C5#32
  | 19 => 0x41729973#32
  | 20 => 0x419D88A8#32
  | 21 => 0x41C18457#32
  | 22 => 0x41E55D3E#32
  | 23 => 0x420490A6#32
  | 24 => 0x414992AB#32
  | 25 => 0x4189AC75#32
  | 26 => 0x41AE1B30#32
  | 27 => 0x41D2401A#32
  | 28 => 0x41F63954#32
  | 29 => 0x420D0B83#32
  | 30 => 0x416A2F9C#32
  | 31 => 0x4199FC9A#32
  | 32 => 0x41BE93C8#32
  | 33 => 0x41E2DE79#32
  | 34 => 0x42037BA1#32
  | 35 => 0x4215777C#32
  | 36 => 0x41857C6F#32
  | 37 => 0x41AA455E#32
  | 38 => 0x41CEFA54#32
  | 39 => 0x41F36663#32
  | 40 => 0x420BCE7F#32
  | 41 => 0x421DD723#32
  | _ => 0#32

/-- The Bessel roots Z(l,k), at 6·l + k. -/
def Zt : Fin 42 → BitVec 32 := fun
  | 0 => 0x40490FDB#32
  | 1 => 0x40C90FDB#32
  | 2 => 0x4116CBE4#32
  | 3 => 0x41490FDB#32
  | 4 => 0x417B53D1#32
  | 5 => 0x4196CBE4#32
  | 6 => 0x408FCA03#32
  | 7 => 0x40F73543#32
  | 8 => 0x412E7748#32
  | 9 => 0x41610F21#32
  | 10 => 0x4189C41B#32
  | 11 => 0x41A2F86E#32
  | 12 => 0x40B86E42#32
  | 13 => 0x4111852B#32
  | 14 => 0x41452AC4#32
  | 15 => 0x41783BD0#32
  | 16 => 0x41958325#32
  | 17 => 0x41AED4BC#32
  | 18 => 0x40DF9D24#32
  | 19 => 0x4126AC84#32
  | 20 => 0x415B2B1A#32
  | 21 => 0x41876394#32
  | 22 => 0x41A0F976#32
  | 23 => 0x41BA6F19#32
  | 24 => 0x4102EBC6#32
  | 25 => 0x413B474D#32
  | 26 => 0x4170A277#32
  | 27 => 0x419268F9#32
  | 28 => 0x41AC340E#32
  | 29 => 0x41C5D20E#32
  | 30 => 0x4115B168#32
  | 31 => 0x414F76E8#32
  | 32 => 0x4182D672#32
  | 33 => 0x419D39A8#32
  | 34 => 0x41B73C85#32
  | 35 => 0x41D105A2#32
  | 36 => 0x41283493#32
  | 37 => 0x4163517B#32
  | 38 => 0x418D2F0D#32
  | 39 => 0x41A7DE22#32
  | 40 => 0x41C21A26#32
  | 41 => 0x41DC101D#32
  | _ => 0#32

/-- The spherical-harmonic coefficients Y(l). -/
def Yt : Fin 7 → BitVec 32 := fun
  | 0 => 0x3E906EBB#32
  | 1 => 0x3EFA2A1C#32
  | 2 => 0x3F217B01#32
  | 3 => 0x3F3F10F8#32
  | 4 => 0x3F58A618#32
  | 5 => 0x3F6F83A7#32
  | 6 => 0x3F823092#32
  | _ => 0#32

/-- The order of column c = 6·l + k. -/
def lOf (c : Fin 42) : Fin 7 := ⟨c.val / 6, by omega⟩

/-- The column of order l and radial index k. -/
def ck (l : Fin 7) (k : Fin 6) : Fin 42 := ⟨6 * l.val + k.val, by omega⟩
/-- The radial index of column c. -/
def kOf (c : Fin 42) : Fin 6 := ⟨c.val % 6, Nat.mod_lt _ (by decide)⟩

theorem ck_lOf_kOf (c : Fin 42) : ck (lOf c) (kOf c) = c := by
  apply Fin.ext; show 6 * (c.val / 6) + c.val % 6 = c.val; omega
theorem lOf_ck (l : Fin 7) (k : Fin 6) : lOf (ck l k) = l := by
  apply Fin.ext; show (6 * l.val + k.val) / 6 = l.val; omega

/-- The radial factor of order l at radial index k, the distance divided by the cutoff: N(l,k) · j_l(Z(l,k) · x). -/
def rbfR (l : Fin 7) (k : Fin 6) (d : EReal) : EReal := w (Nt (ck l k)) * sj l (w (Zt (ck l k)) * xR d)

/-- Column c's entry from the distance and the angle. -/
def colOf (c : Fin 42) (d a : EReal) : EReal := colK (lOf c) (Zt c) (Nt c) (Yt (lOf c)) d a

/-! ## The whole result -/

/-- The edge an index word selects: the word read signed, clamped into [0, 499999]. -/
def gi (i : IVec ⟨2, ![2000000, 1]⟩ 32) (t : Fin 2000000) : Fin 500000 :=
  ⟨min (i (ix2 t (0 : Fin 1))).toInt.toNat 499999, by omega⟩

/-- Entry (t, c): column c's entry from the distance of the edge that t's index word selects and t's angle. -/
def Gat (d : (⟨1, ![500000]⟩ : Shape).Idx → EReal) (a : (⟨1, ![2000000]⟩ : Shape).Idx → EReal)
    (i : IVec ⟨2, ![2000000, 1]⟩ 32) (t : Fin 2000000) (c : Fin 42) : EReal :=
  colOf c (d (ix1 (gi i t))) (a (ix1 t))

/-- The result array. -/
def G (d : (⟨1, ![500000]⟩ : Shape).Idx → EReal) (a : (⟨1, ![2000000]⟩ : Shape).Idx → EReal)
    (i : IVec ⟨2, ![2000000, 1]⟩ 32) : (⟨2, ![2000000, 42]⟩ : Shape).Idx → EReal :=
  fun j => Gat d a i (j 0) (j 1)

theorem G_apply (d : (⟨1, ![500000]⟩ : Shape).Idx → EReal) (a : (⟨1, ![2000000]⟩ : Shape).Idx → EReal)
    (i : IVec ⟨2, ![2000000, 1]⟩ 32) (t : Fin 2000000) (c : Fin 42) : G d a i (ix2 t c) = Gat d a i t c := rfl

/-- The index words as both programs prepare them: a negative word has the table's length added (Python's wrap), then
    the array becomes a column. -/
def nidx (a2 : IVec ⟨1, ![2000000]⟩ 32) : IVec ⟨2, ![2000000, 1]⟩ 32 :=
  broadcastInDim ⟨2, ![2000000, 1]⟩ ![0] (by decide)
    (select (cmpi .slt a2 (broadcastInDim ⟨1, ![2000000]⟩ ![] (by decide) (constantI ⟨0, ![]⟩ 32 0#32)))
      (addi a2 (broadcastInDim ⟨1, ![2000000]⟩ ![] (by decide) (constantI ⟨0, ![]⟩ 32 500000#32))) a2)

end Cert.Basis

end
-- ==== Proof.LibLayout.lean ====
/-
  Layout operations of the reference, read at an index.

  The reference moves its values between ranks by broadcasts, a slice of a constant table, reshapes and a final flattening.
  Each lemma says which entry of the operand a given entry of the result is. (A row of a 7 × 6 table spread over E
  rows; a length-E vector spread over 6 columns; a value given a unit axis; the [T, 7, 6] result flattened to [T, 42]
  row-major, so that column c is order c / 6, radial index c % 6.)
-/
import Idealize.ShloMosaic.PureOps
import Idealize.ShloMosaic.Lib.ValueIdx
import Idealize.ShloMosaic.Lib.Pipeline.Value
import Idealize.ShloMosaic.Lib.IdealHost

noncomputable section

namespace Cert.Basis

open Idealize.ShloMosaic Idealize.ShloMosaic.ValueIdx

variable {α : Type}

/-- A coordinate on an axis of extent n is what a broadcast reads there: itself when n ≠ 1, and 0 when n = 1
    (an index below 1 is 0). -/
private theorem val_eq_ite_one {n : Nat} (e : Fin n) (m : Nat) (hm : m = n) : e.val = if m = 1 then 0 else e.val := by
  by_cases h : m = 1
  · rw [if_pos h]; have := e.isLt; omega
  · rw [if_neg h]

/-- A vector viewed as a column: entry (r, 0) is entry r. -/
theorem shapeCast_col_apply {n : Nat} (v : (⟨1, ![n]⟩ : Shape).Idx → α)
    (h : (⟨1, ![n]⟩ : Shape).ShapeCasts ⟨2, ![n, 1]⟩) (r : Fin n) (z : Fin 1) :
    shapeCast ⟨2, ![n, 1]⟩ v h (ix2 r z) = v (ix1 r) := by
  refine shapeCast_apply v h (ix2 r z) (ix1 r) ?_
  rw [Shape.rowMajor_val_one, Shape.rowMajor_val_two]
  show r.val = r.val * 1 + z.val
  have := z.isLt; omega

/-- Row l of a table with R rows of C entries, taken as a [1, C] slice, flattened, given back its unit axis and spread
    over E rows: entry (e, k) is the table's entry (l, k). -/
theorem tableRow_apply {R C E : Nat} (l : Fin R) (T : (⟨2, ![R, C]⟩ : Shape).Idx → α)
    (hs : (⟨2, ![R, C]⟩ : Shape).Slices ![l.val, 0] ⟨2, ![1, C]⟩)
    (hc : (⟨2, ![1, C]⟩ : Shape).ShapeCasts ⟨1, ![C]⟩)
    (hb1 : (⟨1, ![C]⟩ : Shape).BroadcastsInDim ⟨2, ![1, C]⟩ ![1])
    (hb2 : (⟨2, ![1, C]⟩ : Shape).BroadcastsInDim ⟨2, ![E, C]⟩ ![0, 1])
    (e : Fin E) (k : Fin C) :
    broadcastInDim ⟨2, ![E, C]⟩ ![0, 1] hb2 (broadcastInDim ⟨2, ![1, C]⟩ ![1] hb1
      (shapeCast ⟨1, ![C]⟩ (extractStridedSlice ⟨2, ![1, C]⟩ ![l.val, 0] T hs) hc)) (ix2 e k) = T (ix2 l k) := by
  -- the spread over E rows reads row 0 of the [1, C] operand, same column
  refine (broadcastInDim_apply ![0, 1] hb2 _ (ix2 e k) (ix2 (0 : Fin 1) k) ?_).trans ?_
  · intro a
    match a with
    | ⟨0, _⟩ => rfl
    | ⟨1, _⟩ => exact val_eq_ite_one k C rfl
  -- the unit axis given back: entry (0, k) is entry k
  refine (broadcastInDim_apply ![1] hb1 _ (ix2 (0 : Fin 1) k) (ix1 k) ?_).trans ?_
  · intro a
    match a with
    | ⟨0, _⟩ => exact val_eq_ite_one k C rfl
  -- the flattening: position k of [C] is position 0 * C + k of [1, C]
  refine (shapeCast_apply _ hc (ix1 k) (ix2 (0 : Fin 1) k) ?_).trans ?_
  · rw [Shape.rowMajor_val_one, Shape.rowMajor_val_two]
    show 0 * C + k.val = k.val
    omega
  -- the slice at offsets (l, 0)
  refine extractStridedSlice_apply ![l.val, 0] T hs (ix2 (0 : Fin 1) k) (ix2 l k) ?_
  intro a
  match a with
  | ⟨0, _⟩ => rfl
  | ⟨1, _⟩ => show k.val = 0 + k.val; omega

/-- A length-E vector made a column and spread over C columns: entry (e, k) is entry e. -/
theorem colSpread_apply {E C : Nat} (x : (⟨1, ![E]⟩ : Shape).Idx → α)
    (hb1 : (⟨1, ![E]⟩ : Shape).BroadcastsInDim ⟨2, ![E, 1]⟩ ![0])
    (hb2 : (⟨2, ![E, 1]⟩ : Shape).BroadcastsInDim ⟨2, ![E, C]⟩ ![0, 1]) (e : Fin E) (k : Fin C) :
    broadcastInDim ⟨2, ![E, C]⟩ ![0, 1] hb2 (broadcastInDim ⟨2, ![E, 1]⟩ ![0] hb1 x) (ix2 e k) = x (ix1 e) := by
  -- the spread over C columns reads column 0 of the [E, 1] operand, same row
  refine (broadcastInDim_apply ![0, 1] hb2 _ (ix2 e k) (ix2 e (0 : Fin 1)) ?_).trans ?_
  · intro a
    match a with
    | ⟨0, _⟩ => exact val_eq_ite_one e E rfl
    | ⟨1, _⟩ => rfl
  -- the column: entry (e, 0) is entry e
  refine broadcastInDim_apply ![0] hb1 x (ix2 e (0 : Fin 1)) (ix1 e) ?_
  intro a
  match a with
  | ⟨0, _⟩ => exact val_eq_ite_one e E rfl

/-- A vector made a column: entry (t, 0) is entry t. -/
theorem col_apply {T : Nat} (x : (⟨1, ![T]⟩ : Shape).Idx → α)
    (hb : (⟨1, ![T]⟩ : Shape).BroadcastsInDim ⟨2, ![T, 1]⟩ ![0]) (t : Fin T) (z : Fin 1) :
    broadcastInDim ⟨2, ![T, 1]⟩ ![0] hb x (ix2 t z) = x (ix1 t) := by
  refine broadcastInDim_apply ![0] hb x (ix2 t z) (ix1 t) ?_
  intro a
  match a with
  | ⟨0, _⟩ => exact val_eq_ite_one t T rfl

/-- An [E, C] array given a unit middle axis: entry (e, 0, k) is entry (e, k). -/
theorem midUnit_apply {E C : Nat} (v : (⟨2, ![E, C]⟩ : Shape).Idx → α)
    (hb : (⟨2, ![E, C]⟩ : Shape).BroadcastsInDim ⟨3, ![E, 1, C]⟩ ![0, 2]) (e : Fin E) (z : Fin 1) (k : Fin C) :
    broadcastInDim ⟨3, ![E, 1, C]⟩ ![0, 2] hb v (ix3 e z k) = v (ix2 e k) := by
  -- operand axis 0 is result axis 0, operand axis 1 is result axis 2
  refine broadcastInDim_apply ![0, 2] hb v (ix3 e z k) (ix2 e k) ?_
  intro a
  match a with
  | ⟨0, _⟩ => exact val_eq_ite_one e E rfl
  | ⟨1, _⟩ => exact val_eq_ite_one k C rfl

/-- A length-E vector spread over an [E, A, B] array along its first axis: entry (e, a, b) is entry e. -/
theorem rowSpread3_apply {E A B : Nat} (x : (⟨1, ![E]⟩ : Shape).Idx → α)
    (hb1 : (⟨1, ![E]⟩ : Shape).BroadcastsInDim ⟨3, ![E, 1, 1]⟩ ![0])
    (hb2 : (⟨3, ![E, 1, 1]⟩ : Shape).BroadcastsInDim ⟨3, ![E, A, B]⟩ ![0, 1, 2]) (e : Fin E) (a : Fin A) (b : Fin B) :
    broadcastInDim ⟨3, ![E, A, B]⟩ ![0, 1, 2] hb2 (broadcastInDim ⟨3, ![E, 1, 1]⟩ ![0] hb1 x) (ix3 e a b) = x (ix1 e) := by
  -- the spread over the two unit axes reads (e, 0, 0)
  refine (broadcastInDim_apply ![0, 1, 2] hb2 _ (ix3 e a b) (ix3 e (0 : Fin 1) (0 : Fin 1)) ?_).trans ?_
  · intro d
    match d with
    | ⟨0, _⟩ => exact val_eq_ite_one e E rfl
    | ⟨1, _⟩ => rfl
    | ⟨2, _⟩ => rfl
  -- entry (e, 0, 0) of the [E, 1, 1] array is entry e
  refine broadcastInDim_apply ![0] hb1 x (ix3 e (0 : Fin 1) (0 : Fin 1)) (ix1 e) ?_
  intro d
  match d with
  | ⟨0, _⟩ => exact val_eq_ite_one e E rfl

/-- A length-A vector spread over T rows: entry (t, a) is entry a. -/
theorem rowVec_apply {T A : Nat} (y : (⟨1, ![A]⟩ : Shape).Idx → α)
    (hb1 : (⟨1, ![A]⟩ : Shape).BroadcastsInDim ⟨2, ![1, A]⟩ ![1])
    (hb2 : (⟨2, ![1, A]⟩ : Shape).BroadcastsInDim ⟨2, ![T, A]⟩ ![0, 1]) (t : Fin T) (a : Fin A) :
    broadcastInDim ⟨2, ![T, A]⟩ ![0, 1] hb2 (broadcastInDim ⟨2, ![1, A]⟩ ![1] hb1 y) (ix2 t a) = y (ix1 a) := by
  -- the spread over T rows reads row 0 of the [1, A] operand, same column
  refine (broadcastInDim_apply ![0, 1] hb2 _ (ix2 t a) (ix2 (0 : Fin 1) a) ?_).trans ?_
  · intro d
    match d with
    | ⟨0, _⟩ => rfl
    | ⟨1, _⟩ => exact val_eq_ite_one a A rfl
  -- the row: entry (0, a) is entry a
  refine broadcastInDim_apply ![1] hb1 y (ix2 (0 : Fin 1) a) (ix1 a) ?_
  intro d
  match d with
  | ⟨0, _⟩ => exact val_eq_ite_one a A rfl

/-- A [T, A] array spread over a last axis of extent B: entry (t, a, b) is entry (t, a). -/
theorem lastSpread_apply {T A B : Nat} (v : (⟨2, ![T, A]⟩ : Shape).Idx → α)
    (hb1 : (⟨2, ![T, A]⟩ : Shape).BroadcastsInDim ⟨3, ![T, A, 1]⟩ ![0, 1])
    (hb2 : (⟨3, ![T, A, 1]⟩ : Shape).BroadcastsInDim ⟨3, ![T, A, B]⟩ ![0, 1, 2]) (t : Fin T) (a : Fin A) (b : Fin B) :
    broadcastInDim ⟨3, ![T, A, B]⟩ ![0, 1, 2] hb2 (broadcastInDim ⟨3, ![T, A, 1]⟩ ![0, 1] hb1 v) (ix3 t a b) = v (ix2 t a) := by
  -- the spread over the last axis reads (t, a, 0)
  refine (broadcastInDim_apply ![0, 1, 2] hb2 _ (ix3 t a b) (ix3 t a (0 : Fin 1)) ?_).trans ?_
  · intro d
    match d with
    | ⟨0, _⟩ => exact val_eq_ite_one t T rfl
    | ⟨1, _⟩ => exact val_eq_ite_one a A rfl
    | ⟨2, _⟩ => rfl
  -- entry (t, a, 0) of the [T, A, 1] array is entry (t, a)
  refine broadcastInDim_apply ![0, 1] hb1 v (ix3 t a (0 : Fin 1)) (ix2 t a) ?_
  intro d
  match d with
  | ⟨0, _⟩ => exact val_eq_ite_one t T rfl
  | ⟨1, _⟩ => exact val_eq_ite_one a A rfl

/-- A [T, 7, 6] array flattened to [T, 42], row-major: entry (t, c) is entry (t, c / 6, c % 6). -/
theorem flatten76_apply {T : Nat} (v : (⟨3, ![T, 7, 6]⟩ : Shape).Idx → α)
    (h : (⟨3, ![T, 7, 6]⟩ : Shape).ShapeCasts ⟨2, ![T, 42]⟩) (t : Fin T) (c : Fin 42) :
    shapeCast ⟨2, ![T, 42]⟩ v h (ix2 t c)
      = v (ix3 t (⟨c.val / 6, by omega⟩ : Fin 7) (⟨c.val % 6, Nat.mod_lt _ (by decide)⟩ : Fin 6)) := by
  -- both positions are t * 42 + c, since c = (c / 6) * 6 + c % 6
  refine shapeCast_apply v h (ix2 t c) _ ?_
  rw [Shape.rowMajor_val_three, Shape.rowMajor_val_two]
  show (t.val * 7 + c.val / 6) * 6 + c.val % 6 = t.val * 42 + c.val
  omega

end Cert.Basis

end
-- ==== Proof.KernelCols.lean ====
/-
  What the kernel body leaves in its output block, column by column.

  The body computes, on vectors of 16384 entries, the scaled distance x = d · (1/5), the envelope of x, cos of the
  angle, the Legendre values by their recurrence, and for each of the 42 (order, radial index) pairs the product
  N · j_l(Z · x) · env(x) · (P_l · Y_l), every step entrywise; each product is viewed as a column and the 42 columns are
  concatenated into a [16384, 42] block stored whole. Entry (r, c) of the block is therefore column c's entry of the
  specification at the r-th loaded distance and angle.
-/
import proofs.«131485_j49366354100415_1_alg».proof.Proof.Gen.KernelIdeal.Frame
import proofs.«131485_j49366354100415_1_alg».proof.Proof.Spec
import proofs.«131485_j49366354100415_1_alg».proof.Proof.LibLayout

noncomputable section

namespace Cert.KernelIdeal.KVal

open Cert.KernelIdeal Cert.KernelIdeal.Gen Idealize.ShloMosaic Idealize.ShloMosaic.TcCoe Idealize.SL.Sem Idealize.ShloMosaic.ValueIdx Cert.Basis

/-- The named reciprocal of the cutoff denotes the rational 1/5. -/
theorem named_inv5 : Named.named (F := Ideal) κ "inv_5" (φ := .f32) 0x3E4CCCCD#32 = inv5 := by
  unfold inv5
  exact IdealRules.named_const.ideal_named_scalar _ _ _ _ rfl

/-! ## The shared values, as functions of the loaded entries

Only the values that pass through a reshape of a vector to its own shape, or through the named constant, need a lemma;
every other entrywise step is the specification's own step and unfolds to it. -/

/-- The scaled distance: the loaded distance times 1/5. -/
private theorem pay3_eq (v0 : Vec Ideal S16384 .f32) : k0_pay3 (F := Ideal) v0 = fun i => xK (v0 i) := by
  unfold k0_pay3
  rw [shapeCast_self, named_inv5]
  rfl

/-- The envelope of the scaled distance. -/
private theorem pay4_eq (v0 : Vec Ideal S16384 .f32) : k0_pay4 (F := Ideal) v0 = fun i => envK (xK (v0 i)) := by
  unfold k0_pay4
  rw [pay3_eq]
  rfl

/-- The cosine of the loaded angle. -/
private theorem pay5_eq (v24 : Vec Ideal S16384 .f32) : k0_pay5 (F := Ideal) v24 = fun i => Ideal.cos (v24 i) := by
  unfold k0_pay5
  rw [shapeCast_self]
  rfl

/-- P_2 of the cosine, by the recurrence from P_1 = t and P_0 = 1. -/
private theorem pay7_eq (v24 : Vec Ideal S16384 .f32) : k0_pay7 (F := Ideal) v24 = fun i => leg2 (Ideal.cos (v24 i)) := by
  unfold k0_pay7
  rw [pay5_eq]
  rfl

/-- The numerator of P_3: 5 t P_2 − 2 t. -/
private theorem pay8_eq (v24 : Vec Ideal S16384 .f32) :
    k0_pay8 (F := Ideal) v24 = fun i => w 0x40A00000#32 * Ideal.cos (v24 i) * leg2 (Ideal.cos (v24 i)) - w 0x40000000#32 * Ideal.cos (v24 i) := by
  unfold k0_pay8
  rw [pay7_eq, pay5_eq]
  rfl

/-! ## One column

A column is a vector viewed as a [16384, 1] array: its entry (r, 0) is the vector's entry r, and there every step is
the specification's: z = Z · x, the Bessel recurrence up to the column's order, the normaliser, the envelope, and the
Legendre value times its coefficient. -/

local macro "col" p:ident : tactic =>
  `(tactic| (unfold $p
             refine (shapeCast_col_apply _ _ _ 0).trans ?_
             simp only [pay3_eq, pay4_eq, pay5_eq, pay7_eq, pay8_eq]
             rfl))

private theorem col_0 (x0 x1 : Vec Ideal S16384 .f32) (r : Fin 16384) :
    k0_pay15 (k0_pay3 x0) (k0_pay4 x0) (k0_pay6 (F := Ideal)) (ix2 r (0 : Fin 1))
      = colK 0 0x40490FDB#32 0x408E2C19#32 0x3E906EBB#32 (x0 (ix1 r)) (x1 (ix1 r)) := by col k0_pay15

private theorem col_1 (x0 x1 : Vec Ideal S16384 .f32) (r : Fin 16384) :
    k0_pay16 (k0_pay3 x0) (k0_pay4 x0) (k0_pay6 (F := Ideal)) (ix2 r (0 : Fin 1))
      = colK 0 0x40C90FDB#32 0x410E2C19#32 0x3E906EBB#32 (x0 (ix1 r)) (x1 (ix1 r)) := by col k0_pay16

private theorem col_2 (x0 x1 : Vec Ideal S16384 .f32) (r : Fin 16384) :
    k0_pay17 (k0_pay3 x0) (k0_pay4 x0) (k0_pay14 (k0_pay6 (F := Ideal))) (Scalar.ofBits .f32 0x4116CBE4#32) (ix2 r (0 : Fin 1))
      = colK 0 0x4116CBE4#32 0x41554225#32 0x3E906EBB#32 (x0 (ix1 r)) (x1 (ix1 r)) := by col k0_pay17

private theorem col_3 (x0 x1 : Vec Ideal S16384 .f32) (r : Fin 16384) :
    k0_pay18 (k0_pay3 x0) (k0_pay4 x0) (k0_pay14 (k0_pay6 (F := Ideal))) (ix2 r (0 : Fin 1))
      = colK 0 0x41490FDB#32 0x418E2C19#32 0x3E906EBB#32 (x0 (ix1 r)) (x1 (ix1 r)) := by col k0_pay18

private theorem col_4 (x0 x1 : Vec Ideal S16384 .f32) (r : Fin 16384) :
    k0_pay19 (k0_pay3 x0) (k0_pay4 x0) (k0_pay14 (k0_pay6 (F := Ideal))) (ix2 r (0 : Fin 1))
      = colK 0 0x417B53D1#32 0x41B1B71F#32 0x3E906EBB#32 (x0 (ix1 r)) (x1 (ix1 r)) := by col k0_pay19

private theorem col_5 (x0 x1 : Vec Ideal S16384 .f32) (r : Fin 16384) :
    k0_pay20 (k0_pay3 x0) (k0_pay4 x0) (k0_pay14 (k0_pay6 (F := Ideal))) (ix2 r (0 : Fin 1))
      = colK 0 0x4196CBE4#32 0x41D54225#32 0x3E906EBB#32 (x0 (ix1 r)) (x1 (ix1 r)) := by col k0_pay20

private theorem col_6 (x0 x1 : Vec Ideal S16384 .f32) (r : Fin 16384) :
    k0_pay23 (k0_pay22 (k0_pay3 x0) (k0_pay4 x0) (k0_pay5 x1)) (ix2 r (0 : Fin 1))
      = colK 1 0x408FCA03#32 0x40D052C6#32 0x3EFA2A1C#32 (x0 (ix1 r)) (x1 (ix1 r)) := by col k0_pay23

private theorem col_7 (x0 x1 : Vec Ideal S16384 .f32) (r : Fin 16384) :
    k0_pay24 (k0_pay3 x0) (k0_pay4 x0) (k0_pay21 (k0_pay5 x1)) (ix2 r (0 : Fin 1))
      = colK 1 0x40F73543#32 0x413042CC#32 0x3EFA2A1C#32 (x0 (ix1 r)) (x1 (ix1 r)) := by col k0_pay24

private theorem col_8 (x0 x1 : Vec Ideal S16384 .f32) (r : Fin 16384) :
    k0_pay25 (k0_pay3 x0) (k0_pay4 x0) (k0_pay21 (k0_pay5 x1)) (ix2 r (0 : Fin 1))
      = colK 1 0x412E7748#32 0x4177C47B#32 0x3EFA2A1C#32 (x0 (ix1 r)) (x1 (ix1 r)) := by col k0_pay25

private theorem col_9 (x0 x1 : Vec Ideal S16384 .f32) (r : Fin 16384) :
    k0_pay26 (k0_pay3 x0) (k0_pay4 x0) (k0_pay21 (k0_pay5 x1)) (ix2 r (0 : Fin 1))
      = colK 1 0x41610F21#32 0x419F8ADF#32 0x3EFA2A1C#32 (x0 (ix1 r)) (x1 (ix1 r)) := by col k0_pay26

private theorem col_10 (x0 x1 : Vec Ideal S16384 .f32) (r : Fin 16384) :
    k0_pay28 (k0_pay27 (k0_pay3 x0) (k0_pay4 x0) (k0_pay21 (k0_pay5 x1))) (ix2 r (0 : Fin 1))
      = colK 1 0x4189C41B#32 0x41C328A8#32 0x3EFA2A1C#32 (x0 (ix1 r)) (x1 (ix1 r)) := by col k0_pay28

private theorem col_11 (x0 x1 : Vec Ideal S16384 .f32) (r : Fin 16384) :
    k0_pay29 (k0_pay3 x0) (k0_pay4 x0) (k0_pay21 (k0_pay5 x1)) (ix2 r (0 : Fin 1))
      = colK 1 0x41A2F86E#32 0x41E6C0A4#32 0x3EFA2A1C#32 (x0 (ix1 r)) (x1 (ix1 r)) := by col k0_pay29

private theorem col_12 (x0 x1 : Vec Ideal S16384 .f32) (r : Fin 16384) :
    k0_pay31 (k0_pay3 x0) (k0_pay4 x0) (k0_pay7 x1) (ix2 r (0 : Fin 1))
      = colK 2 0x40B86E42#32 0x4108AEAE#32 0x3F217B01#32 (x0 (ix1 r)) (x1 (ix1 r)) := by col k0_pay31

private theorem col_13 (x0 x1 : Vec Ideal S16384 .f32) (r : Fin 16384) :
    k0_pay33 (k0_pay4 x0) (k0_pay30 (k0_pay7 x1)) (k0_pay32 (k0_pay3 x0)) (ix2 r (0 : Fin 1))
      = colK 2 0x4111852B#32 0x4151A0CD#32 0x3F217B01#32 (x0 (ix1 r)) (x1 (ix1 r)) := by col k0_pay33

private theorem col_14 (x0 x1 : Vec Ideal S16384 .f32) (r : Fin 16384) :
    k0_pay34 (k0_pay3 x0) (k0_pay4 x0) (k0_pay30 (k0_pay7 x1)) (ix2 r (0 : Fin 1))
      = colK 2 0x41452AC4#32 0x418CD0C6#32 0x3F217B01#32 (x0 (ix1 r)) (x1 (ix1 r)) := by col k0_pay34

private theorem col_15 (x0 x1 : Vec Ideal S16384 .f32) (r : Fin 16384) :
    k0_pay35 (k0_pay3 x0) (k0_pay4 x0) (k0_pay30 (k0_pay7 x1)) (ix2 r (0 : Fin 1))
      = colK 2 0x41783BD0#32 0x41B0A1B7#32 0x3F217B01#32 (x0 (ix1 r)) (x1 (ix1 r)) := by col k0_pay35

private theorem col_16 (x0 x1 : Vec Ideal S16384 .f32) (r : Fin 16384) :
    k0_pay40 (k0_pay4 x0) (k0_pay30 (k0_pay7 x1)) (k0_pay36 (k0_pay3 x0)) (k0_pay37 (k0_pay3 x0)) (k0_pay38 (k0_pay3 x0)) (k0_pay39 (F := Ideal)) (ix2 r (0 : Fin 1))
      = colK 2 0x41958325#32 0x41D45B2F#32 0x3F217B01#32 (x0 (ix1 r)) (x1 (ix1 r)) := by col k0_pay40

private theorem col_17 (x0 x1 : Vec Ideal S16384 .f32) (r : Fin 16384) :
    k0_pay41 (k0_pay3 x0) (k0_pay4 x0) (k0_pay30 (k0_pay7 x1)) (ix2 r (0 : Fin 1))
      = colK 2 0x41AED4BC#32 0x41F8074F#32 0x3F217B01#32 (x0 (ix1 r)) (x1 (ix1 r)) := by col k0_pay41

private theorem col_18 (x0 x1 : Vec Ideal S16384 .f32) (r : Fin 16384) :
    k0_pay44 (k0_pay43 (k0_pay3 x0) (k0_pay4 x0) (k0_pay10 (k0_pay8 x1) (k0_pay9 (F := Ideal)))) (ix2 r (0 : Fin 1))
      = colK 3 0x40DF9D24#32 0x412918C5#32 0x3F3F10F8#32 (x0 (ix1 r)) (x1 (ix1 r)) := by col k0_pay44

private theorem col_19 (x0 x1 : Vec Ideal S16384 .f32) (r : Fin 16384) :
    k0_pay45 (k0_pay3 x0) (k0_pay4 x0) (k0_pay42 (k0_pay10 (k0_pay8 x1) (k0_pay9 (F := Ideal)))) (ix2 r (0 : Fin 1))
      = colK 3 0x4126AC84#32 0x41729973#32 0x3F3F10F8#32 (x0 (ix1 r)) (x1 (ix1 r)) := by col k0_pay45

private theorem col_20 (x0 x1 : Vec Ideal S16384 .f32) (r : Fin 16384) :
    k0_pay46 (k0_pay3 x0) (k0_pay4 x0) (k0_pay42 (k0_pay10 (k0_pay8 x1) (k0_pay9 (F := Ideal)))) (ix2 r (0 : Fin 1))
      = colK 3 0x415B2B1A#32 0x419D88A8#32 0x3F3F10F8#32 (x0 (ix1 r)) (x1 (ix1 r)) := by col k0_pay46

private theorem col_21 (x0 x1 : Vec Ideal S16384 .f32) (r : Fin 16384) :
    k0_pay49 (k0_pay4 x0) (k0_pay42 (k0_pay10 (k0_pay8 x1) (k0_pay9 (F := Ideal)))) (k0_pay47 (k0_pay3 x0)) (k0_pay48 (k0_pay3 x0)) (ix2 r (0 : Fin 1))
      = colK 3 0x41876394#32 0x41C18457#32 0x3F3F10F8#32 (x0 (ix1 r)) (x1 (ix1 r)) := by col k0_pay49

private theorem col_22 (x0 x1 : Vec Ideal S16384 .f32) (r : Fin 16384) :
    k0_pay50 (k0_pay3 x0) (k0_pay4 x0) (k0_pay42 (k0_pay10 (k0_pay8 x1) (k0_pay9 (F := Ideal)))) (ix2 r (0 : Fin 1))
      = colK 3 0x41A0F976#32 0x41E55D3E#32 0x3F3F10F8#32 (x0 (ix1 r)) (x1 (ix1 r)) := by col k0_pay50

private theorem col_23 (x0 x1 : Vec Ideal S16384 .f32) (r : Fin 16384) :
    k0_pay54 (k0_pay4 x0) (k0_pay42 (k0_pay10 (k0_pay8 x1) (k0_pay9 (F := Ideal)))) (k0_pay51 (k0_pay3 x0)) (k0_pay52 (k0_pay3 x0)) (k0_pay53 (k0_pay3 x0)) (ix2 r (0 : Fin 1))
      = colK 3 0x41BA6F19#32 0x420490A6#32 0x3F3F10F8#32 (x0 (ix1 r)) (x1 (ix1 r)) := by col k0_pay54

private theorem col_24 (x0 x1 : Vec Ideal S16384 .f32) (r : Fin 16384) :
    k0_pay56 (k0_pay3 x0) (k0_pay4 x0) (k0_pay11 (k0_pay5 x1) (k0_pay7 x1) (k0_pay8 x1) (k0_pay9 (F := Ideal))) (ix2 r (0 : Fin 1))
      = colK 4 0x4102EBC6#32 0x414992AB#32 0x3F58A618#32 (x0 (ix1 r)) (x1 (ix1 r)) := by col k0_pay56

private theorem col_25 (x0 x1 : Vec Ideal S16384 .f32) (r : Fin 16384) :
    k0_pay61 (k0_pay4 x0) (k0_pay55 (k0_pay11 (k0_pay5 x1) (k0_pay7 x1) (k0_pay8 x1) (k0_pay9 (F := Ideal)))) (k0_pay57 (k0_pay3 x0)) (k0_pay58 (k0_pay3 x0)) (k0_pay59 (k0_pay3 x0)) (k0_pay60 (k0_pay3 x0)) (ix2 r (0 : Fin 1))
      = colK 4 0x413B474D#32 0x4189AC75#32 0x3F58A618#32 (x0 (ix1 r)) (x1 (ix1 r)) := by col k0_pay61

private theorem col_26 (x0 x1 : Vec Ideal S16384 .f32) (r : Fin 16384) :
    k0_pay62 (k0_pay3 x0) (k0_pay4 x0) (k0_pay55 (k0_pay11 (k0_pay5 x1) (k0_pay7 x1) (k0_pay8 x1) (k0_pay9 (F := Ideal)))) (ix2 r (0 : Fin 1))
      = colK 4 0x4170A277#32 0x41AE1B30#32 0x3F58A618#32 (x0 (ix1 r)) (x1 (ix1 r)) := by col k0_pay62

private theorem col_27 (x0 x1 : Vec Ideal S16384 .f32) (r : Fin 16384) :
    k0_pay65 (k0_pay4 x0) (k0_pay55 (k0_pay11 (k0_pay5 x1) (k0_pay7 x1) (k0_pay8 x1) (k0_pay9 (F := Ideal)))) (k0_pay63 (k0_pay3 x0)) (k0_pay64 (k0_pay3 x0)) (ix2 r (0 : Fin 1))
      = colK 4 0x419268F9#32 0x41D2401A#32 0x3F58A618#32 (x0 (ix1 r)) (x1 (ix1 r)) := by col k0_pay65

private theorem col_28 (x0 x1 : Vec Ideal S16384 .f32) (r : Fin 16384) :
    k0_pay66 (k0_pay3 x0) (k0_pay4 x0) (k0_pay55 (k0_pay11 (k0_pay5 x1) (k0_pay7 x1) (k0_pay8 x1) (k0_pay9 (F := Ideal)))) (ix2 r (0 : Fin 1))
      = colK 4 0x41AC340E#32 0x41F63954#32 0x3F58A618#32 (x0 (ix1 r)) (x1 (ix1 r)) := by col k0_pay66

private theorem col_29 (x0 x1 : Vec Ideal S16384 .f32) (r : Fin 16384) :
    k0_pay67 (k0_pay3 x0) (k0_pay4 x0) (k0_pay55 (k0_pay11 (k0_pay5 x1) (k0_pay7 x1) (k0_pay8 x1) (k0_pay9 (F := Ideal)))) (Scalar.ofBits .f32 0x41C5D20E#32) (ix2 r (0 : Fin 1))
      = colK 4 0x41C5D20E#32 0x420D0B83#32 0x3F58A618#32 (x0 (ix1 r)) (x1 (ix1 r)) := by col k0_pay67

private theorem col_30 (x0 x1 : Vec Ideal S16384 .f32) (r : Fin 16384) :
    k0_pay74 (k0_pay4 x0) (k0_pay68 (k0_pay12 (k0_pay5 x1) (k0_pay7 x1) (k0_pay8 x1) (k0_pay9 (F := Ideal)))) (k0_pay69 (k0_pay3 x0)) (k0_pay72 (k0_pay3 x0)) (k0_pay73 (k0_pay3 x0)) (ix2 r (0 : Fin 1))
      = colK 5 0x4115B168#32 0x416A2F9C#32 0x3F6F83A7#32 (x0 (ix1 r)) (x1 (ix1 r)) := by col k0_pay74

private theorem col_31 (x0 x1 : Vec Ideal S16384 .f32) (r : Fin 16384) :
    k0_pay75 (k0_pay3 x0) (k0_pay4 x0) (k0_pay68 (k0_pay12 (k0_pay5 x1) (k0_pay7 x1) (k0_pay8 x1) (k0_pay9 (F := Ideal)))) (ix2 r (0 : Fin 1))
      = colK 5 0x414F76E8#32 0x4199FC9A#32 0x3F6F83A7#32 (x0 (ix1 r)) (x1 (ix1 r)) := by col k0_pay75

private theorem col_32 (x0 x1 : Vec Ideal S16384 .f32) (r : Fin 16384) :
    k0_pay79 (k0_pay4 x0) (k0_pay68 (k0_pay12 (k0_pay5 x1) (k0_pay7 x1) (k0_pay8 x1) (k0_pay9 (F := Ideal)))) (k0_pay76 (k0_pay3 x0)) (k0_pay77 (k0_pay3 x0)) (k0_pay78 (k0_pay3 x0)) (Scalar.ofBits .f32 0x40400000#32) (ix2 r (0 : Fin 1))
      = colK 5 0x4182D672#32 0x41BE93C8#32 0x3F6F83A7#32 (x0 (ix1 r)) (x1 (ix1 r)) := by col k0_pay79

private theorem col_33 (x0 x1 : Vec Ideal S16384 .f32) (r : Fin 16384) :
    k0_pay81 (k0_pay68 (k0_pay12 (k0_pay5 x1) (k0_pay7 x1) (k0_pay8 x1) (k0_pay9 (F := Ideal)))) (k0_pay80 (k0_pay3 x0) (k0_pay4 x0)) (ix2 r (0 : Fin 1))
      = colK 5 0x419D39A8#32 0x41E2DE79#32 0x3F6F83A7#32 (x0 (ix1 r)) (x1 (ix1 r)) := by col k0_pay81

private theorem col_34 (x0 x1 : Vec Ideal S16384 .f32) (r : Fin 16384) :
    k0_pay82 (k0_pay3 x0) (k0_pay4 x0) (k0_pay68 (k0_pay12 (k0_pay5 x1) (k0_pay7 x1) (k0_pay8 x1) (k0_pay9 (F := Ideal)))) (ix2 r (0 : Fin 1))
      = colK 5 0x41B73C85#32 0x42037BA1#32 0x3F6F83A7#32 (x0 (ix1 r)) (x1 (ix1 r)) := by col k0_pay82

private theorem col_35 (x0 x1 : Vec Ideal S16384 .f32) (r : Fin 16384) :
    k0_pay87 (k0_pay4 x0) (k0_pay68 (k0_pay12 (k0_pay5 x1) (k0_pay7 x1) (k0_pay8 x1) (k0_pay9 (F := Ideal)))) (k0_pay83 (k0_pay3 x0)) (k0_pay85 (k0_pay3 x0)) (k0_pay86 (k0_pay3 x0)) (ix2 r (0 : Fin 1))
      = colK 5 0x41D105A2#32 0x4215777C#32 0x3F6F83A7#32 (x0 (ix1 r)) (x1 (ix1 r)) := by col k0_pay87

private theorem col_36 (x0 x1 : Vec Ideal S16384 .f32) (r : Fin 16384) :
    k0_pay90 (k0_pay89 (k0_pay3 x0) (k0_pay4 x0) (k0_pay13 (k0_pay5 x1) (k0_pay7 x1) (k0_pay8 x1) (k0_pay9 (F := Ideal)))) (ix2 r (0 : Fin 1))
      = colK 6 0x41283493#32 0x41857C6F#32 0x3F823092#32 (x0 (ix1 r)) (x1 (ix1 r)) := by col k0_pay90

private theorem col_37 (x0 x1 : Vec Ideal S16384 .f32) (r : Fin 16384) :
    k0_pay91 (k0_pay3 x0) (k0_pay4 x0) (k0_pay88 (k0_pay13 (k0_pay5 x1) (k0_pay7 x1) (k0_pay8 x1) (k0_pay9 (F := Ideal)))) (ix2 r (0 : Fin 1))
      = colK 6 0x4163517B#32 0x41AA455E#32 0x3F823092#32 (x0 (ix1 r)) (x1 (ix1 r)) := by col k0_pay91

private theorem col_38 (x0 x1 : Vec Ideal S16384 .f32) (r : Fin 16384) :
    k0_pay95 (k0_pay4 x0) (k0_pay88 (k0_pay13 (k0_pay5 x1) (k0_pay7 x1) (k0_pay8 x1) (k0_pay9 (F := Ideal)))) (k0_pay92 (k0_pay3 x0)) (k0_pay93 (k0_pay3 x0)) (k0_pay94 (k0_pay3 x0)) (Scalar.ofBits .f32 0x40A00000#32) (ix2 r (0 : Fin 1))
      = colK 6 0x418D2F0D#32 0x41CEFA54#32 0x3F823092#32 (x0 (ix1 r)) (x1 (ix1 r)) := by col k0_pay95

private theorem col_39 (x0 x1 : Vec Ideal S16384 .f32) (r : Fin 16384) :
    k0_pay102 (k0_pay4 x0) (k0_pay88 (k0_pay13 (k0_pay5 x1) (k0_pay7 x1) (k0_pay8 x1) (k0_pay9 (F := Ideal)))) (k0_pay100 (k0_pay3 x0)) (k0_pay101 (k0_pay3 x0)) (ix2 r (0 : Fin 1))
      = colK 6 0x41A7DE22#32 0x41F36663#32 0x3F823092#32 (x0 (ix1 r)) (x1 (ix1 r)) := by col k0_pay102

private theorem col_40 (x0 x1 : Vec Ideal S16384 .f32) (r : Fin 16384) :
    k0_pay103 (k0_pay3 x0) (k0_pay4 x0) (k0_pay88 (k0_pay13 (k0_pay5 x1) (k0_pay7 x1) (k0_pay8 x1) (k0_pay9 (F := Ideal)))) (ix2 r (0 : Fin 1))
      = colK 6 0x41C21A26#32 0x420BCE7F#32 0x3F823092#32 (x0 (ix1 r)) (x1 (ix1 r)) := by col k0_pay103

private theorem col_41 (x0 x1 : Vec Ideal S16384 .f32) (r : Fin 16384) :
    shapeCast S16384x1 (k0_pay1 (k0_pay4 x0) (k0_pay88 (k0_pay13 (k0_pay5 x1) (k0_pay7 x1) (k0_pay8 x1) (k0_pay9 (F := Ideal)))) (k0_pay104 (k0_pay3 x0)) (k0_pay105 (k0_pay3 x0)) (k0_pay106 (k0_pay3 x0))) shapeCasts_S16384_S16384x1 (ix2 r (0 : Fin 1))
      = colK 6 0x41DC101D#32 0x421DD723#32 0x3F823092#32 (x0 (ix1 r)) (x1 (ix1 r)) := by col k0_pay1

/-! ## The concatenation -/

/-- A concatenation of 42 arrays of shape [16384, 1] along the second axis, read at (r, c): piece c at (r, 0) — the
    pieces before it have extent 1 each on that axis, c in all. -/
private theorem concat_col {α : Type} (xs : List ((s : Shape) × (s.Idx → α)))
    (h : Shape.Concatenates (xs.map (·.1)) S16384x42 1) (r : Fin 16384) (c : Fin 42)
    (hsh : xs.map (·.1) = List.replicate 42 S16384x1) (x₁ : S16384x1.Idx → α)
    (hxk : xs[c.val]? = some ⟨S16384x1, x₁⟩) :
    concatenate S16384x42 1 xs h (ix2 r c) = x₁ (ix2 r (0 : Fin 1)) := by
  have hlen : xs.length = 42 := by
    have := congrArg List.length hsh
    rwa [List.length_map, List.length_replicate] at this
  have hk : c.val < xs.length := by rw [hlen]; exact c.isLt
  have hxk' : xs[c.val] = ⟨S16384x1, x₁⟩ := by
    rw [List.getElem?_eq_getElem hk] at hxk
    exact Option.some.inj hxk
  have hc : min c.val 42 = c.val := Nat.min_eq_left (Nat.le_of_lt c.isLt)
  have hpre : (((xs.take c.val).map (·.1)).map fun s =>
      if h : s.rank = S16384x42.rank then s.size ((1 : Fin S16384x42.rank).cast h.symm) else 0).sum = c.val := by
    rw [List.map_take, hsh, List.take_replicate, List.map_replicate, List.sum_replicate, hc]
    show c.val • 1 = c.val
    rw [smul_eq_mul, Nat.mul_one]
  refine concatenate_apply_piece (1 : Fin S16384x42.rank) xs h (ix2 r c) c.val hk S16384x1 x₁ hxk' rfl
    c.val hpre (ix2 r (0 : Fin 1)) ?_ ?_
  · intro b hb
    match b with
    | ⟨0, _⟩ => rfl
    | ⟨1, _⟩ => exact absurd rfl hb
  · show c.val + 0 = c.val
    rfl

local macro "pick" : tactic =>
  `(tactic| (unfold k0_pay2
             exact concat_col _ _ _ _ rfl _ rfl))

private theorem pay2_0 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 0 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨0, h⟩)
      = v0 (ix2 r (0 : Fin 1)) := by pick

private theorem pay2_1 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 1 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨1, h⟩)
      = v1 (ix2 r (0 : Fin 1)) := by pick

private theorem pay2_2 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 2 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨2, h⟩)
      = v2 (ix2 r (0 : Fin 1)) := by pick

private theorem pay2_3 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 3 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨3, h⟩)
      = v3 (ix2 r (0 : Fin 1)) := by pick

private theorem pay2_4 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 4 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨4, h⟩)
      = v4 (ix2 r (0 : Fin 1)) := by pick

private theorem pay2_5 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 5 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨5, h⟩)
      = v5 (ix2 r (0 : Fin 1)) := by pick

private theorem pay2_6 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 6 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨6, h⟩)
      = v6 (ix2 r (0 : Fin 1)) := by pick

private theorem pay2_7 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 7 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨7, h⟩)
      = v7 (ix2 r (0 : Fin 1)) := by pick

private theorem pay2_8 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 8 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨8, h⟩)
      = v8 (ix2 r (0 : Fin 1)) := by pick

private theorem pay2_9 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 9 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨9, h⟩)
      = v9 (ix2 r (0 : Fin 1)) := by pick

private theorem pay2_10 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 10 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨10, h⟩)
      = v10 (ix2 r (0 : Fin 1)) := by pick

private theorem pay2_11 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 11 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨11, h⟩)
      = v11 (ix2 r (0 : Fin 1)) := by pick

private theorem pay2_12 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 12 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨12, h⟩)
      = v12 (ix2 r (0 : Fin 1)) := by pick

private theorem pay2_13 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 13 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨13, h⟩)
      = v13 (ix2 r (0 : Fin 1)) := by pick

private theorem pay2_14 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 14 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨14, h⟩)
      = v14 (ix2 r (0 : Fin 1)) := by pick

private theorem pay2_15 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 15 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨15, h⟩)
      = v15 (ix2 r (0 : Fin 1)) := by pick

private theorem pay2_16 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 16 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨16, h⟩)
      = v16 (ix2 r (0 : Fin 1)) := by pick

private theorem pay2_17 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 17 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨17, h⟩)
      = v17 (ix2 r (0 : Fin 1)) := by pick

private theorem pay2_18 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 18 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨18, h⟩)
      = v18 (ix2 r (0 : Fin 1)) := by pick

private theorem pay2_19 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 19 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨19, h⟩)
      = v19 (ix2 r (0 : Fin 1)) := by pick

private theorem pay2_20 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 20 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨20, h⟩)
      = v20 (ix2 r (0 : Fin 1)) := by pick

private theorem pay2_21 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 21 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨21, h⟩)
      = v21 (ix2 r (0 : Fin 1)) := by pick

private theorem pay2_22 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 22 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨22, h⟩)
      = v22 (ix2 r (0 : Fin 1)) := by pick

private theorem pay2_23 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 23 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨23, h⟩)
      = v23 (ix2 r (0 : Fin 1)) := by pick

private theorem pay2_24 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 24 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨24, h⟩)
      = v24 (ix2 r (0 : Fin 1)) := by pick

private theorem pay2_25 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 25 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨25, h⟩)
      = v25 (ix2 r (0 : Fin 1)) := by pick

private theorem pay2_26 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 26 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨26, h⟩)
      = v26 (ix2 r (0 : Fin 1)) := by pick

private theorem pay2_27 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 27 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨27, h⟩)
      = v27 (ix2 r (0 : Fin 1)) := by pick

private theorem pay2_28 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 28 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨28, h⟩)
      = v28 (ix2 r (0 : Fin 1)) := by pick

private theorem pay2_29 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 29 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨29, h⟩)
      = v29 (ix2 r (0 : Fin 1)) := by pick

private theorem pay2_30 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 30 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨30, h⟩)
      = v30 (ix2 r (0 : Fin 1)) := by pick

private theorem pay2_31 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 31 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨31, h⟩)
      = v31 (ix2 r (0 : Fin 1)) := by pick

private theorem pay2_32 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 32 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨32, h⟩)
      = v32 (ix2 r (0 : Fin 1)) := by pick

private theorem pay2_33 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 33 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨33, h⟩)
      = v33 (ix2 r (0 : Fin 1)) := by pick

private theorem pay2_34 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 34 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨34, h⟩)
      = v34 (ix2 r (0 : Fin 1)) := by pick

private theorem pay2_35 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 35 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨35, h⟩)
      = v35 (ix2 r (0 : Fin 1)) := by pick

private theorem pay2_36 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 36 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨36, h⟩)
      = v36 (ix2 r (0 : Fin 1)) := by pick

private theorem pay2_37 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 37 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨37, h⟩)
      = v37 (ix2 r (0 : Fin 1)) := by pick

private theorem pay2_38 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 38 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨38, h⟩)
      = v38 (ix2 r (0 : Fin 1)) := by pick

private theorem pay2_39 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 39 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨39, h⟩)
      = v39 (ix2 r (0 : Fin 1)) := by pick

private theorem pay2_40 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 40 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨40, h⟩)
      = v40 (ix2 r (0 : Fin 1)) := by pick

private theorem pay2_41 (r : Fin 16384) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 : FVec Ideal S16384x1 .f32) (v41 : FVec Ideal S16384 .f32)
    (h : 41 < 42) :
    k0_pay2 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 (ix2 r ⟨41, h⟩)
      = shapeCast S16384x1 v41 shapeCasts_S16384_S16384x1 (ix2 r (0 : Fin 1)) := by pick

/-! ## The block -/

/-- Entry (r, c) of the block the body stores is column c's specified entry at the r-th entries of the two loaded blocks. -/
theorem out_col (x0 x1 : Vec Ideal S16384 .f32) (r : Fin 16384) (c : Fin 42) :
    out0_2 (F := Ideal) x0 x1 (ix2 r c) = colOf c (x0 (ix1 r)) (x1 (ix1 r)) := by
  have hz : (![0, 0] : Fin 2 → Nat) = fun _ => 0 := funext fun a => by fin_cases a <;> rfl
  have hz1 : (![0] : Fin 1 → Nat) = fun _ => 0 := funext fun a => by fin_cases a; rfl
  -- the one store covers the block, and the two loads read the whole input blocks
  unfold out0_2
  rw [View.canon_unit_zero hz]
  simp only [View.ld_unit_zero (S := S16384) hz1]
  -- column by column: the piece of the concatenation, then the column's value
  fin_cases c
  · exact (pay2_0 r ..).trans (col_0 x0 x1 r)
  · exact (pay2_1 r ..).trans (col_1 x0 x1 r)
  · exact (pay2_2 r ..).trans (col_2 x0 x1 r)
  · exact (pay2_3 r ..).trans (col_3 x0 x1 r)
  · exact (pay2_4 r ..).trans (col_4 x0 x1 r)
  · exact (pay2_5 r ..).trans (col_5 x0 x1 r)
  · exact (pay2_6 r ..).trans (col_6 x0 x1 r)
  · exact (pay2_7 r ..).trans (col_7 x0 x1 r)
  · exact (pay2_8 r ..).trans (col_8 x0 x1 r)
  · exact (pay2_9 r ..).trans (col_9 x0 x1 r)
  · exact (pay2_10 r ..).trans (col_10 x0 x1 r)
  · exact (pay2_11 r ..).trans (col_11 x0 x1 r)
  · exact (pay2_12 r ..).trans (col_12 x0 x1 r)
  · exact (pay2_13 r ..).trans (col_13 x0 x1 r)
  · exact (pay2_14 r ..).trans (col_14 x0 x1 r)
  · exact (pay2_15 r ..).trans (col_15 x0 x1 r)
  · exact (pay2_16 r ..).trans (col_16 x0 x1 r)
  · exact (pay2_17 r ..).trans (col_17 x0 x1 r)
  · exact (pay2_18 r ..).trans (col_18 x0 x1 r)
  · exact (pay2_19 r ..).trans (col_19 x0 x1 r)
  · exact (pay2_20 r ..).trans (col_20 x0 x1 r)
  · exact (pay2_21 r ..).trans (col_21 x0 x1 r)
  · exact (pay2_22 r ..).trans (col_22 x0 x1 r)
  · exact (pay2_23 r ..).trans (col_23 x0 x1 r)
  · exact (pay2_24 r ..).trans (col_24 x0 x1 r)
  · exact (pay2_25 r ..).trans (col_25 x0 x1 r)
  · exact (pay2_26 r ..).trans (col_26 x0 x1 r)
  · exact (pay2_27 r ..).trans (col_27 x0 x1 r)
  · exact (pay2_28 r ..).trans (col_28 x0 x1 r)
  · exact (pay2_29 r ..).trans (col_29 x0 x1 r)
  · exact (pay2_30 r ..).trans (col_30 x0 x1 r)
  · exact (pay2_31 r ..).trans (col_31 x0 x1 r)
  · exact (pay2_32 r ..).trans (col_32 x0 x1 r)
  · exact (pay2_33 r ..).trans (col_33 x0 x1 r)
  · exact (pay2_34 r ..).trans (col_34 x0 x1 r)
  · exact (pay2_35 r ..).trans (col_35 x0 x1 r)
  · exact (pay2_36 r ..).trans (col_36 x0 x1 r)
  · exact (pay2_37 r ..).trans (col_37 x0 x1 r)
  · exact (pay2_38 r ..).trans (col_38 x0 x1 r)
  · exact (pay2_39 r ..).trans (col_39 x0 x1 r)
  · exact (pay2_40 r ..).trans (col_40 x0 x1 r)
  · exact (pay2_41 r ..).trans (col_41 x0 x1 r)

end Cert.KernelIdeal.KVal

end
-- ==== Proof.KernelArr.lean ====
/-
  From the blocks to the output array.

  Grid point t reads block t (entries 16384·t … 16384·t + 16383) of the two padded input arrays and writes block t
  (the same rows, all 42 columns) of the output array; the 123 blocks tile it. So after the run entry (i, c) of the
  [2015232, 42] output array is column c's specified entry at the i-th entries of the two padded arrays.
-/
import proofs.«131485_j49366354100415_1_alg».proof.Proof.KernelCols
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx Cert.Basis
open Idealize.ShloMosaic.Pipeline (Dat Cfg Window)

variable (m : (ℓ : Loc nD τ sig) → Buf (Elt Ideal) ℓ)

/-- The three index maps over the grid: at point t both input windows and the output window are at block t along the
    rows, and the output window is at block 0 along the columns. -/
private theorem block_index : ∀ t : Fin cfg0.N, win0_0.index t (0 : Fin 1) = t.val
    ∧ win0_1.index t (0 : Fin 1) = t.val
    ∧ win0_2.index t (0 : Fin 2) = t.val
    ∧ win0_2.index t (1 : Fin 2) = 0 :=
  (by decide +kernel : ∀ t : Fin grid0.N, _)

/-- The padded distances and the padded angles as the region finds them, as functions on the 2015232 entries. -/
private abbrev dist (c : Dev nD) : S2015232.Idx → EReal := V m c main_v7
private abbrev angle (c : Dev nD) : S2015232.Idx → EReal := V m c main_v8

/-- The array the output ends holding: entry (i, c) is column c's entry at the i-th padded distance and angle. -/
private def rowsCols (c : Dev nD) : S2015232x42.Idx → EReal :=
  fun i => colOf (i 1) (dist m c (ix1 (i 0))) (angle m c (ix1 (i 0)))

/-- What point t writes back is block t of that array. Entry (r, c) of the stored block is column c's entry at the
    r-th entries of the two loaded blocks; a block's coordinate in its array is, on each axis, the block index times
    the block's size plus the coordinate inside the block, so the r-th entry of either input block and row r of the
    output block sit at the same row 16384·t + r of their arrays, and column c of the block is column c of the array. -/
private theorem written_block (c : Dev nD) (t : Fin cfg0.N) :
    (dats m 0 c).flushed 2 t = ((cfg0.win 2).blk t).view.read (Elt Ideal) (rowsCols m c) := by
  show (cfg0.win 2).cut (grid0.coords t) ((dats m 0 c).after 2 t) = _
  rw [after0_2]
  obtain ⟨e0, e1, e2, e3⟩ := block_index t
  funext y
  obtain ⟨r, cc, rfl⟩ : ∃ (r : Fin 16384) (cc : Fin 42), y = ix2 r cc :=
    ⟨y 0, y 1, eq_ix2 (n0 := 16384) (n1 := 42) y⟩
  show out0_2 (iblk m c 0 t) (iblk m c 1 t) (ix2 r cc) = rowsCols m c (((cfg0.win 2).blk t).view.emb (ix2 r cc))
  refine (out_col _ _ r cc).trans ?_
  -- the column of the block is the column of the array
  have hcol : (((cfg0.win 2).blk t).view.emb (ix2 r cc)) 1 = cc := by
    apply Fin.ext
    show win0_2.index t (1 : Fin 2) * 42 + 1 * cc.val = cc.val
    omega
  -- the r-th entry of the distances' block and of the angles' block is at the output row's place
  have hdist : ((cfg0.win 0).blk t).view.emb (ix1 r) = ix1 ((((cfg0.win 2).blk t).view.emb (ix2 r cc)) 0) := by
    funext a; apply Fin.ext
    match a with
    | ⟨0, _⟩ =>
      show win0_0.index t (0 : Fin 1) * 16384 + 1 * r.val = win0_2.index t (0 : Fin 2) * 16384 + 1 * r.val
      omega
  have hangle : ((cfg0.win 1).blk t).view.emb (ix1 r) = ix1 ((((cfg0.win 2).blk t).view.emb (ix2 r cc)) 0) := by
    funext a; apply Fin.ext
    match a with
    | ⟨0, _⟩ =>
      show win0_1.index t (0 : Fin 1) * 16384 + 1 * r.val = win0_2.index t (0 : Fin 2) * 16384 + 1 * r.val
      omega
  show colOf cc (dist m c (((cfg0.win 0).blk t).view.emb (ix1 r))) (angle m c (((cfg0.win 1).blk t).view.emb (ix1 r)))
    = colOf ((((cfg0.win 2).blk t).view.emb (ix2 r cc)) 1)
        (dist m c (ix1 ((((cfg0.win 2).blk t).view.emb (ix2 r cc)) 0)))
        (angle m c (ix1 ((((cfg0.win 2).blk t).view.emb (ix2 r cc)) 0)))
  rw [hdist, hangle, hcol]
  rfl

/-- An index of the output array is in point t's block iff each coordinate is in the block's range on its axis. -/
private theorem mem_block (t : Fin cfg0.N) (i : S2015232x42.Idx) :
    i ∈ ((cfg0.win 2).blk t).view.set ↔ ∀ a : Fin 2, win0_2.index t a * S16384x42.size a ≤ (i a).val
      ∧ (i a).val < win0_2.index t a * S16384x42.size a + S16384x42.size a := by
  show i ∈ ((View.whole main_v9).slice (win0_2.rect t)).set ↔ _
  rw [View.set_slice_whole, Rect.mem_set_unit]
  exact Iff.rfl

/-- The blocks tile the array: row i lies in the block of point i / 16384 (2015232 = 123 · 16384), which is written
    back like every point's. -/
private theorem tiled (i : S2015232x42.Idx) :
    ∃ t : Fin cfg0.N, (cfg0.win 2).flush t = true ∧ i ∈ ((cfg0.win 2).blk t).view.set := by
  have hi0 : (i 0).val < 2015232 := (i 0).isLt
  have hi1 : (i 1).val < 42 := (i 1).isLt
  have hN : cfg0.N = 123 := N_0
  have hlt : (i 0).val / 16384 < cfg0.N := by rw [hN]; omega
  obtain ⟨-, -, e2, e3⟩ := block_index ⟨(i 0).val / 16384, hlt⟩
  have e2' : win0_2.index ⟨(i 0).val / 16384, hlt⟩ (0 : Fin 2) = (i 0).val / 16384 := e2
  refine ⟨⟨(i 0).val / 16384, hlt⟩, flush0_2 _, ?_⟩
  rw [mem_block]
  intro a
  match a with
  | ⟨0, _⟩ =>
    show win0_2.index ⟨(i 0).val / 16384, hlt⟩ (0 : Fin 2) * 16384 ≤ (i 0).val
      ∧ (i 0).val < win0_2.index ⟨(i 0).val / 16384, hlt⟩ (0 : Fin 2) * 16384 + 16384
    omega
  | ⟨1, _⟩ =>
    show win0_2.index ⟨(i 0).val / 16384, hlt⟩ (1 : Fin 2) * 42 ≤ (i 1).val
      ∧ (i 1).val < win0_2.index ⟨(i 0).val / 16384, hlt⟩ (1 : Fin 2) * 42 + 42
    omega

/-- The output array after the run: entry (i, c) is column c's entry at the i-th padded distance and angle. -/
theorem final2 (c : Dev nD) :
    (dats m 0 c).arrAt 2 cfg0.N
      = fun i : S2015232x42.Idx => colOf (i 1) ((V m c main_v7 : S2015232.Idx → EReal) (ix1 (i 0)))
          ((V m c main_v8 : S2015232.Idx → EReal) (ix1 (i 0))) :=
  -- every point writes back its block of that one array, and the blocks cover the array
  (dats m 0 c).arrAt_eq_of_cover 2 (rowsCols m c) (fun t _ => written_block m c t) tiled

end Cert.KernelIdeal.KVal

end
-- ==== Proof.LibGathers.lean ====
/-
  A gather along the leading axis, read at an index.

  `x[i]` for a table `x` whose first axis has extent N and a column of index words `i` (one word per result row) is
  a StableHLO gather that collapses the first operand axis, takes its start from the one-word index vector, and copies
  the remaining axes whole. Result row t is operand row `clamp(i[t])`: the word read as a signed integer, negative
  values to 0 (the conversion to a natural number), values past the end to N − 1 (the gather's own clamp of every
  start index). Two shapes of table: a flat one (rows are single entries) and one whose rows are A × B matrices.
-/
import Idealize.ShloMosaic.PureOps
import Idealize.ShloMosaic.Lib.ValueIdx

noncomputable section

namespace Cert.Basis

open Idealize.ShloMosaic Idealize.ShloMosaic.ValueIdx

variable {α : Type}

/-- The dimension numbers of `x[i]` for a flat table of N entries and T index words in a column. -/
abbrev flatDims (N T : Nat) (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- Result entry t is the table's entry at t's index word, read signed and clamped into [0, N − 1]. -/
theorem gather_flat_apply {N T : Nat} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ 32) (t : Fin T) :
    Host.gather (flatDims N T wf) x idx (ix1 t)
      = x (ix1 ⟨min (idx (ix2 t (0 : Fin 1))).toInt.toNat (N - 1), by omega⟩) := by
  unfold Host.gather
  congr 1
  funext a
  obtain rfl : a = 0 := Subsingleton.elim _ _
  refine Fin.ext ?_
  show (flatDims N T wf).start (ix1 t) idx 0 + (flatDims N T wf).batchCoord (ix1 t) 0
    + (flatDims N T wf).offCoord (ix1 t) 0 = _
  -- the one operand axis is collapsed and not a batching axis: no batching and no offset coordinate
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  -- it is in the start index map: the start is the index word, clamped to N − 1
  unfold GatherDims.start
  rw [dif_pos (show (0 : Fin 1) ∈ (flatDims N T wf).startIndexMap from List.mem_singleton.mpr rfl)]
  -- the word is read at (t, 0): t on the batch axis, 0 on the index vector's axis
  have hsi : (flatDims N T wf).siIdx (ix1 t) ⟨List.idxOf (0 : Fin 1) (flatDims N T wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

/-- The dimension numbers of `x[i]` for a table of N rows, each an A × B matrix, and T index words in a column. -/
abbrev rowsDims (N A B T : Nat)
    (wf : GatherDims.WF ⟨3, ![N, A, B]⟩ ⟨2, ![T, 1]⟩ ⟨3, ![T, A, B]⟩ [1, 2] [0] [] [0] [] 1 ![1, A, B]) :
    GatherDims ⟨3, ![N, A, B]⟩ ⟨2, ![T, 1]⟩ ⟨3, ![T, A, B]⟩ where
  offsetDims := [1, 2]
  collapsedSliceDims := [0]
  operandBatchingDims := []
  startIndicesBatchingDims := []
  startIndexMap := [0]
  indexVectorDim := 1
  sliceSizes := ![1, A, B]
  wf := wf

/-- Axis 0 of the operand index: collapsed and in the start index map, so it is the index word read at (t, 0),
    signed and clamped to N − 1, with no batching and no offset coordinate. -/
private theorem rows_coord0 {N A B T : Nat}
    (wf : GatherDims.WF ⟨3, ![N, A, B]⟩ ⟨2, ![T, 1]⟩ ⟨3, ![T, A, B]⟩ [1, 2] [0] [] [0] [] 1 ![1, A, B])
    (idx : IVec ⟨2, ![T, 1]⟩ 32) (t : Fin T) (a : Fin A) (b : Fin B) :
    (rowsDims N A B T wf).start (ix3 t a b) idx (0 : Fin 3) + (rowsDims N A B T wf).batchCoord (ix3 t a b) (0 : Fin 3)
      + (rowsDims N A B T wf).offCoord (ix3 t a b) (0 : Fin 3)
      = min (idx (ix2 t (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (rowsDims N A B T wf).startIndexMap from List.mem_singleton.mpr rfl)]
  have hsi : (rowsDims N A B T wf).siIdx (ix3 t a b) ⟨List.idxOf (0 : Fin 3) (rowsDims N A B T wf).startIndexMap,
      List.idxOf_lt_length_iff.2 (List.mem_singleton.mpr rfl)⟩ = ix2 t (0 : Fin 1) := by
    funext e; refine Fin.ext ?_
    match e with
    | ⟨0, _⟩ => rfl
    | ⟨1, _⟩ => rfl
  rw [hsi]
  rfl

/-- Axis 1 of the operand index: not in the start index map (start 0), not a batching axis, and the first of the
    kept axes [1, 2], which the offset axes [1, 2] read in order: it is result coordinate 1. -/
private theorem rows_coord1 {N A B T : Nat}
    (wf : GatherDims.WF ⟨3, ![N, A, B]⟩ ⟨2, ![T, 1]⟩ ⟨3, ![T, A, B]⟩ [1, 2] [0] [] [0] [] 1 ![1, A, B])
    (idx : IVec ⟨2, ![T, 1]⟩ 32) (t : Fin T) (a : Fin A) (b : Fin B) :
    (rowsDims N A B T wf).start (ix3 t a b) idx (1 : Fin 3) + (rowsDims N A B T wf).batchCoord (ix3 t a b) (1 : Fin 3)
      + (rowsDims N A B T wf).offCoord (ix3 t a b) (1 : Fin 3) = a.val := by
  have hm : (1 : Fin 3) ∉ [(0 : Fin 3)] := by decide
  rw [GatherDims.batchCoord_eq_zero _ _ _ List.not_mem_nil, Nat.add_zero]
  have hs : (rowsDims N A B T wf).start (ix3 t a b) idx (1 : Fin 3) = 0 := by
    unfold GatherDims.start
    exact dif_neg hm
  have ho : (rowsDims N A B T wf).offCoord (ix3 t a b) (1 : Fin 3) = a.val := by
    unfold GatherDims.offCoord
    rw [dif_pos ((GatherDims.mem_sKept _ _).mpr ⟨hm, List.not_mem_nil⟩)]
    rfl
  rw [hs, ho, Nat.zero_add]

/-- Axis 2 of the operand index: start 0, no batching coordinate, the second kept axis: result coordinate 2. -/
private theorem rows_coord2 {N A B T : Nat}
    (wf : GatherDims.WF ⟨3, ![N, A, B]⟩ ⟨2, ![T, 1]⟩ ⟨3, ![T, A, B]⟩ [1, 2] [0] [] [0] [] 1 ![1, A, B])
    (idx : IVec ⟨2, ![T, 1]⟩ 32) (t : Fin T) (a : Fin A) (b : Fin B) :
    (rowsDims N A B T wf).start (ix3 t a b) idx (2 : Fin 3) + (rowsDims N A B T wf).batchCoord (ix3 t a b) (2 : Fin 3)
      + (rowsDims N A B T wf).offCoord (ix3 t a b) (2 : Fin 3) = b.val := by
  have hm : (2 : Fin 3) ∉ [(0 : Fin 3)] := by decide
  rw [GatherDims.batchCoord_eq_zero _ _ _ List.not_mem_nil, Nat.add_zero]
  have hs : (rowsDims N A B T wf).start (ix3 t a b) idx (2 : Fin 3) = 0 := by
    unfold GatherDims.start
    exact dif_neg hm
  have ho : (rowsDims N A B T wf).offCoord (ix3 t a b) (2 : Fin 3) = b.val := by
    unfold GatherDims.offCoord
    rw [dif_pos ((GatherDims.mem_sKept _ _).mpr ⟨hm, List.not_mem_nil⟩)]
    rfl
  rw [hs, ho, Nat.zero_add]

/-- Result entry (t, a, b) is entry (a, b) of the table's row at t's index word, read signed and clamped. -/
theorem gather_rows_apply {N A B T : Nat} (hN : 0 < N)
    (wf : GatherDims.WF ⟨3, ![N, A, B]⟩ ⟨2, ![T, 1]⟩ ⟨3, ![T, A, B]⟩ [1, 2] [0] [] [0] [] 1 ![1, A, B])
    (x : (⟨3, ![N, A, B]⟩ : Shape).Idx → α) (idx : IVec ⟨2, ![T, 1]⟩ 32) (t : Fin T) (a : Fin A) (b : Fin B) :
    Host.gather (rowsDims N A B T wf) x idx (ix3 t a b)
      = x (ix3 ⟨min (idx (ix2 t (0 : Fin 1))).toInt.toNat (N - 1), by omega⟩ a b) := by
  unfold Host.gather
  congr 1
  -- the operand index agrees with (clamped word, a, b) axis by axis
  funext c
  refine Fin.ext ?_
  match c with
  | ⟨0, _⟩ => exact rows_coord0 wf idx t a b
  | ⟨1, _⟩ => exact rows_coord1 wf idx t a b
  | ⟨2, _⟩ => exact rows_coord2 wf idx t a b

end Cert.Basis

end
-- ==== Proof.KernelHost.lean ====
/-
  The two arrays the kernel's region reads, as the region finds them.

  Before the region @main prepares the index words (a negative word wrapped by the table's length, the array made a
  column), gathers the distances at them, and pads the gathered distances (with 1) and the angles (with 0) from
  2,000,000 to 2,015,232 entries, a whole number of blocks. Below entry 2,000,000 the padded arrays are the unpadded
  ones: the distance of the edge the index word selects, and the angle.
-/
import proofs.«131485_j49366354100415_1_alg».proof.Proof.Gen.KernelIdeal.Frame
import proofs.«131485_j49366354100415_1_alg».proof.Proof.Spec
import proofs.«131485_j49366354100415_1_alg».proof.Proof.LibGathers
import Idealize.ShloMosaic.Lib.KernelVsHost

noncomputable section

namespace Cert.KernelIdeal.KVal

open Cert.KernelIdeal Cert.KernelIdeal.Gen Idealize.ShloMosaic Idealize.ShloMosaic.TcCoe Idealize.SL.Sem Idealize.ShloMosaic.ValueIdx Cert.Basis

variable (m : (ℓ : Loc nD τ sig) → Buf (Elt Ideal) ℓ)

/-! ## The two arrays as the terms of the operations that write them -/

/-- The padded distances are written once, by the pad of the gathered distances with the scalar 1; the gathered
    distances once, by the gather of the launched distances at the prepared index words; and the prepared index words
    are the wrap (compare with 0, add 500000, select) of the launched words made a column. No operation before the
    region writes an argument array, so each argument is read as launched. -/
private theorem V7_term (c : Dev nD) :
    (V m c main_v7 : S2015232.Idx → EReal)
      = pad S2015232 ![0] ![15232] ![0]
          (Host.gather gather_S500000_S2000000x1_S2000000_n_0_n_n_0_1_1
            (m ((c : Thread nD τ).loc main_arg0) : S500000.Idx → EReal)
            (nidx (m ((c : Thread nD τ).loc main_arg2))))
          (id (constant (F := Ideal) S_ .f32 0x3F800000#32)) pads_S2000000_S2015232_0152320 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The padded angles are written once, by the pad of the launched angles with the scalar 0. -/
private theorem V8_term (c : Dev nD) :
    (V m c main_v8 : S2015232.Idx → EReal)
      = pad S2015232 ![0] ![15232] ![0] (m ((c : Thread nD τ).loc main_arg1) : S2000000.Idx → EReal)
          (id (constant (F := Ideal) S_ .f32 0x00000000#32)) pads_S2000000_S2015232_0152320 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-! ## Read at an index -/

/-- A pad with no low padding and no interior padding, of 15232 entries after the end, read below entry 2,000,000: entry
    j of the result is entry j of the operand (j = 0 + j · (0 + 1)), whatever the padding value. -/
private theorem pad_low (x : S2000000.Idx → EReal) (v : S_.Idx → EReal) (j : Fin 2015232) (hj : j.val < 2000000) :
    pad S2015232 ![0] ![15232] ![0] x v pads_S2000000_S2015232_0152320 h_S_ (ix1 j) = x (ix1 ⟨j.val, hj⟩) :=
  pad_apply_of_inside _ _ _ x v _ _ (ix1 j) (ix1 ⟨j.val, hj⟩) (by
    intro a
    obtain rfl : a = 0 := Subsingleton.elim _ _
    show j.val = 0 + j.val * (0 + 1)
    omega)

/-- The program's gather record is the flat gather of a table of 500000 entries at 2000000 index words in a column. -/
private theorem gather_rec :
    gather_S500000_S2000000x1_S2000000_n_0_n_n_0_1_1
      = flatDims 500000 2000000 gather_S500000_S2000000x1_S2000000_n_0_n_n_0_1_1_wf := rfl

/-- The padded gathered distances, below the padding: the distance of the edge that entry j's index word selects. -/
theorem V7_apply (c : Dev nD) (j : Fin 2015232) (hj : j.val < 2000000) :
    (V m c main_v7 : S2015232.Idx → EReal) (ix1 j)
      = (m ((c : Thread nD τ).loc main_arg0) : S500000.Idx → EReal)
          (ix1 (gi (nidx (m ((c : Thread nD τ).loc main_arg2))) ⟨j.val, hj⟩)) := by
  -- the array is the pad of the gather; below the padding the pad is its operand
  refine (congrFun (V7_term m c) (ix1 j)).trans ?_
  refine (pad_low _ _ j hj).trans ?_
  -- and the flat gather's entry j is the table's entry at j's word, read signed and clamped to 500000 − 1 = 499999
  rw [gather_rec]
  exact gather_flat_apply (by decide) _ _ _ _

/-- The padded angles, below the padding: the angle. -/
theorem V8_apply (c : Dev nD) (j : Fin 2015232) (hj : j.val < 2000000) :
    (V m c main_v8 : S2015232.Idx → EReal) (ix1 j)
      = (m ((c : Thread nD τ).loc main_arg1) : S2000000.Idx → EReal) (ix1 ⟨j.val, hj⟩) := by
  -- the array is the pad of the launched angles; below the padding the pad is its operand
  refine (congrFun (V8_term m c) (ix1 j)).trans ?_
  exact pad_low _ _ j hj

end Cert.KernelIdeal.KVal

end
-- ==== Proof.KernelRun.lean ====
/-
  The kernel program's run, read.

  After the region @main keeps the first 2,000,000 rows of the output array. Entry (t, c) of the result is therefore
  column c's specified entry at the distance of the edge t's index word selects and t's angle: the specified array.
-/
import proofs.«131485_j49366354100415_1_alg».proof.Proof.KernelArr
import proofs.«131485_j49366354100415_1_alg».proof.Proof.KernelHost
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem Idealize.ShloMosaic.ValueIdx Cert.Basis

/-- The result buffer after the one operation that follows the region. That operation keeps rows 0 … 1,999,999 and all
    42 columns of the output array, which the region left at column c's entry of the i-th padded distance and angle
    (`final2`); below row 2,000,000 the padded arrays are the gathered distances and the angles (`V7_apply`,
    `V8_apply`), so entry (t, c) is the specified one. -/
private theorem kept_rows (m : (ℓ : Loc nD τ sig) → Buf (Elt Ideal) ℓ) (c : Dev nD) :
    Pipeline.afterTail₀ cfgs (dats m) 0 (V0 m) [hostOps1] c main_v10
      = G (m ((c.tc : Thread nD τ).loc main_arg0)) (m ((c.tc : Thread nD τ).loc main_arg1))
          (nidx (m ((c.tc : Thread nD τ).loc main_arg2))) := by
  unfold Pipeline.afterTail₀
  show StableHlo.after hostOps1 _ (Proc.devRef .tc main_v10) = _
  after_results
  -- the operation's operand is the output array as the region left it
  have hout : Pipeline.withArrays (cfgs 0).spec c (V0 m c) (fun w => (dats m 0 c).arrAt w (cfgs 0).N)
        (Proc.devRef .tc main_v9)
      = fun i : S2015232x42.Idx => colOf (i 1) ((V m c main_v7 : S2015232.Idx → EReal) (ix1 (i 0)))
          ((V m c main_v8 : S2015232.Idx → EReal) (ix1 (i 0))) :=
    (Pipeline.withArrays_arr spec0 launch0.win.arr_inj c _ _ 2).trans (final2 m c)
  rw [hout]
  funext j
  obtain ⟨t, cc, rfl⟩ : ∃ (t : Fin 2000000) (cc : Fin 42), j = ix2 t cc := ⟨j 0, j 1, eq_ix2 j⟩
  have ht : t.val < 2015232 := by have := t.isLt; omega
  -- entry (t, c) of the kept rows is entry (t, c) of the array: both offsets are 0
  refine (extractStridedSlice_apply ![0, 0] _ slices_S2015232x42_S2000000x42_0_0 (ix2 t cc) (ix2 ⟨t.val, ht⟩ cc) ?_).trans ?_
  · intro a
    match a with
    | ⟨0, _⟩ => show t.val = 0 + t.val; omega
    | ⟨1, _⟩ => show cc.val = 0 + cc.val; omega
  show colOf cc ((V m c main_v7 : S2015232.Idx → EReal) (ix1 ⟨t.val, ht⟩))
      ((V m c main_v8 : S2015232.Idx → EReal) (ix1 ⟨t.val, ht⟩)) = _
  -- row t is below the padding
  rw [G_apply, V7_apply m c ⟨t.val, ht⟩ t.isLt, V8_apply m c ⟨t.val, ht⟩ t.isLt]
  rfl

/-- On every device, from any memory with zero counters: every weakly fair execution of @main terminates with the
    result at the specified array of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10)
        = G (m ((c.tc : Thread nD τ).loc main_arg0)) (m ((c.tc : Thread nD τ).loc main_arg1)) (nidx (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  -- the frame run leaves every buffer that is no window's array as the operation after the region leaves it: the
  -- result buffer at the kept rows, the three arguments, which nothing writes, as launched
  (θ_run defs _ _).mono (fun _ h c =>
    ⟨((h c).2 main_v10 (Pipeline.mem_restRefs_of main_v10 (by decide) (by decide))).trans (kept_rows m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KVal

end
-- ==== Proof.RefOps.lean ====
/- The reference program's @main as lists of its 334 host operations, one list per printed window, in the printed order; for each buffer the pure
   term the operations compose for it from the three argument arrays (named r_ and the buffer: the operation's function
   applied to its operands' terms, the module-local select inlined at its call); and the operations' buffer inclusions. -/
import proofs.«131485_j49366354100415_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
set_option maxRecDepth 16384 in
/-- The 60 operations of @main's window 0, in order. -/
abbrev ops0 : List (HloOp τ sig (Elt F)) :=
  [ nullary main_cst (fun i => FloatOps.ofBits .f32 (lit0 (S7x6.rowMajor i))),
    nullary main_cst_0 (fun i => FloatOps.ofBits .f32 (lit1 (S7x6.rowMajor i))),
    nullary main_cst_1 (fun i => FloatOps.ofBits .f32 (lit2 (S7.rowMajor i))),
    nullary main_cst_2 (constant S_ .f32 0x40A00000#32),
    unary main_cst_2 main_v0 (broadcastInDim S500000 ![] bcast_S_S500000 : (⟨S_, .f32⟩ : BufTy).Contents (Elt F) → (⟨S500000, .f32⟩ : BufTy).Contents (Elt F)),
    binary main_arg0 main_v0 main_v1 (Host.divf : (⟨S500000, .f32⟩ : BufTy).Contents (Elt F) → (⟨S500000, .f32⟩ : BufTy).Contents (Elt F) → (⟨S500000, .f32⟩ : BufTy).Contents (Elt F)),
    unary main_cst main_v2 ((extractStridedSlice S1x6 ![0, 0] · slices_S7x6_S1x6_0_0) : (⟨S7x6, .f32⟩ : BufTy).Contents (Elt F) → (⟨S1x6, .f32⟩ : BufTy).Contents (Elt F)),
    reshape main_v2 main_v3 rfl shapeCasts_S1x6_S6,
    unary main_cst_0 main_v4 ((extractStridedSlice S1x6 ![0, 0] · slices_S7x6_S1x6_0_0) : (⟨S7x6, .f32⟩ : BufTy).Contents (Elt F) → (⟨S1x6, .f32⟩ : BufTy).Contents (Elt F)),
    reshape main_v4 main_v5 rfl shapeCasts_S1x6_S6,
    unary main_v1 main_v6 (broadcastInDim S500000x1 ![0] bcast_S500000_S500000x1_0 : (⟨S500000, .f32⟩ : BufTy).Contents (Elt F) → (⟨S500000x1, .f32⟩ : BufTy).Contents (Elt F)),
    unary main_v5 main_v7 (broadcastInDim S1x6 ![1] bcast_S6_S1x6_1 : (⟨S6, .f32⟩ : BufTy).Contents (Elt F) → (⟨S1x6, .f32⟩ : BufTy).Contents (Elt F)),
    unary main_v7 main_v8 (broadcastInDim S500000x6 ![0, 1] bcast_S1x6_S500000x6_0_1 : (⟨S1x6, .f32⟩ : BufTy).Contents (Elt F) → (⟨S500000x6, .f32⟩ : BufTy).Contents (Elt F)),
    unary main_v6 main_v9 (broadcastInDim S500000x6 ![0, 1] bcast_S500000x1_S500000x6_0_1 : (⟨S500000x1, .f32⟩ : BufTy).Contents (Elt F) → (⟨S500000x6, .f32⟩ : BufTy).Contents (Elt F)),
    binary main_v8 main_v9 main_v10 (mulf : (⟨S500000x6, .f32⟩ : BufTy).Contents (Elt F) → (⟨S500000x6, .f32⟩ : BufTy).Contents (Elt F) → (⟨S500000x6, .f32⟩ : BufTy).Contents (Elt F)),
    unary main_v10 main_v11 (Host.sin : (⟨S500000x6, .f32⟩ : BufTy).Contents (Elt F) → (⟨S500000x6, .f32⟩ : BufTy).Contents (Elt F)),
    binary main_v11 main_v10 main_v12 (Host.divf : (⟨S500000x6, .f32⟩ : BufTy).Contents (Elt F) → (⟨S500000x6, .f32⟩ : BufTy).Contents (Elt F) → (⟨S500000x6, .f32⟩ : BufTy).Contents (Elt F)),
    unary main_v3 main_v13 (broadcastInDim S1x6 ![1] bcast_S6_S1x6_1 : (⟨S6, .f32⟩ : BufTy).Contents (Elt F) → (⟨S1x6, .f32⟩ : BufTy).Contents (Elt F)),
    unary main_v13 main_v14 (broadcastInDim S500000x6 ![0, 1] bcast_S1x6_S500000x6_0_1 : (⟨S1x6, .f32⟩ : BufTy).Contents (Elt F) → (⟨S500000x6, .f32⟩ : BufTy).Contents (Elt F)),
    binary main_v14 main_v12 main_v15 (mulf : (⟨S500000x6, .f32⟩ : BufTy).Contents (Elt F) → (⟨S500000x6, .f32⟩ : BufTy).Contents (Elt F) → (⟨S500000x6, .f32⟩ : BufTy).Contents (Elt F)),
    unary main_cst main_v16 ((extractStridedSlice S1x6 ![1, 0] · slices_S7x6_S1x6_1_0) : (⟨S7x6, .f32⟩ : BufTy).Contents (Elt F) → (⟨S1x6, .f32⟩ : BufTy).Contents (Elt F)),
    reshape main_v16 main_v17 rfl shapeCasts_S1x6_S6,
    unary main_cst_0 main_v18 ((extractStridedSlice S1x6 ![1, 0] · slices_S7x6_S1x6_1_0) : (⟨S7x6, .f32⟩ : BufTy).Contents (Elt F) → (⟨S1x6, .f32⟩ : BufTy).Contents (Elt F)),
    reshape main_v18 main_v19 rfl shapeCasts_S1x6_S6,
    unary main_v1 main_v20 (broadcastInDim S500000x1 ![0] bcast_S500000_S500000x1_0 : (⟨S500000, .f32⟩ : BufTy).Contents (Elt F) → (⟨S500000x1, .f32⟩ : BufTy).Contents (Elt F)),
    unary main_v19 main_v21 (broadcastInDim S1x6 ![1] bcast_S6_S1x6_1 : (⟨S6, .f32⟩ : BufTy).Contents (Elt F) → (⟨S1x6, .f32⟩ : BufTy).Contents (Elt F)),
    unary main_v21 main_v22 (broadcastInDim S500000x6 ![0, 1] bcast_S1x6_S500000x6_0_1 : (⟨S1x6, .f32⟩ : BufTy).Contents (Elt F) → (⟨S500000x6, .f32⟩ : BufTy).Contents (Elt F)),
    unary main_v20 main_v23 (broadcastInDim S500000x6 ![0, 1] bcast_S500000x1_S500000x6_0_1 : (⟨S500000x1, .f32⟩ : BufTy).Contents (Elt F) → (⟨S500000x6, .f32⟩ : BufTy).Contents (Elt F)),
    binary main_v22 main_v23 main_v24 (mulf : (⟨S500000x6, .f32⟩ : BufTy).Contents (Elt F) → (⟨S500000x6, .f32⟩ : BufTy).Contents (Elt F) → (⟨S500000x6, .f32⟩ : BufTy).Contents (Elt F)),
    unary main_v24 main_v25 (Host.sin : (⟨S500000x6, .f32⟩ : BufTy).Contents (Elt F) → (⟨S500000x6, .f32⟩ : BufTy).Contents (Elt F)),
    binary main_v25 main_v24 main_v26 (Host.divf : (⟨S500000x6, .f32⟩ : BufTy).Contents (Elt F) → (⟨S500000x6, .f32⟩ : BufTy).Contents (Elt F) → (⟨S500000x6, .f32⟩ : BufTy).Contents (Elt F)),
    unary main_v24 main_v27 (Host.sin : (⟨S500000x6, .f32⟩ : BufTy).Contents (Elt F) → (⟨S500000x6, .f32⟩ : BufTy).Contents (Elt F)),
    binary main_v24 main_v24 main_v28 (mulf : (⟨S500000x6, .f32⟩ : BufTy).Contents (Elt F) → (⟨S500000x6, .f32⟩ : BufTy).Contents (Elt F) → (⟨S500000x6, .f32⟩ : BufTy).Contents (Elt F)),
    binary main_v27 main_v28 main_v29 (Host.divf : (⟨S500000x6, .f32⟩ : BufTy).Contents (Elt F) → (⟨S500000x6, .f32⟩ : BufTy).Contents (Elt F) → (⟨S500000x6, .f32⟩ : BufTy).Contents (Elt F)),
    unary main_v24 main_v30 (Host.cos : (⟨S500000x6, .f32⟩ : BufTy).Contents (Elt F) → (⟨S500000x6, .f32⟩ : BufTy).Contents (Elt F)),
    binary main_v30 main_v24 main_v31 (Host.divf : (⟨S500000x6, .f32⟩ : BufTy).Contents (Elt F) → (⟨S500000x6, .f32⟩ : BufTy).Contents (Elt F) → (⟨S500000x6, .f32⟩ : BufTy).Contents (Elt F)),
    binary main_v29 main_v31 main_v32 (subf : (⟨S500000x6, .f32⟩ : BufTy).Contents (Elt F) → (⟨S500000x6, .f32⟩ : BufTy).Contents (Elt F) → (⟨S500000x6, .f32⟩ : BufTy).Contents (Elt F)),
    unary main_v17 main_v33 (broadcastInDim S1x6 ![1] bcast_S6_S1x6_1 : (⟨S6, .f32⟩ : BufTy).Contents (Elt F) → (⟨S1x6, .f32⟩ : BufTy).Contents (Elt F)),
    unary main_v33 main_v34 (broadcastInDim S500000x6 ![0, 1] bcast_S1x6_S500000x6_0_1 : (⟨S1x6, .f32⟩ : BufTy).Contents (Elt F) → (⟨S500000x6, .f32⟩ : BufTy).Contents (Elt F)),
    binary main_v34 main_v32 main_v35 (mulf : (⟨S500000x6, .f32⟩ : BufTy).Contents (Elt F) → (⟨S500000x6, .f32⟩ : BufTy).Contents (Elt F) → (⟨S500000x6, .f32⟩ : BufTy).Contents (Elt F)),
    unary main_cst main_v36 ((extractStridedSlice S1x6 ![2, 0] · slices_S7x6_S1x6_2_0) : (⟨S7x6, .f32⟩ : BufTy).Contents (Elt F) → (⟨S1x6, .f32⟩ : BufTy).Contents (Elt F)),
    reshape main_v36 main_v37 rfl shapeCasts_S1x6_S6,
    unary main_cst_0 main_v38 ((extractStridedSlice S1x6 ![2, 0] · slices_S7x6_S1x6_2_0) : (⟨S7x6, .f32⟩ : BufTy).Contents (Elt F) → (⟨S1x6, .f32⟩ : BufTy).Contents (Elt F)),
    reshape main_v38 main_v39 rfl shapeCasts_S1x6_S6,
    unary main_v1 main_v40 (broadcastInDim S500000x1 ![0] bcast_S500000_S500000x1_0 : (⟨S500000, .f32⟩ : BufTy).Contents (Elt F) → (⟨S500000x1, .f32⟩ : BufTy).Contents (Elt F)),
    unary main_v39 main_v41 (broadcastInDim S1x6 ![1] bcast_S6_S1x6_1 : (⟨S6, .f32⟩ : BufTy).Contents (Elt F) → (⟨S1x6, .f32⟩ : BufTy).Contents (Elt F)),
    unary main_v41 main_v42 (broadcastInDim S500000x6 ![0, 1] bcast_S1x6_S500000x6_0_1 : (⟨S1x6, .f32⟩ : BufTy).Contents (Elt F) → (⟨S500000x6, .f32⟩ : BufTy).Contents (Elt F)),
    unary main_v40 main_v43 (broadcastInDim S500000x6 ![0, 1] bcast_S500000x1_S500000x6_0_1 : (⟨S500000x1, .f32⟩ : BufTy).Contents (Elt F) → (⟨S500000x6, .f32⟩ : BufTy).Contents (Elt F)),
    binary main_v42 main_v43 main_v44 (mulf : (⟨S500000x6, .f32⟩ : BufTy).Contents (Elt F) → (⟨S500000x6, .f32⟩ : BufTy).Contents (Elt F) → (⟨S500000x6, .f32⟩ : BufTy).Contents (Elt F)),
    unary main_v44 main_v45 (Host.sin : (⟨S500000x6, .f32⟩ : BufTy).Contents (Elt F) → (⟨S500000x6, .f32⟩ : BufTy).Contents (Elt F)),
    binary main_v45 main_v44 main_v46 (Host.divf : (⟨S500000x6, .f32⟩ : BufTy).Contents (Elt F) → (⟨S500000x6, .f32⟩ : BufTy).Contents (Elt F) → (⟨S500000x6, .f32⟩ : BufTy).Contents (Elt F)),
    unary main_v44 main_v47 (Host.sin : (⟨S500000x6, .f32⟩ : BufTy).Contents (Elt F) → (⟨S500000x6, .f32⟩ : BufTy).Contents (Elt F)),
    binary main_v44 main_v44 main_v48 (mulf : (⟨S500000x6, .f32⟩ : BufTy).Contents (Elt F) → (⟨S500000x6, .f32⟩ : BufTy).Contents (Elt F) → (⟨S500000x6, .f32⟩ : BufTy).Contents (Elt F)),
    binary main_v47 main_v48 main_v49 (Host.divf : (⟨S500000x6, .f32⟩ : BufTy).Contents (Elt F) → (⟨S500000x6, .f32⟩ : BufTy).Contents (Elt F) → (⟨S500000x6, .f32⟩ : BufTy).Contents (Elt F)),
    unary main_v44 main_v50 (Host.cos : (⟨S500000x6, .f32⟩ : BufTy).Contents (Elt F) → (⟨S500000x6, .f32⟩ : BufTy).Contents (Elt F)),
    binary main_v50 main_v44 main_v51 (Host.divf : (⟨S500000x6, .f32⟩ : BufTy).Contents (Elt F) → (⟨S500000x6, .f32⟩ : BufTy).Contents (Elt F) → (⟨S500000x6, .f32⟩ : BufTy).Contents (Elt F)),
    binary main_v49 main_v51 main_v52 (subf : (⟨S500000x6, .f32⟩ : BufTy).Contents (Elt F) → (⟨S500000x6, .f32⟩ : BufTy).Contents (Elt F) → (⟨S500000x6, .f32⟩ : BufTy).Contents (Elt F)),
    nullary main_cst_3 (constant S_ .f32 0x40400000#32),
    unary main_cst_3 main_v53 (broadcastInDim S500000x6 ![] bcast_S_S500000x6 : (⟨S_, .f32⟩ : BufTy).Contents (Elt F) → (⟨S500000x6, .f32⟩ : BufTy).Contents (Elt F)),
    binary main_v53 main_v44 main_v54 (Host.divf : (⟨S500000x6, .f32⟩ : BufTy).Contents (Elt F) → (⟨S500000x6, .f32⟩ : BufTy).Contents (Elt F) → (⟨S500000x6, .f32⟩ : BufTy).Contents (Elt F)) ]

set_option maxHeartbeats 4000000 in
set_option maxRecDepth 16384 in
theorem ops0_sub : (ops0 : List (HloOp τ sig (Elt F))).Forall fun op => op.bufs ⊆ tcRefs τ sig :=
  ⟨nullary_bufs_sub .., nullary_bufs_sub .., nullary_bufs_sub .., nullary_bufs_sub .., unary_bufs_sub .., binary_bufs_sub .., unary_bufs_sub .., reshape_bufs_sub .., unary_bufs_sub .., reshape_bufs_sub .., unary_bufs_sub .., unary_bufs_sub .., unary_bufs_sub .., unary_bufs_sub .., binary_bufs_sub .., unary_bufs_sub .., binary_bufs_sub .., unary_bufs_sub .., unary_bufs_sub .., binary_bufs_sub .., unary_bufs_sub .., reshape_bufs_sub .., unary_bufs_sub .., reshape_bufs_sub .., unary_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub ..⟩

set_option maxHeartbeats 4000000 in
set_option maxRecDepth 16384 in
/-- The 60 operations of @main's window 1, in order. -/
abbrev ops1 : List (HloOp τ sig (Elt F)) :=
  [ binary main_v54 main_v52 main_v55 (mulf : (⟨S500000x6, .f32⟩ : BufTy).Contents (Elt F) → (⟨S500000x6, .f32⟩ : BufTy).Contents (Elt F) → (⟨S500000x6, .f32⟩ : BufTy).Contents (Elt F)),
    binary main_v55 main_v46 main_v56 (subf : (⟨S500000x6, .f32⟩ : BufTy).Contents (Elt F) → (⟨S500000x6, .f32⟩ : BufTy).Contents (Elt F) → (⟨S500000x6, .f32⟩ : BufTy).Contents (Elt F)),
    unary main_v37 main_v57 (broadcastInDim S1x6 ![1] bcast_S6_S1x6_1 : (⟨S6, .f32⟩ : BufTy).Contents (Elt F) → (⟨S1x6, .f32⟩ : BufTy).Contents (Elt F)),
    unary main_v57 main_v58 (broadcastInDim S500000x6 ![0, 1] bcast_S1x6_S500000x6_0_1 : (⟨S1x6, .f32⟩ : BufTy).Contents (Elt F) → (⟨S500000x6, .f32⟩ : BufTy).Contents (Elt F)),
    binary main_v58 main_v56 main_v59 (mulf : (⟨S500000x6, .f32⟩ : BufTy).Contents (Elt F) → (⟨S500000x6, .f32⟩ : BufTy).Contents (Elt F) → (⟨S500000x6, .f32⟩ : BufTy).Contents (Elt F)),
    unary main_cst main_v60 ((extractStridedSlice S1x6 ![3, 0] · slices_S7x6_S1x6_3_0) : (⟨S7x6, .f32⟩ : BufTy).Contents (Elt F) → (⟨S1x6, .f32⟩ : BufTy).Contents (Elt F)),
    reshape main_v60 main_v61 rfl shapeCasts_S1x6_S6,
    unary main_cst_0 main_v62 ((extractStridedSlice S1x6 ![3, 0] · slices_S7x6_S1x6_3_0) : (⟨S7x6, .f32⟩ : BufTy).Contents (Elt F) → (⟨S1x6, .f32⟩ : BufTy).Contents (Elt F)),
    reshape main_v62 main_v63 rfl shapeCasts_S1x6_S6,
    unary main_v1 main_v64 (broadcastInDim S500000x1 ![0] bcast_S500000_S500000x1_0 : (⟨S500000, .f32⟩ : BufTy).Contents (Elt F) → (⟨S500000x1, .f32⟩ : BufTy).Contents (Elt F)),
    unary main_v63 main_v65 (broadcastInDim S1x6 ![1] bcast_S6_S1x6_1 : (⟨S6, .f32⟩ : BufTy).Contents (Elt F) → (⟨S1x6, .f32⟩ : BufTy).Contents (Elt F)),
    unary main_v65 main_v66 (broadcastInDim S500000x6 ![0, 1] bcast_S1x6_S500000x6_0_1 : (⟨S1x6, .f32⟩ : BufTy).Contents (Elt F) → (⟨S500000x6, .f32⟩ : BufTy).Contents (Elt F)),
    unary main_v64 main_v67 (broadcastInDim S500000x6 ![0, 1] bcast_S500000x1_S500000x6_0_1 : (⟨S500000x1, .f32⟩ : BufTy).Contents (Elt F) → (⟨S500000x6, .f32⟩ : BufTy).Contents (Elt F)),
    binary main_v66 main_v67 main_v68 (mulf : (⟨S500000x6, .f32⟩ : BufTy).Contents (Elt F) → (⟨S500000x6, .f32⟩ : BufTy).Contents (Elt F) → (⟨S500000x6, .f32⟩ : BufTy).Contents (Elt F)),
    unary main_v68 main_v69 (Host.sin : (⟨S500000x6, .f32⟩ : BufTy).Contents (Elt F) → (⟨S500000x6, .f32⟩ : BufTy).Contents (Elt F)),
    binary main_v69 main_v68 main_v70 (Host.divf : (⟨S500000x6, .f32⟩ : BufTy).Contents (Elt F) → (⟨S500000x6, .f32⟩ : BufTy).Contents (Elt F) → (⟨S500000x6, .f32⟩ : BufTy).Contents (Elt F)),
    unary main_v68 main_v71 (Host.sin : (⟨S500000x6, .f32⟩ : BufTy).Contents (Elt F) → (⟨S500000x6, .f32⟩ : BufTy).Contents (Elt F)),
    binary main_v68 main_v68 main_v72 (mulf : (⟨S500000x6, .f32⟩ : BufTy).Contents (Elt F) → (⟨S500000x6, .f32⟩ : BufTy).Contents (Elt F) → (⟨S500000x6, .f32⟩ : BufTy).Contents (Elt F)),
    binary main_v71 main_v72 main_v73 (Host.divf : (⟨S500000x6, .f32⟩ : BufTy).Contents (Elt F) → (⟨S500000x6, .f32⟩ : BufTy).Contents (Elt F) → (⟨S500000x6, .f32⟩ : BufTy).Contents (Elt F)),
    unary main_v68 main_v74 (Host.cos : (⟨S500000x6, .f32⟩ : BufTy).Contents (Elt F) → (⟨S500000x6, .f32⟩ : BufTy).Contents (Elt F)),
    binary main_v74 main_v68 main_v75 (Host.divf : (⟨S500000x6, .f32⟩ : BufTy).Contents (Elt F) → (⟨S500000x6, .f32⟩ : BufTy).Contents (Elt F) → (⟨S500000x6, .f32⟩ : BufTy).Contents (Elt F)),
    binary main_v73 main_v75 main_v76 (subf : (⟨S500000x6, .f32⟩ : BufTy).Contents (Elt F) → (⟨S500000x6, .f32⟩ : BufTy).Contents (Elt F) → (⟨S500000x6, .f32⟩ : BufTy).Contents (Elt F)),
    nullary main_cst_4 (constant S_ .f32 0x40400000#32),
    unary main_cst_4 main_v77 (broadcastInDim S500000x6 ![] bcast_S_S500000x6 : (⟨S_, .f32⟩ : BufTy).Contents (Elt F) → (⟨S500000x6, .f32⟩ : BufTy).Contents (Elt F)),
    binary main_v77 main_v68 main_v78 (Host.divf : (⟨S500000x6, .f32⟩ : BufTy).Contents (Elt F) → (⟨S500000x6, .f32⟩ : BufTy).Contents (Elt F) → (⟨S500000x6, .f32⟩ : BufTy).Contents (Elt F)),
    binary main_v78 main_v76 main_v79 (mulf : (⟨S500000x6, .f32⟩ : BufTy).Contents (Elt F) → (⟨S500000x6, .f32⟩ : BufTy).Contents (Elt F) → (⟨S500000x6, .f32⟩ : BufTy).Contents (Elt F)),
    binary main_v79 main_v70 main_v80 (subf : (⟨S500000x6, .f32⟩ : BufTy).Contents (Elt F) → (⟨S500000x6, .f32⟩ : BufTy).Contents (Elt F) → (⟨S500000x6, .f32⟩ : BufTy).Contents (Elt F)),
    nullary main_cst_5 (constant S_ .f32 0x40A00000#32),
    unary main_cst_5 main_v81 (broadcastInDim S500000x6 ![] bcast_S_S500000x6 : (⟨S_, .f32⟩ : BufTy).Contents (Elt F) → (⟨S500000x6, .f32⟩ : BufTy).Contents (Elt F)),
    binary main_v81 main_v68 main_v82 (Host.divf : (⟨S500000x6, .f32⟩ : BufTy).Contents (Elt F) → (⟨S500000x6, .f32⟩ : BufTy).Contents (Elt F) → (⟨S500000x6, .f32⟩ : BufTy).Contents (Elt F)),
    binary main_v82 main_v80 main_v83 (mulf : (⟨S500000x6, .f32⟩ : BufTy).Contents (Elt F) → (⟨S500000x6, .f32⟩ : BufTy).Contents (Elt F) → (⟨S500000x6, .f32⟩ : BufTy).Contents (Elt F)),
    binary main_v83 main_v76 main_v84 (subf : (⟨S500000x6, .f32⟩ : BufTy).Contents (Elt F) → (⟨S500000x6, .f32⟩ : BufTy).Contents (Elt F) → (⟨S500000x6, .f32⟩ : BufTy).Contents (Elt F)),
    unary main_v61 main_v85 (broadcastInDim S1x6 ![1] bcast_S6_S1x6_1 : (⟨S6, .f32⟩ : BufTy).Contents (Elt F) → (⟨S1x6, .f32⟩ : BufTy).Contents (Elt F)),
    unary main_v85 main_v86 (broadcastInDim S500000x6 ![0, 1] bcast_S1x6_S500000x6_0_1 : (⟨S1x6, .f32⟩ : BufTy).Contents (Elt F) → (⟨S500000x6, .f32⟩ : BufTy).Contents (Elt F)),
    binary main_v86 main_v84 main_v87 (mulf : (⟨S500000x6, .f32⟩ : BufTy).Contents (Elt F) → (⟨S500000x6, .f32⟩ : BufTy).Contents (Elt F) → (⟨S500000x6, .f32⟩ : BufTy).Contents (Elt F)),
    unary main_cst main_v88 ((extractStridedSlice S1x6 ![4, 0] · slices_S7x6_S1x6_4_0) : (⟨S7x6, .f32⟩ : BufTy).Contents (Elt F) → (⟨S1x6, .f32⟩ : BufTy).Contents (Elt F)),
    reshape main_v88 main_v89 rfl shapeCasts_S1x6_S6,
    unary main_cst_0 main_v90 ((extractStridedSlice S1x6 ![4, 0] · slices_S7x6_S1x6_4_0) : (⟨S7x6, .f32⟩ : BufTy).Contents (Elt F) → (⟨S1x6, .f32⟩ : BufTy).Contents (Elt F)),
    reshape main_v90 main_v91 rfl shapeCasts_S1x6_S6,
    unary main_v1 main_v92 (broadcastInDim S500000x1 ![0] bcast_S500000_S500000x1_0 : (⟨S500000, .f32⟩ : BufTy).Contents (Elt F) → (⟨S500000x1, .f32⟩ : BufTy).Contents (Elt F)),
    unary main_v91 main_v93 (broadcastInDim S1x6 ![1] bcast_S6_S1x6_1 : (⟨S6, .f32⟩ : BufTy).Contents (Elt F) → (⟨S1x6, .f32⟩ : BufTy).Contents (Elt F)),
    unary main_v93 main_v94 (broadcastInDim S500000x6 ![0, 1] bcast_S1x6_S500000x6_0_1 : (⟨S1x6, .f32⟩ : BufTy).Contents (Elt F) → (⟨S500000x6, .f32⟩ : BufTy).Contents (Elt F)),
    unary main_v92 main_v95 (broadcastInDim S500000x6 ![0, 1] bcast_S500000x1_S500000x6_0_1 : (⟨S500000x1, .f32⟩ : BufTy).Contents (Elt F) → (⟨S500000x6, .f32⟩ : BufTy).Contents (Elt F)),
    binary main_v94 main_v95 main_v96 (mulf : (⟨S500000x6, .f32⟩ : BufTy).Contents (Elt F) → (⟨S500000x6, .f32⟩ : BufTy).Contents (Elt F) → (⟨S500000x6, .f32⟩ : BufTy).Contents (Elt F)),
    unary main_v96 main_v97 (Host.sin : (⟨S500000x6, .f32⟩ : BufTy).Contents (Elt F) → (⟨S500000x6, .f32⟩ : BufTy).Contents (Elt F)),
    binary main_v97 main_v96 main_v98 (Host.divf : (⟨S500000x6, .f32⟩ : BufTy).Contents (Elt F) → (⟨S500000x6, .f32⟩ : BufTy).Contents (Elt F) → (⟨S500000x6, .f32⟩ : BufTy).Contents (Elt F)),
    unary main_v96 main_v99 (Host.sin : (⟨S500000x6, .f32⟩ : BufTy).Contents (Elt F) → (⟨S500000x6, .f32⟩ : BufTy).Contents (Elt F)),
    binary main_v96 main_v96 main_v100 (mulf : (⟨S500000x6, .f32⟩ : BufTy).Contents (Elt F) → (⟨S500000x6, .f32⟩ : BufTy).Contents (Elt F) → (⟨S500000x6, .f32⟩ : BufTy).Contents (Elt F)),
    binary main_v99 main_v100 main_v101 (Host.divf : (⟨S500000x6, .f32⟩ : BufTy).Contents (Elt F) → (⟨S500000x6, .f32⟩ : BufTy).Contents (Elt F) → (⟨S500000x6, .f32⟩ : BufTy).Contents (Elt F)),
    unary main_v96 main_v102 (Host.cos : (⟨S500000x6, .f32⟩ : BufTy).Contents (Elt F) → (⟨S500000x6, .f32⟩ : BufTy).Contents (Elt F)),
    binary main_v102 main_v96 main_v103 (Host.divf : (⟨S500000x6, .f32⟩ : BufTy).Contents (Elt F) → (⟨S500000x6, .f32⟩ : BufTy).Contents (Elt F) → (⟨S500000x6, .f32⟩ : BufTy).Contents (Elt F)),
    binary main_v101 main_v103 main_v104 (subf : (⟨S500000x6, .f32⟩ : BufTy).Contents (Elt F) → (⟨S500000x6, .f32⟩ : BufTy).Contents (Elt F) → (⟨S500000x6, .f32⟩ : BufTy).Contents (Elt F)),
    nullary main_cst_6 (constant S_ .f32 0x40400000#32),
    unary main_cst_6 main_v105 (broadcastInDim S500000x6 ![] bcast_S_S500000x6 : (⟨S_, .f32⟩ : BufTy).Contents (Elt F) → (⟨S500000x6, .f32⟩ : BufTy).Contents (Elt F)),
    binary main_v105 main_v96 main_v106 (Host.divf : (⟨S500000x6, .f32⟩ : BufTy).Contents (Elt F) → (⟨S500000x6, .f32⟩ : BufTy).Contents (Elt F) → (⟨S500000x6, .f32⟩ : BufTy).Contents (Elt F)),
    binary main_v106 main_v104 main_v107 (mulf : (⟨S500000x6, .f32⟩ : BufTy).Contents (Elt F) → (⟨S500000x6, .f32⟩ : BufTy).Contents (Elt F) → (⟨S500000x6, .f32⟩ : BufTy).Contents (Elt F)),
    binary main_v107 main_v98 main_v108 (subf : (⟨S500000x6, .f32⟩ : BufTy).Contents (Elt F) → (⟨S500000x6, .f32⟩ : BufTy).Contents (Elt F) → (⟨S500000x6, .f32⟩ : BufTy).Contents (Elt F)),
    nullary main_cst_7 (constant S_ .f32 0x40A00000#32),
    unary main_cst_7 main_v109 (broadcastInDim S500000x6 ![] bcast_S_S500000x6 : (⟨S_, .f32⟩ : BufTy).Contents (Elt F) → (⟨S500000x6, .f32⟩ : BufTy).Contents (Elt F)),
    binary main_v109 main_v96 main_v110 (Host.divf : (⟨S500000x6, .f32⟩ : BufTy).Contents (Elt F) → (⟨S500000x6, .f32⟩ : BufTy).Contents (Elt F) → (⟨S500000x6, .f32⟩ : BufTy).Contents (Elt F)) ]

set_option maxHeartbeats 4000000 in
set_option maxRecDepth 16384 in
theorem ops1_sub : (ops1 : List (HloOp τ sig (Elt F))).Forall fun op => op.bufs ⊆ tcRefs τ sig :=
  ⟨binary_bufs_sub .., binary_bufs_sub .., unary_bufs_sub .., unary_bufs_sub .., binary_bufs_sub .., unary_bufs_sub .., reshape_bufs_sub .., unary_bufs_sub .., reshape_bufs_sub .., unary_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., unary_bufs_sub .., reshape_bufs_sub .., unary_bufs_sub .., reshape_bufs_sub .., unary_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub ..⟩

set_option maxHeartbeats 4000000 in
set_option maxRecDepth 16384 in
/-- The 60 operations of @main's window 2, in order. -/
abbrev ops2 : List (HloOp τ sig (Elt F)) :=
  [ binary main_v110 main_v108 main_v111 (mulf : (⟨S500000x6, .f32⟩ : BufTy).Contents (Elt F) → (⟨S500000x6, .f32⟩ : BufTy).Contents (Elt F) → (⟨S500000x6, .f32⟩ : BufTy).Contents (Elt F)),
    binary main_v111 main_v104 main_v112 (subf : (⟨S500000x6, .f32⟩ : BufTy).Contents (Elt F) → (⟨S500000x6, .f32⟩ : BufTy).Contents (Elt F) → (⟨S500000x6, .f32⟩ : BufTy).Contents (Elt F)),
    nullary main_cst_8 (constant S_ .f32 0x40E00000#32),
    unary main_cst_8 main_v113 (broadcastInDim S500000x6 ![] bcast_S_S500000x6 : (⟨S_, .f32⟩ : BufTy).Contents (Elt F) → (⟨S500000x6, .f32⟩ : BufTy).Contents (Elt F)),
    binary main_v113 main_v96 main_v114 (Host.divf : (⟨S500000x6, .f32⟩ : BufTy).Contents (Elt F) → (⟨S500000x6, .f32⟩ : BufTy).Contents (Elt F) → (⟨S500000x6, .f32⟩ : BufTy).Contents (Elt F)),
    binary main_v114 main_v112 main_v115 (mulf : (⟨S500000x6, .f32⟩ : BufTy).Contents (Elt F) → (⟨S500000x6, .f32⟩ : BufTy).Contents (Elt F) → (⟨S500000x6, .f32⟩ : BufTy).Contents (Elt F)),
    binary main_v115 main_v108 main_v116 (subf : (⟨S500000x6, .f32⟩ : BufTy).Contents (Elt F) → (⟨S500000x6, .f32⟩ : BufTy).Contents (Elt F) → (⟨S500000x6, .f32⟩ : BufTy).Contents (Elt F)),
    unary main_v89 main_v117 (broadcastInDim S1x6 ![1] bcast_S6_S1x6_1 : (⟨S6, .f32⟩ : BufTy).Contents (Elt F) → (⟨S1x6, .f32⟩ : BufTy).Contents (Elt F)),
    unary main_v117 main_v118 (broadcastInDim S500000x6 ![0, 1] bcast_S1x6_S500000x6_0_1 : (⟨S1x6, .f32⟩ : BufTy).Contents (Elt F) → (⟨S500000x6, .f32⟩ : BufTy).Contents (Elt F)),
    binary main_v118 main_v116 main_v119 (mulf : (⟨S500000x6, .f32⟩ : BufTy).Contents (Elt F) → (⟨S500000x6, .f32⟩ : BufTy).Contents (Elt F) → (⟨S500000x6, .f32⟩ : BufTy).Contents (Elt F)),
    unary main_cst main_v120 ((extractStridedSlice S1x6 ![5, 0] · slices_S7x6_S1x6_5_0) : (⟨S7x6, .f32⟩ : BufTy).Contents (Elt F) → (⟨S1x6, .f32⟩ : BufTy).Contents (Elt F)),
    reshape main_v120 main_v121 rfl shapeCasts_S1x6_S6,
    unary main_cst_0 main_v122 ((extractStridedSlice S1x6 ![5, 0] · slices_S7x6_S1x6_5_0) : (⟨S7x6, .f32⟩ : BufTy).Contents (Elt F) → (⟨S1x6, .f32⟩ : BufTy).Contents (Elt F)),
    reshape main_v122 main_v123 rfl shapeCasts_S1x6_S6,
    unary main_v1 main_v124 (broadcastInDim S500000x1 ![0] bcast_S500000_S500000x1_0 : (⟨S500000, .f32⟩ : BufTy).Contents (Elt F) → (⟨S500000x1, .f32⟩ : BufTy).Contents (Elt F)),
    unary main_v123 main_v125 (broadcastInDim S1x6 ![1] bcast_S6_S1x6_1 : (⟨S6, .f32⟩ : BufTy).Contents (Elt F) → (⟨S1x6, .f32⟩ : BufTy).Contents (Elt F)),
    unary main_v125 main_v126 (broadcastInDim S500000x6 ![0, 1] bcast_S1x6_S500000x6_0_1 : (⟨S1x6, .f32⟩ : BufTy).Contents (Elt F) → (⟨S500000x6, .f32⟩ : BufTy).Contents (Elt F)),
    unary main_v124 main_v127 (broadcastInDim S500000x6 ![0, 1] bcast_S500000x1_S500000x6_0_1 : (⟨S500000x1, .f32⟩ : BufTy).Contents (Elt F) → (⟨S500000x6, .f32⟩ : BufTy).Contents (Elt F)),
    binary main_v126 main_v127 main_v128 (mulf : (⟨S500000x6, .f32⟩ : BufTy).Contents (Elt F) → (⟨S500000x6, .f32⟩ : BufTy).Contents (Elt F) → (⟨S500000x6, .f32⟩ : BufTy).Contents (Elt F)),
    unary main_v128 main_v129 (Host.sin : (⟨S500000x6, .f32⟩ : BufTy).Contents (Elt F) → (⟨S500000x6, .f32⟩ : BufTy).Contents (Elt F)),
    binary main_v129 main_v128 main_v130 (Host.divf : (⟨S500000x6, .f32⟩ : BufTy).Contents (Elt F) → (⟨S500000x6, .f32⟩ : BufTy).Contents (Elt F) → (⟨S500000x6, .f32⟩ : BufTy).Contents (Elt F)),
    unary main_v128 main_v131 (Host.sin : (⟨S500000x6, .f32⟩ : BufTy).Contents (Elt F) → (⟨S500000x6, .f32⟩ : BufTy).Contents (Elt F)),
    binary main_v128 main_v128 main_v132 (mulf : (⟨S500000x6, .f32⟩ : BufTy).Contents (Elt F) → (⟨S500000x6, .f32⟩ : BufTy).Contents (Elt F) → (⟨S500000x6, .f32⟩ : BufTy).Contents (Elt F)),
    binary main_v131 main_v132 main_v133 (Host.divf : (⟨S500000x6, .f32⟩ : BufTy).Contents (Elt F) → (⟨S500000x6, .f32⟩ : BufTy).Contents (Elt F) → (⟨S500000x6, .f32⟩ : BufTy).Contents (Elt F)),
    unary main_v128 main_v134 (Host.cos : (⟨S500000x6, .f32⟩ : BufTy).Contents (Elt F) → (⟨S500000x6, .f32⟩ : BufTy).Contents (Elt F)),
    binary main_v134 main_v128 main_v135 (Host.divf : (⟨S500000x6, .f32⟩ : BufTy).Contents (Elt F) → (⟨S500000x6, .f32⟩ : BufTy).Contents (Elt F) → (⟨S500000x6, .f32⟩ : BufTy).Contents (Elt F)),
    binary main_v133 main_v135 main_v136 (subf : (⟨S500000x6, .f32⟩ : BufTy).Contents (Elt F) → (⟨S500000x6, .f32⟩ : BufTy).Contents (Elt F) → (⟨S500000x6, .f32⟩ : BufTy).Contents (Elt F)),
    nullary main_cst_9 (constant S_ .f32 0x40400000#32),
    unary main_cst_9 main_v137 (broadcastInDim S500000x6 ![] bcast_S_S500000x6 : (⟨S_, .f32⟩ : BufTy).Contents (Elt F) → (⟨S500000x6, .f32⟩ : BufTy).Contents (Elt F)),
    binary main_v137 main_v128 main_v138 (Host.divf : (⟨S500000x6, .f32⟩ : BufTy).Contents (Elt F) → (⟨S500000x6, .f32⟩ : BufTy).Contents (Elt F) → (⟨S500000x6, .f32⟩ : BufTy).Contents (Elt F)),
    binary main_v138 main_v136 main_v139 (mulf : (⟨S500000x6, .f32⟩ : BufTy).Contents (Elt F) → (⟨S500000x6, .f32⟩ : BufTy).Contents (Elt F) → (⟨S500000x6, .f32⟩ : BufTy).Contents (Elt F)),
    binary main_v139 main_v130 main_v140 (subf : (⟨S500000x6, .f32⟩ : BufTy).Contents (Elt F) → (⟨S500000x6, .f32⟩ : BufTy).Contents (Elt F) → (⟨S500000x6, .f32⟩ : BufTy).Contents (Elt F)),
    nullary main_cst_10 (constant S_ .f32 0x40A00000#32),
    unary main_cst_10 main_v141 (broadcastInDim S500000x6 ![] bcast_S_S500000x6 : (⟨S_, .f32⟩ : BufTy).Contents (Elt F) → (⟨S500000x6, .f32⟩ : BufTy).Contents (Elt F)),
    binary main_v141 main_v128 main_v142 (Host.divf : (⟨S500000x6, .f32⟩ : BufTy).Contents (Elt F) → (⟨S500000x6, .f32⟩ : BufTy).Contents (Elt F) → (⟨S500000x6, .f32⟩ : BufTy).Contents (Elt F)),
    binary main_v142 main_v140 main_v143 (mulf : (⟨S500000x6, .f32⟩ : BufTy).Contents (Elt F) → (⟨S500000x6, .f32⟩ : BufTy).Contents (Elt F) → (⟨S500000x6, .f32⟩ : BufTy).Contents (Elt F)),
    binary main_v143 main_v136 main_v144 (subf : (⟨S500000x6, .f32⟩ : BufTy).Contents (Elt F) → (⟨S500000x6, .f32⟩ : BufTy).Contents (Elt F) → (⟨S500000x6, .f32⟩ : BufTy).Contents (Elt F)),
    nullary main_cst_11 (constant S_ .f32 0x40E00000#32),
    unary main_cst_11 main_v145 (broadcastInDim S500000x6 ![] bcast_S_S500000x6 : (⟨S_, .f32⟩ : BufTy).Contents (Elt F) → (⟨S500000x6, .f32⟩ : BufTy).Contents (Elt F)),
    binary main_v145 main_v128 main_v146 (Host.divf : (⟨S500000x6, .f32⟩ : BufTy).Contents (Elt F) → (⟨S500000x6, .f32⟩ : BufTy).Contents (Elt F) → (⟨S500000x6, .f32⟩ : BufTy).Contents (Elt F)),
    binary main_v146 main_v144 main_v147 (mulf : (⟨S500000x6, .f32⟩ : BufTy).Contents (Elt F) → (⟨S500000x6, .f32⟩ : BufTy).Contents (Elt F) → (⟨S500000x6, .f32⟩ : BufTy).Contents (Elt F)),
    binary main_v147 main_v140 main_v148 (subf : (⟨S500000x6, .f32⟩ : BufTy).Contents (Elt F) → (⟨S500000x6, .f32⟩ : BufTy).Contents (Elt F) → (⟨S500000x6, .f32⟩ : BufTy).Contents (Elt F)),
    nullary main_cst_12 (constant S_ .f32 0x41100000#32),
    unary main_cst_12 main_v149 (broadcastInDim S500000x6 ![] bcast_S_S500000x6 : (⟨S_, .f32⟩ : BufTy).Contents (Elt F) → (⟨S500000x6, .f32⟩ : BufTy).Contents (Elt F)),
    binary main_v149 main_v128 main_v150 (Host.divf : (⟨S500000x6, .f32⟩ : BufTy).Contents (Elt F) → (⟨S500000x6, .f32⟩ : BufTy).Contents (Elt F) → (⟨S500000x6, .f32⟩ : BufTy).Contents (Elt F)),
    binary main_v150 main_v148 main_v151 (mulf : (⟨S500000x6, .f32⟩ : BufTy).Contents (Elt F) → (⟨S500000x6, .f32⟩ : BufTy).Contents (Elt F) → (⟨S500000x6, .f32⟩ : BufTy).Contents (Elt F)),
    binary main_v151 main_v144 main_v152 (subf : (⟨S500000x6, .f32⟩ : BufTy).Contents (Elt F) → (⟨S500000x6, .f32⟩ : BufTy).Contents (Elt F) → (⟨S500000x6, .f32⟩ : BufTy).Contents (Elt F)),
    unary main_v121 main_v153 (broadcastInDim S1x6 ![1] bcast_S6_S1x6_1 : (⟨S6, .f32⟩ : BufTy).Contents (Elt F) → (⟨S1x6, .f32⟩ : BufTy).Contents (Elt F)),
    unary main_v153 main_v154 (broadcastInDim S500000x6 ![0, 1] bcast_S1x6_S500000x6_0_1 : (⟨S1x6, .f32⟩ : BufTy).Contents (Elt F) → (⟨S500000x6, .f32⟩ : BufTy).Contents (Elt F)),
    binary main_v154 main_v152 main_v155 (mulf : (⟨S500000x6, .f32⟩ : BufTy).Contents (Elt F) → (⟨S500000x6, .f32⟩ : BufTy).Contents (Elt F) → (⟨S500000x6, .f32⟩ : BufTy).Contents (Elt F)),
    unary main_cst main_v156 ((extractStridedSlice S1x6 ![6, 0] · slices_S7x6_S1x6_6_0) : (⟨S7x6, .f32⟩ : BufTy).Contents (Elt F) → (⟨S1x6, .f32⟩ : BufTy).Contents (Elt F)),
    reshape main_v156 main_v157 rfl shapeCasts_S1x6_S6,
    unary main_cst_0 main_v158 ((extractStridedSlice S1x6 ![6, 0] · slices_S7x6_S1x6_6_0) : (⟨S7x6, .f32⟩ : BufTy).Contents (Elt F) → (⟨S1x6, .f32⟩ : BufTy).Contents (Elt F)),
    reshape main_v158 main_v159 rfl shapeCasts_S1x6_S6,
    unary main_v1 main_v160 (broadcastInDim S500000x1 ![0] bcast_S500000_S500000x1_0 : (⟨S500000, .f32⟩ : BufTy).Contents (Elt F) → (⟨S500000x1, .f32⟩ : BufTy).Contents (Elt F)),
    unary main_v159 main_v161 (broadcastInDim S1x6 ![1] bcast_S6_S1x6_1 : (⟨S6, .f32⟩ : BufTy).Contents (Elt F) → (⟨S1x6, .f32⟩ : BufTy).Contents (Elt F)),
    unary main_v161 main_v162 (broadcastInDim S500000x6 ![0, 1] bcast_S1x6_S500000x6_0_1 : (⟨S1x6, .f32⟩ : BufTy).Contents (Elt F) → (⟨S500000x6, .f32⟩ : BufTy).Contents (Elt F)),
    unary main_v160 main_v163 (broadcastInDim S500000x6 ![0, 1] bcast_S500000x1_S500000x6_0_1 : (⟨S500000x1, .f32⟩ : BufTy).Contents (Elt F) → (⟨S500000x6, .f32⟩ : BufTy).Contents (Elt F)),
    binary main_v162 main_v163 main_v164 (mulf : (⟨S500000x6, .f32⟩ : BufTy).Contents (Elt F) → (⟨S500000x6, .f32⟩ : BufTy).Contents (Elt F) → (⟨S500000x6, .f32⟩ : BufTy).Contents (Elt F)),
    unary main_v164 main_v165 (Host.sin : (⟨S500000x6, .f32⟩ : BufTy).Contents (Elt F) → (⟨S500000x6, .f32⟩ : BufTy).Contents (Elt F)) ]

set_option maxHeartbeats 4000000 in
set_option maxRecDepth 16384 in
theorem ops2_sub : (ops2 : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., unary_bufs_sub .., unary_bufs_sub .., binary_bufs_sub .., unary_bufs_sub .., reshape_bufs_sub .., unary_bufs_sub .., reshape_bufs_sub .., unary_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., unary_bufs_sub .., reshape_bufs_sub .., unary_bufs_sub .., reshape_bufs_sub .., unary_bufs_sub .., unary_bufs_sub .., unary_bufs_sub .., unary_bufs_sub .., binary_bufs_sub .., unary_bufs_sub ..⟩

set_option maxHeartbeats 4000000 in
set_option maxRecDepth 16384 in
/-- The 60 operations of @main's window 3, in order. -/
abbrev ops3 : List (HloOp τ sig (Elt F)) :=
  [ binary main_v165 main_v164 main_v166 (Host.divf : (⟨S500000x6, .f32⟩ : BufTy).Contents (Elt F) → (⟨S500000x6, .f32⟩ : BufTy).Contents (Elt F) → (⟨S500000x6, .f32⟩ : BufTy).Contents (Elt F)),
    unary main_v164 main_v167 (Host.sin : (⟨S500000x6, .f32⟩ : BufTy).Contents (Elt F) → (⟨S500000x6, .f32⟩ : BufTy).Contents (Elt F)),
    binary main_v164 main_v164 main_v168 (mulf : (⟨S500000x6, .f32⟩ : BufTy).Contents (Elt F) → (⟨S500000x6, .f32⟩ : BufTy).Contents (Elt F) → (⟨S500000x6, .f32⟩ : BufTy).Contents (Elt F)),
    binary main_v167 main_v168 main_v169 (Host.divf : (⟨S500000x6, .f32⟩ : BufTy).Contents (Elt F) → (⟨S500000x6, .f32⟩ : BufTy).Contents (Elt F) → (⟨S500000x6, .f32⟩ : BufTy).Contents (Elt F)),
    unary main_v164 main_v170 (Host.cos : (⟨S500000x6, .f32⟩ : BufTy).Contents (Elt F) → (⟨S500000x6, .f32⟩ : BufTy).Contents (Elt F)),
    binary main_v170 main_v164 main_v171 (Host.divf : (⟨S500000x6, .f32⟩ : BufTy).Contents (Elt F) → (⟨S500000x6, .f32⟩ : BufTy).Contents (Elt F) → (⟨S500000x6, .f32⟩ : BufTy).Contents (Elt F)),
    binary main_v169 main_v171 main_v172 (subf : (⟨S500000x6, .f32⟩ : BufTy).Contents (Elt F) → (⟨S500000x6, .f32⟩ : BufTy).Contents (Elt F) → (⟨S500000x6, .f32⟩ : BufTy).Contents (Elt F)),
    nullary main_cst_13 (constant S_ .f32 0x40400000#32),
    unary main_cst_13 main_v173 (broadcastInDim S500000x6 ![] bcast_S_S500000x6 : (⟨S_, .f32⟩ : BufTy).Contents (Elt F) → (⟨S500000x6, .f32⟩ : BufTy).Contents (Elt F)),
    binary main_v173 main_v164 main_v174 (Host.divf : (⟨S500000x6, .f32⟩ : BufTy).Contents (Elt F) → (⟨S500000x6, .f32⟩ : BufTy).Contents (Elt F) → (⟨S500000x6, .f32⟩ : BufTy).Contents (Elt F)),
    binary main_v174 main_v172 main_v175 (mulf : (⟨S500000x6, .f32⟩ : BufTy).Contents (Elt F) → (⟨S500000x6, .f32⟩ : BufTy).Contents (Elt F) → (⟨S500000x6, .f32⟩ : BufTy).Contents (Elt F)),
    binary main_v175 main_v166 main_v176 (subf : (⟨S500000x6, .f32⟩ : BufTy).Contents (Elt F) → (⟨S500000x6, .f32⟩ : BufTy).Contents (Elt F) → (⟨S500000x6, .f32⟩ : BufTy).Contents (Elt F)),
    nullary main_cst_14 (constant S_ .f32 0x40A00000#32),
    unary main_cst_14 main_v177 (broadcastInDim S500000x6 ![] bcast_S_S500000x6 : (⟨S_, .f32⟩ : BufTy).Contents (Elt F) → (⟨S500000x6, .f32⟩ : BufTy).Contents (Elt F)),
    binary main_v177 main_v164 main_v178 (Host.divf : (⟨S500000x6, .f32⟩ : BufTy).Contents (Elt F) → (⟨S500000x6, .f32⟩ : BufTy).Contents (Elt F) → (⟨S500000x6, .f32⟩ : BufTy).Contents (Elt F)),
    binary main_v178 main_v176 main_v179 (mulf : (⟨S500000x6, .f32⟩ : BufTy).Contents (Elt F) → (⟨S500000x6, .f32⟩ : BufTy).Contents (Elt F) → (⟨S500000x6, .f32⟩ : BufTy).Contents (Elt F)),
    binary main_v179 main_v172 main_v180 (subf : (⟨S500000x6, .f32⟩ : BufTy).Contents (Elt F) → (⟨S500000x6, .f32⟩ : BufTy).Contents (Elt F) → (⟨S500000x6, .f32⟩ : BufTy).Contents (Elt F)),
    nullary main_cst_15 (constant S_ .f32 0x40E00000#32),
    unary main_cst_15 main_v181 (broadcastInDim S500000x6 ![] bcast_S_S500000x6 : (⟨S_, .f32⟩ : BufTy).Contents (Elt F) → (⟨S500000x6, .f32⟩ : BufTy).Contents (Elt F)),
    binary main_v181 main_v164 main_v182 (Host.divf : (⟨S500000x6, .f32⟩ : BufTy).Contents (Elt F) → (⟨S500000x6, .f32⟩ : BufTy).Contents (Elt F) → (⟨S500000x6, .f32⟩ : BufTy).Contents (Elt F)),
    binary main_v182 main_v180 main_v183 (mulf : (⟨S500000x6, .f32⟩ : BufTy).Contents (Elt F) → (⟨S500000x6, .f32⟩ : BufTy).Contents (Elt F) → (⟨S500000x6, .f32⟩ : BufTy).Contents (Elt F)),
    binary main_v183 main_v176 main_v184 (subf : (⟨S500000x6, .f32⟩ : BufTy).Contents (Elt F) → (⟨S500000x6, .f32⟩ : BufTy).Contents (Elt F) → (⟨S500000x6, .f32⟩ : BufTy).Contents (Elt F)),
    nullary main_cst_16 (constant S_ .f32 0x41100000#32),
    unary main_cst_16 main_v185 (broadcastInDim S500000x6 ![] bcast_S_S500000x6 : (⟨S_, .f32⟩ : BufTy).Contents (Elt F) → (⟨S500000x6, .f32⟩ : BufTy).Contents (Elt F)),
    binary main_v185 main_v164 main_v186 (Host.divf : (⟨S500000x6, .f32⟩ : BufTy).Contents (Elt F) → (⟨S500000x6, .f32⟩ : BufTy).Contents (Elt F) → (⟨S500000x6, .f32⟩ : BufTy).Contents (Elt F)),
    binary main_v186 main_v184 main_v187 (mulf : (⟨S500000x6, .f32⟩ : BufTy).Contents (Elt F) → (⟨S500000x6, .f32⟩ : BufTy).Contents (Elt F) → (⟨S500000x6, .f32⟩ : BufTy).Contents (Elt F)),
    binary main_v187 main_v180 main_v188 (subf : (⟨S500000x6, .f32⟩ : BufTy).Contents (Elt F) → (⟨S500000x6, .f32⟩ : BufTy).Contents (Elt F) → (⟨S500000x6, .f32⟩ : BufTy).Contents (Elt F)),
    nullary main_cst_17 (constant S_ .f32 0x41300000#32),
    unary main_cst_17 main_v189 (broadcastInDim S500000x6 ![] bcast_S_S500000x6 : (⟨S_, .f32⟩ : BufTy).Contents (Elt F) → (⟨S500000x6, .f32⟩ : BufTy).Contents (Elt F)),
    binary main_v189 main_v164 main_v190 (Host.divf : (⟨S500000x6, .f32⟩ : BufTy).Contents (Elt F) → (⟨S500000x6, .f32⟩ : BufTy).Contents (Elt F) → (⟨S500000x6, .f32⟩ : BufTy).Contents (Elt F)),
    binary main_v190 main_v188 main_v191 (mulf : (⟨S500000x6, .f32⟩ : BufTy).Contents (Elt F) → (⟨S500000x6, .f32⟩ : BufTy).Contents (Elt F) → (⟨S500000x6, .f32⟩ : BufTy).Contents (Elt F)),
    binary main_v191 main_v184 main_v192 (subf : (⟨S500000x6, .f32⟩ : BufTy).Contents (Elt F) → (⟨S500000x6, .f32⟩ : BufTy).Contents (Elt F) → (⟨S500000x6, .f32⟩ : BufTy).Contents (Elt F)),
    unary main_v157 main_v193 (broadcastInDim S1x6 ![1] bcast_S6_S1x6_1 : (⟨S6, .f32⟩ : BufTy).Contents (Elt F) → (⟨S1x6, .f32⟩ : BufTy).Contents (Elt F)),
    unary main_v193 main_v194 (broadcastInDim S500000x6 ![0, 1] bcast_S1x6_S500000x6_0_1 : (⟨S1x6, .f32⟩ : BufTy).Contents (Elt F) → (⟨S500000x6, .f32⟩ : BufTy).Contents (Elt F)),
    binary main_v194 main_v192 main_v195 (mulf : (⟨S500000x6, .f32⟩ : BufTy).Contents (Elt F) → (⟨S500000x6, .f32⟩ : BufTy).Contents (Elt F) → (⟨S500000x6, .f32⟩ : BufTy).Contents (Elt F)),
    unary main_v15 main_v196 (broadcastInDim S500000x1x6 ![0, 2] bcast_S500000x6_S500000x1x6_0_2 : (⟨S500000x6, .f32⟩ : BufTy).Contents (Elt F) → (⟨S500000x1x6, .f32⟩ : BufTy).Contents (Elt F)),
    unary main_v35 main_v197 (broadcastInDim S500000x1x6 ![0, 2] bcast_S500000x6_S500000x1x6_0_2 : (⟨S500000x6, .f32⟩ : BufTy).Contents (Elt F) → (⟨S500000x1x6, .f32⟩ : BufTy).Contents (Elt F)),
    unary main_v59 main_v198 (broadcastInDim S500000x1x6 ![0, 2] bcast_S500000x6_S500000x1x6_0_2 : (⟨S500000x6, .f32⟩ : BufTy).Contents (Elt F) → (⟨S500000x1x6, .f32⟩ : BufTy).Contents (Elt F)),
    unary main_v87 main_v199 (broadcastInDim S500000x1x6 ![0, 2] bcast_S500000x6_S500000x1x6_0_2 : (⟨S500000x6, .f32⟩ : BufTy).Contents (Elt F) → (⟨S500000x1x6, .f32⟩ : BufTy).Contents (Elt F)),
    unary main_v119 main_v200 (broadcastInDim S500000x1x6 ![0, 2] bcast_S500000x6_S500000x1x6_0_2 : (⟨S500000x6, .f32⟩ : BufTy).Contents (Elt F) → (⟨S500000x1x6, .f32⟩ : BufTy).Contents (Elt F)),
    unary main_v155 main_v201 (broadcastInDim S500000x1x6 ![0, 2] bcast_S500000x6_S500000x1x6_0_2 : (⟨S500000x6, .f32⟩ : BufTy).Contents (Elt F) → (⟨S500000x1x6, .f32⟩ : BufTy).Contents (Elt F)),
    unary main_v195 main_v202 (broadcastInDim S500000x1x6 ![0, 2] bcast_S500000x6_S500000x1x6_0_2 : (⟨S500000x6, .f32⟩ : BufTy).Contents (Elt F) → (⟨S500000x1x6, .f32⟩ : BufTy).Contents (Elt F)),
    nary ![main_v196, main_v197, main_v198, main_v199, main_v200, main_v201, main_v202] main_v203 (fun u => concatenate S500000x7x6 1 [⟨S500000x1x6, u 0⟩, ⟨S500000x1x6, u 1⟩, ⟨S500000x1x6, u 2⟩, ⟨S500000x1x6, u 3⟩, ⟨S500000x1x6, u 4⟩, ⟨S500000x1x6, u 5⟩, ⟨S500000x1x6, u 6⟩] concatenates_S500000x1x6_S500000x1x6_S500000x1x6_S500000x1x6_S500000x1x6_S500000x1x6_S500000x1x6_S500000x7x6_d1),
    binary main_v1 main_v1 main_v204 (mulf : (⟨S500000, .f32⟩ : BufTy).Contents (Elt F) → (⟨S500000, .f32⟩ : BufTy).Contents (Elt F) → (⟨S500000, .f32⟩ : BufTy).Contents (Elt F)),
    binary main_v204 main_v204 main_v205 (mulf : (⟨S500000, .f32⟩ : BufTy).Contents (Elt F) → (⟨S500000, .f32⟩ : BufTy).Contents (Elt F) → (⟨S500000, .f32⟩ : BufTy).Contents (Elt F)),
    binary main_v1 main_v205 main_v206 (mulf : (⟨S500000, .f32⟩ : BufTy).Contents (Elt F) → (⟨S500000, .f32⟩ : BufTy).Contents (Elt F) → (⟨S500000, .f32⟩ : BufTy).Contents (Elt F)),
    binary main_v206 main_v1 main_v207 (mulf : (⟨S500000, .f32⟩ : BufTy).Contents (Elt F) → (⟨S500000, .f32⟩ : BufTy).Contents (Elt F) → (⟨S500000, .f32⟩ : BufTy).Contents (Elt F)),
    nullary main_cst_18 (constant S_ .f32 0x3F800000#32),
    unary main_cst_18 main_v208 (broadcastInDim S500000 ![] bcast_S_S500000 : (⟨S_, .f32⟩ : BufTy).Contents (Elt F) → (⟨S500000, .f32⟩ : BufTy).Contents (Elt F)),
    binary main_v208 main_v1 main_v209 (Host.divf : (⟨S500000, .f32⟩ : BufTy).Contents (Elt F) → (⟨S500000, .f32⟩ : BufTy).Contents (Elt F) → (⟨S500000, .f32⟩ : BufTy).Contents (Elt F)),
    nullary main_cst_19 (constant S_ .f32 0xC1A80000#32),
    unary main_cst_19 main_v210 (broadcastInDim S500000 ![] bcast_S_S500000 : (⟨S_, .f32⟩ : BufTy).Contents (Elt F) → (⟨S500000, .f32⟩ : BufTy).Contents (Elt F)),
    binary main_v210 main_v206 main_v211 (mulf : (⟨S500000, .f32⟩ : BufTy).Contents (Elt F) → (⟨S500000, .f32⟩ : BufTy).Contents (Elt F) → (⟨S500000, .f32⟩ : BufTy).Contents (Elt F)),
    binary main_v209 main_v211 main_v212 (addf : (⟨S500000, .f32⟩ : BufTy).Contents (Elt F) → (⟨S500000, .f32⟩ : BufTy).Contents (Elt F) → (⟨S500000, .f32⟩ : BufTy).Contents (Elt F)),
    nullary main_cst_20 (constant S_ .f32 0x420C0000#32),
    unary main_cst_20 main_v213 (broadcastInDim S500000 ![] bcast_S_S500000 : (⟨S_, .f32⟩ : BufTy).Contents (Elt F) → (⟨S500000, .f32⟩ : BufTy).Contents (Elt F)),
    binary main_v213 main_v207 main_v214 (mulf : (⟨S500000, .f32⟩ : BufTy).Contents (Elt F) → (⟨S500000, .f32⟩ : BufTy).Contents (Elt F) → (⟨S500000, .f32⟩ : BufTy).Contents (Elt F)),
    binary main_v212 main_v214 main_v215 (addf : (⟨S500000, .f32⟩ : BufTy).Contents (Elt F) → (⟨S500000, .f32⟩ : BufTy).Contents (Elt F) → (⟨S500000, .f32⟩ : BufTy).Contents (Elt F)),
    nullary main_cst_21 (constant S_ .f32 0xC1700000#32),
    unary main_cst_21 main_v216 (broadcastInDim S500000 ![] bcast_S_S500000 : (⟨S_, .f32⟩ : BufTy).Contents (Elt F) → (⟨S500000, .f32⟩ : BufTy).Contents (Elt F)) ]

set_option maxHeartbeats 4000000 in
set_option maxRecDepth 16384 in
theorem ops3_sub : (ops3 : List (HloOp τ sig (Elt F))).Forall fun op => op.bufs ⊆ tcRefs τ sig :=
  ⟨binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., unary_bufs_sub .., nary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub ..⟩

set_option maxHeartbeats 4000000 in
set_option maxRecDepth 16384 in
/-- The 60 operations of @main's window 4, in order. -/
abbrev ops4 : List (HloOp τ sig (Elt F)) :=
  [ binary main_v216 main_v207 main_v217 (mulf : (⟨S500000, .f32⟩ : BufTy).Contents (Elt F) → (⟨S500000, .f32⟩ : BufTy).Contents (Elt F) → (⟨S500000, .f32⟩ : BufTy).Contents (Elt F)),
    binary main_v217 main_v1 main_v218 (mulf : (⟨S500000, .f32⟩ : BufTy).Contents (Elt F) → (⟨S500000, .f32⟩ : BufTy).Contents (Elt F) → (⟨S500000, .f32⟩ : BufTy).Contents (Elt F)),
    binary main_v215 main_v218 main_v219 (addf : (⟨S500000, .f32⟩ : BufTy).Contents (Elt F) → (⟨S500000, .f32⟩ : BufTy).Contents (Elt F) → (⟨S500000, .f32⟩ : BufTy).Contents (Elt F)),
    nullary main_cst_22 (constant S_ .f32 0x3F800000#32),
    unary main_cst_22 main_v220 (broadcastInDim S500000 ![] bcast_S_S500000 : (⟨S_, .f32⟩ : BufTy).Contents (Elt F) → (⟨S500000, .f32⟩ : BufTy).Contents (Elt F)),
    binary main_v1 main_v220 main_v221 (cmpf .olt : (⟨S500000, .f32⟩ : BufTy).Contents (Elt F) → (⟨S500000, .f32⟩ : BufTy).Contents (Elt F) → (⟨S500000, .i1⟩ : BufTy).Contents (Elt F)),
    nullary main_cst_23 (constant S_ .f32 0x00000000#32),
    unary main_cst_23 main_v222 (broadcastInDim S500000 ![] bcast_S_S500000 : (⟨S_, .f32⟩ : BufTy).Contents (Elt F) → (⟨S500000, .f32⟩ : BufTy).Contents (Elt F)),
    TRef.ternary (.of main_v221) (.of main_v219) (.of main_v222) main_call0.v0 select,
    unary main_v223 main_v224 (broadcastInDim S500000x1x1 ![0] bcast_S500000_S500000x1x1_0 : (⟨S500000, .f32⟩ : BufTy).Contents (Elt F) → (⟨S500000x1x1, .f32⟩ : BufTy).Contents (Elt F)),
    unary main_v224 main_v225 (broadcastInDim S500000x7x6 ![0, 1, 2] bcast_S500000x1x1_S500000x7x6_0_1_2 : (⟨S500000x1x1, .f32⟩ : BufTy).Contents (Elt F) → (⟨S500000x7x6, .f32⟩ : BufTy).Contents (Elt F)),
    binary main_v225 main_v203 main_v226 (mulf : (⟨S500000x7x6, .f32⟩ : BufTy).Contents (Elt F) → (⟨S500000x7x6, .f32⟩ : BufTy).Contents (Elt F) → (⟨S500000x7x6, .f32⟩ : BufTy).Contents (Elt F)),
    unary main_arg1 main_v227 (Host.cos : (⟨S2000000, .f32⟩ : BufTy).Contents (Elt F) → (⟨S2000000, .f32⟩ : BufTy).Contents (Elt F)),
    nullary main_cst_24 (constant S_ .f32 0x3F800000#32),
    unary main_cst_24 main_v228 (broadcastInDim S2000000 ![] bcast_S_S2000000 : (⟨S_, .f32⟩ : BufTy).Contents (Elt F) → (⟨S2000000, .f32⟩ : BufTy).Contents (Elt F)),
    nullary main_cst_25 (constant S_ .f32 0x40400000#32),
    unary main_cst_25 main_v229 (broadcastInDim S2000000 ![] bcast_S_S2000000 : (⟨S_, .f32⟩ : BufTy).Contents (Elt F) → (⟨S2000000, .f32⟩ : BufTy).Contents (Elt F)),
    binary main_v229 main_v227 main_v230 (mulf : (⟨S2000000, .f32⟩ : BufTy).Contents (Elt F) → (⟨S2000000, .f32⟩ : BufTy).Contents (Elt F) → (⟨S2000000, .f32⟩ : BufTy).Contents (Elt F)),
    binary main_v230 main_v227 main_v231 (mulf : (⟨S2000000, .f32⟩ : BufTy).Contents (Elt F) → (⟨S2000000, .f32⟩ : BufTy).Contents (Elt F) → (⟨S2000000, .f32⟩ : BufTy).Contents (Elt F)),
    nullary main_cst_26 (constant S_ .f32 0x3F800000#32),
    unary main_cst_26 main_v232 (broadcastInDim S2000000 ![] bcast_S_S2000000 : (⟨S_, .f32⟩ : BufTy).Contents (Elt F) → (⟨S2000000, .f32⟩ : BufTy).Contents (Elt F)),
    binary main_v232 main_v228 main_v233 (mulf : (⟨S2000000, .f32⟩ : BufTy).Contents (Elt F) → (⟨S2000000, .f32⟩ : BufTy).Contents (Elt F) → (⟨S2000000, .f32⟩ : BufTy).Contents (Elt F)),
    binary main_v231 main_v233 main_v234 (subf : (⟨S2000000, .f32⟩ : BufTy).Contents (Elt F) → (⟨S2000000, .f32⟩ : BufTy).Contents (Elt F) → (⟨S2000000, .f32⟩ : BufTy).Contents (Elt F)),
    nullary main_cst_27 (constant S_ .f32 0x40000000#32),
    unary main_cst_27 main_v235 (broadcastInDim S2000000 ![] bcast_S_S2000000 : (⟨S_, .f32⟩ : BufTy).Contents (Elt F) → (⟨S2000000, .f32⟩ : BufTy).Contents (Elt F)),
    binary main_v234 main_v235 main_v236 (Host.divf : (⟨S2000000, .f32⟩ : BufTy).Contents (Elt F) → (⟨S2000000, .f32⟩ : BufTy).Contents (Elt F) → (⟨S2000000, .f32⟩ : BufTy).Contents (Elt F)),
    nullary main_cst_28 (constant S_ .f32 0x40A00000#32),
    unary main_cst_28 main_v237 (broadcastInDim S2000000 ![] bcast_S_S2000000 : (⟨S_, .f32⟩ : BufTy).Contents (Elt F) → (⟨S2000000, .f32⟩ : BufTy).Contents (Elt F)),
    binary main_v237 main_v227 main_v238 (mulf : (⟨S2000000, .f32⟩ : BufTy).Contents (Elt F) → (⟨S2000000, .f32⟩ : BufTy).Contents (Elt F) → (⟨S2000000, .f32⟩ : BufTy).Contents (Elt F)),
    binary main_v238 main_v236 main_v239 (mulf : (⟨S2000000, .f32⟩ : BufTy).Contents (Elt F) → (⟨S2000000, .f32⟩ : BufTy).Contents (Elt F) → (⟨S2000000, .f32⟩ : BufTy).Contents (Elt F)),
    nullary main_cst_29 (constant S_ .f32 0x40000000#32),
    unary main_cst_29 main_v240 (broadcastInDim S2000000 ![] bcast_S_S2000000 : (⟨S_, .f32⟩ : BufTy).Contents (Elt F) → (⟨S2000000, .f32⟩ : BufTy).Contents (Elt F)),
    binary main_v240 main_v227 main_v241 (mulf : (⟨S2000000, .f32⟩ : BufTy).Contents (Elt F) → (⟨S2000000, .f32⟩ : BufTy).Contents (Elt F) → (⟨S2000000, .f32⟩ : BufTy).Contents (Elt F)),
    binary main_v239 main_v241 main_v242 (subf : (⟨S2000000, .f32⟩ : BufTy).Contents (Elt F) → (⟨S2000000, .f32⟩ : BufTy).Contents (Elt F) → (⟨S2000000, .f32⟩ : BufTy).Contents (Elt F)),
    nullary main_cst_30 (constant S_ .f32 0x40400000#32),
    unary main_cst_30 main_v243 (broadcastInDim S2000000 ![] bcast_S_S2000000 : (⟨S_, .f32⟩ : BufTy).Contents (Elt F) → (⟨S2000000, .f32⟩ : BufTy).Contents (Elt F)),
    binary main_v242 main_v243 main_v244 (Host.divf : (⟨S2000000, .f32⟩ : BufTy).Contents (Elt F) → (⟨S2000000, .f32⟩ : BufTy).Contents (Elt F) → (⟨S2000000, .f32⟩ : BufTy).Contents (Elt F)),
    nullary main_cst_31 (constant S_ .f32 0x40E00000#32),
    unary main_cst_31 main_v245 (broadcastInDim S2000000 ![] bcast_S_S2000000 : (⟨S_, .f32⟩ : BufTy).Contents (Elt F) → (⟨S2000000, .f32⟩ : BufTy).Contents (Elt F)),
    binary main_v245 main_v227 main_v246 (mulf : (⟨S2000000, .f32⟩ : BufTy).Contents (Elt F) → (⟨S2000000, .f32⟩ : BufTy).Contents (Elt F) → (⟨S2000000, .f32⟩ : BufTy).Contents (Elt F)),
    binary main_v246 main_v244 main_v247 (mulf : (⟨S2000000, .f32⟩ : BufTy).Contents (Elt F) → (⟨S2000000, .f32⟩ : BufTy).Contents (Elt F) → (⟨S2000000, .f32⟩ : BufTy).Contents (Elt F)),
    nullary main_cst_32 (constant S_ .f32 0x40400000#32),
    unary main_cst_32 main_v248 (broadcastInDim S2000000 ![] bcast_S_S2000000 : (⟨S_, .f32⟩ : BufTy).Contents (Elt F) → (⟨S2000000, .f32⟩ : BufTy).Contents (Elt F)),
    binary main_v248 main_v236 main_v249 (mulf : (⟨S2000000, .f32⟩ : BufTy).Contents (Elt F) → (⟨S2000000, .f32⟩ : BufTy).Contents (Elt F) → (⟨S2000000, .f32⟩ : BufTy).Contents (Elt F)),
    binary main_v247 main_v249 main_v250 (subf : (⟨S2000000, .f32⟩ : BufTy).Contents (Elt F) → (⟨S2000000, .f32⟩ : BufTy).Contents (Elt F) → (⟨S2000000, .f32⟩ : BufTy).Contents (Elt F)),
    nullary main_cst_33 (constant S_ .f32 0x40800000#32),
    unary main_cst_33 main_v251 (broadcastInDim S2000000 ![] bcast_S_S2000000 : (⟨S_, .f32⟩ : BufTy).Contents (Elt F) → (⟨S2000000, .f32⟩ : BufTy).Contents (Elt F)),
    binary main_v250 main_v251 main_v252 (Host.divf : (⟨S2000000, .f32⟩ : BufTy).Contents (Elt F) → (⟨S2000000, .f32⟩ : BufTy).Contents (Elt F) → (⟨S2000000, .f32⟩ : BufTy).Contents (Elt F)),
    nullary main_cst_34 (constant S_ .f32 0x41100000#32),
    unary main_cst_34 main_v253 (broadcastInDim S2000000 ![] bcast_S_S2000000 : (⟨S_, .f32⟩ : BufTy).Contents (Elt F) → (⟨S2000000, .f32⟩ : BufTy).Contents (Elt F)),
    binary main_v253 main_v227 main_v254 (mulf : (⟨S2000000, .f32⟩ : BufTy).Contents (Elt F) → (⟨S2000000, .f32⟩ : BufTy).Contents (Elt F) → (⟨S2000000, .f32⟩ : BufTy).Contents (Elt F)),
    binary main_v254 main_v252 main_v255 (mulf : (⟨S2000000, .f32⟩ : BufTy).Contents (Elt F) → (⟨S2000000, .f32⟩ : BufTy).Contents (Elt F) → (⟨S2000000, .f32⟩ : BufTy).Contents (Elt F)),
    nullary main_cst_35 (constant S_ .f32 0x40800000#32),
    unary main_cst_35 main_v256 (broadcastInDim S2000000 ![] bcast_S_S2000000 : (⟨S_, .f32⟩ : BufTy).Contents (Elt F) → (⟨S2000000, .f32⟩ : BufTy).Contents (Elt F)),
    binary main_v256 main_v244 main_v257 (mulf : (⟨S2000000, .f32⟩ : BufTy).Contents (Elt F) → (⟨S2000000, .f32⟩ : BufTy).Contents (Elt F) → (⟨S2000000, .f32⟩ : BufTy).Contents (Elt F)),
    binary main_v255 main_v257 main_v258 (subf : (⟨S2000000, .f32⟩ : BufTy).Contents (Elt F) → (⟨S2000000, .f32⟩ : BufTy).Contents (Elt F) → (⟨S2000000, .f32⟩ : BufTy).Contents (Elt F)),
    nullary main_cst_36 (constant S_ .f32 0x40A00000#32),
    unary main_cst_36 main_v259 (broadcastInDim S2000000 ![] bcast_S_S2000000 : (⟨S_, .f32⟩ : BufTy).Contents (Elt F) → (⟨S2000000, .f32⟩ : BufTy).Contents (Elt F)),
    binary main_v258 main_v259 main_v260 (Host.divf : (⟨S2000000, .f32⟩ : BufTy).Contents (Elt F) → (⟨S2000000, .f32⟩ : BufTy).Contents (Elt F) → (⟨S2000000, .f32⟩ : BufTy).Contents (Elt F)),
    nullary main_cst_37 (constant S_ .f32 0x41300000#32) ]

set_option maxHeartbeats 4000000 in
set_option maxRecDepth 16384 in
theorem ops4_sub : (ops4 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., ternary_bufs_sub .., unary_bufs_sub .., unary_bufs_sub .., binary_bufs_sub .., unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub ..⟩

set_option maxHeartbeats 4000000 in
set_option maxRecDepth 16384 in
/-- The 34 operations of @main's window 5, in order. -/
abbrev ops5 : List (HloOp τ sig (Elt F)) :=
  [ unary main_cst_37 main_v261 (broadcastInDim S2000000 ![] bcast_S_S2000000 : (⟨S_, .f32⟩ : BufTy).Contents (Elt F) → (⟨S2000000, .f32⟩ : BufTy).Contents (Elt F)),
    binary main_v261 main_v227 main_v262 (mulf : (⟨S2000000, .f32⟩ : BufTy).Contents (Elt F) → (⟨S2000000, .f32⟩ : BufTy).Contents (Elt F) → (⟨S2000000, .f32⟩ : BufTy).Contents (Elt F)),
    binary main_v262 main_v260 main_v263 (mulf : (⟨S2000000, .f32⟩ : BufTy).Contents (Elt F) → (⟨S2000000, .f32⟩ : BufTy).Contents (Elt F) → (⟨S2000000, .f32⟩ : BufTy).Contents (Elt F)),
    nullary main_cst_38 (constant S_ .f32 0x40A00000#32),
    unary main_cst_38 main_v264 (broadcastInDim S2000000 ![] bcast_S_S2000000 : (⟨S_, .f32⟩ : BufTy).Contents (Elt F) → (⟨S2000000, .f32⟩ : BufTy).Contents (Elt F)),
    binary main_v264 main_v252 main_v265 (mulf : (⟨S2000000, .f32⟩ : BufTy).Contents (Elt F) → (⟨S2000000, .f32⟩ : BufTy).Contents (Elt F) → (⟨S2000000, .f32⟩ : BufTy).Contents (Elt F)),
    binary main_v263 main_v265 main_v266 (subf : (⟨S2000000, .f32⟩ : BufTy).Contents (Elt F) → (⟨S2000000, .f32⟩ : BufTy).Contents (Elt F) → (⟨S2000000, .f32⟩ : BufTy).Contents (Elt F)),
    nullary main_cst_39 (constant S_ .f32 0x40C00000#32),
    unary main_cst_39 main_v267 (broadcastInDim S2000000 ![] bcast_S_S2000000 : (⟨S_, .f32⟩ : BufTy).Contents (Elt F) → (⟨S2000000, .f32⟩ : BufTy).Contents (Elt F)),
    binary main_v266 main_v267 main_v268 (Host.divf : (⟨S2000000, .f32⟩ : BufTy).Contents (Elt F) → (⟨S2000000, .f32⟩ : BufTy).Contents (Elt F) → (⟨S2000000, .f32⟩ : BufTy).Contents (Elt F)),
    unary main_v228 main_v269 (broadcastInDim S2000000x1 ![0] bcast_S2000000_S2000000x1_0 : (⟨S2000000, .f32⟩ : BufTy).Contents (Elt F) → (⟨S2000000x1, .f32⟩ : BufTy).Contents (Elt F)),
    unary main_v227 main_v270 (broadcastInDim S2000000x1 ![0] bcast_S2000000_S2000000x1_0 : (⟨S2000000, .f32⟩ : BufTy).Contents (Elt F) → (⟨S2000000x1, .f32⟩ : BufTy).Contents (Elt F)),
    unary main_v236 main_v271 (broadcastInDim S2000000x1 ![0] bcast_S2000000_S2000000x1_0 : (⟨S2000000, .f32⟩ : BufTy).Contents (Elt F) → (⟨S2000000x1, .f32⟩ : BufTy).Contents (Elt F)),
    unary main_v244 main_v272 (broadcastInDim S2000000x1 ![0] bcast_S2000000_S2000000x1_0 : (⟨S2000000, .f32⟩ : BufTy).Contents (Elt F) → (⟨S2000000x1, .f32⟩ : BufTy).Contents (Elt F)),
    unary main_v252 main_v273 (broadcastInDim S2000000x1 ![0] bcast_S2000000_S2000000x1_0 : (⟨S2000000, .f32⟩ : BufTy).Contents (Elt F) → (⟨S2000000x1, .f32⟩ : BufTy).Contents (Elt F)),
    unary main_v260 main_v274 (broadcastInDim S2000000x1 ![0] bcast_S2000000_S2000000x1_0 : (⟨S2000000, .f32⟩ : BufTy).Contents (Elt F) → (⟨S2000000x1, .f32⟩ : BufTy).Contents (Elt F)),
    unary main_v268 main_v275 (broadcastInDim S2000000x1 ![0] bcast_S2000000_S2000000x1_0 : (⟨S2000000, .f32⟩ : BufTy).Contents (Elt F) → (⟨S2000000x1, .f32⟩ : BufTy).Contents (Elt F)),
    nary ![main_v269, main_v270, main_v271, main_v272, main_v273, main_v274, main_v275] main_v276 (fun u => concatenate S2000000x7 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩] concatenates_S2000000x1_S2000000x1_S2000000x1_S2000000x1_S2000000x1_S2000000x1_S2000000x1_S2000000x7_d1),
    unary main_cst_1 main_v277 (broadcastInDim S1x7 ![1] bcast_S7_S1x7_1 : (⟨S7, .f32⟩ : BufTy).Contents (Elt F) → (⟨S1x7, .f32⟩ : BufTy).Contents (Elt F)),
    unary main_v277 main_v278 (broadcastInDim S2000000x7 ![0, 1] bcast_S1x7_S2000000x7_0_1 : (⟨S1x7, .f32⟩ : BufTy).Contents (Elt F) → (⟨S2000000x7, .f32⟩ : BufTy).Contents (Elt F)),
    binary main_v276 main_v278 main_v279 (mulf : (⟨S2000000x7, .f32⟩ : BufTy).Contents (Elt F) → (⟨S2000000x7, .f32⟩ : BufTy).Contents (Elt F) → (⟨S2000000x7, .f32⟩ : BufTy).Contents (Elt F)),
    nullary main_c (constantI S_ 32 0#32),
    unary main_c main_v280 (broadcastInDim S2000000 ![] bcast_S_S2000000 : (⟨S_, .i32⟩ : BufTy).Contents (Elt F) → (⟨S2000000, .i32⟩ : BufTy).Contents (Elt F)),
    binary main_arg2 main_v280 main_v281 (cmpi .slt : (⟨S2000000, .i32⟩ : BufTy).Contents (Elt F) → (⟨S2000000, .i32⟩ : BufTy).Contents (Elt F) → (⟨S2000000, .i1⟩ : BufTy).Contents (Elt F)),
    nullary main_c_40 (constantI S_ 32 500000#32),
    unary main_c_40 main_v282 (broadcastInDim S2000000 ![] bcast_S_S2000000 : (⟨S_, .i32⟩ : BufTy).Contents (Elt F) → (⟨S2000000, .i32⟩ : BufTy).Contents (Elt F)),
    binary main_arg2 main_v282 main_v283 (addi : (⟨S2000000, .i32⟩ : BufTy).Contents (Elt F) → (⟨S2000000, .i32⟩ : BufTy).Contents (Elt F) → (⟨S2000000, .i32⟩ : BufTy).Contents (Elt F)),
    ternary main_v281 main_v283 main_arg2 main_v284 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v284 main_v285 (broadcastInDim S2000000x1 ![0] bcast_S2000000_S2000000x1_0 : (⟨S2000000, .i32⟩ : BufTy).Contents (Elt F) → (⟨S2000000x1, .i32⟩ : BufTy).Contents (Elt F)),
    binary main_v226 main_v285 main_v286 ((fun x i => Host.gather gather_S500000x7x6_S2000000x1_S2000000x7x6_12_0_n_n_0_1_176 x i) : (⟨S500000x7x6, .f32⟩ : BufTy).Contents (Elt F) → (⟨S2000000x1, .i32⟩ : BufTy).Contents (Elt F) → (⟨S2000000x7x6, .f32⟩ : BufTy).Contents (Elt F)),
    unary main_v279 main_v287 (broadcastInDim S2000000x7x1 ![0, 1] bcast_S2000000x7_S2000000x7x1_0_1 : (⟨S2000000x7, .f32⟩ : BufTy).Contents (Elt F) → (⟨S2000000x7x1, .f32⟩ : BufTy).Contents (Elt F)),
    unary main_v287 main_v288 (broadcastInDim S2000000x7x6 ![0, 1, 2] bcast_S2000000x7x1_S2000000x7x6_0_1_2 : (⟨S2000000x7x1, .f32⟩ : BufTy).Contents (Elt F) → (⟨S2000000x7x6, .f32⟩ : BufTy).Contents (Elt F)),
    binary main_v286 main_v288 main_v289 (mulf : (⟨S2000000x7x6, .f32⟩ : BufTy).Contents (Elt F) → (⟨S2000000x7x6, .f32⟩ : BufTy).Contents (Elt F) → (⟨S2000000x7x6, .f32⟩ : BufTy).Contents (Elt F)),
    reshape main_v289 main_v290 rfl shapeCasts_S2000000x7x6_S2000000x42 ]

set_option maxHeartbeats 4000000 in
set_option maxRecDepth 16384 in
theorem ops5_sub : (ops5 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., nary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., reshape_bufs_sub ..⟩

/-! ## Each buffer's term of the argument arrays -/

def r_main_cst (A0 : (⟨S500000, .f32⟩ : BufTy).Contents (Elt F)) (A1 : (⟨S2000000, .f32⟩ : BufTy).Contents (Elt F)) (A2 : (⟨S2000000, .i32⟩ : BufTy).Contents (Elt F)) : (⟨S7x6, .f32⟩ : BufTy).Contents (Elt F) :=
  (fun i => FloatOps.ofBits .f32 (lit0 (S7x6.rowMajor i)))
def r_main_cst_0 (A0 : (⟨S500000, .f32⟩ : BufTy).Contents (Elt F)) (A1 : (⟨S2000000, .f32⟩ : BufTy).Contents (Elt F)) (A2 : (⟨S2000000, .i32⟩ : BufTy).Contents (Elt F)) : (⟨S7x6, .f32⟩ : BufTy).Contents (Elt F) :=
  (fun i => FloatOps.ofBits .f32 (lit1 (S7x6.rowMajor i)))
def r_main_cst_1 (A0 : (⟨S500000, .f32⟩ : BufTy).Contents (Elt F)) (A1 : (⟨S2000000, .f32⟩ : BufTy).Contents (Elt F)) (A2 : (⟨S2000000, .i32⟩ : BufTy).Contents (Elt F)) : (⟨S7, .f32⟩ : BufTy).Contents (Elt F) :=
  (fun i => FloatOps.ofBits .f32 (lit2 (S7.rowMajor i)))
def r_main_cst_2 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40A00000#32)
def r_main_v0 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (broadcastInDim S500000 ![] bcast_S_S500000 : (⟨S_, .f32⟩ : BufTy).Contents (Elt F) → (⟨S500000, .f32⟩ : BufTy).Contents (Elt F)) (r_main_cst_2 A0 A1 A2)
def r_main_v1 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (Host.divf : (⟨S500000, .f32⟩ : BufTy).Contents (Elt F) → (⟨S500000, .f32⟩ : BufTy).Contents (Elt F) → (⟨S500000, .f32⟩ : BufTy).Contents (Elt F)) A0 (r_main_v0 A0 A1 A2)
def r_main_v2 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![0, 0] · slices_S7x6_S1x6_0_0) : (⟨S7x6, .f32⟩ : BufTy).Contents (Elt F) → (⟨S1x6, .f32⟩ : BufTy).Contents (Elt F)) (r_main_cst A0 A1 A2)
def r_main_v3 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v2 A0 A1 A2) shapeCasts_S1x6_S6
def r_main_v4 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![0, 0] · slices_S7x6_S1x6_0_0) : (⟨S7x6, .f32⟩ : BufTy).Contents (Elt F) → (⟨S1x6, .f32⟩ : BufTy).Contents (Elt F)) (r_main_cst_0 A0 A1 A2)
def r_main_v5 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v4 A0 A1 A2) shapeCasts_S1x6_S6
def r_main_v6 (A0 : (⟨S500000, .f32⟩ : BufTy).Contents (Elt F)) (A1 : (⟨S2000000, .f32⟩ : BufTy).Contents (Elt F)) (A2 : (⟨S2000000, .i32⟩ : BufTy).Contents (Elt F)) : (⟨S500000x1, .f32⟩ : BufTy).Contents (Elt F) :=
  (broadcastInDim S500000x1 ![0] bcast_S500000_S500000x1_0 : (⟨S500000, .f32⟩ : BufTy).Contents (Elt F) → (⟨S500000x1, .f32⟩ : BufTy).Contents (Elt F)) (r_main_v1 A0 A1 A2)
def r_main_v7 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v5 A0 A1 A2)
def r_main_v8 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v7 A0 A1 A2)
def r_main_v9 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S500000x1_S500000x6_0_1 : (⟨S500000x1, .f32⟩ : BufTy).Contents (Elt F) → (⟨S500000x6, .f32⟩ : BufTy).Contents (Elt F)) (r_main_v6 A0 A1 A2)
def r_main_v10 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v8 A0 A1 A2) (r_main_v9 A0 A1 A2)
def r_main_v11 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.sin : (⟨S500000x6, .f32⟩ : BufTy).Contents (Elt F) → (⟨S500000x6, .f32⟩ : BufTy).Contents (Elt F)) (r_main_v10 A0 A1 A2)
def r_main_v12 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v11 A0 A1 A2) (r_main_v10 A0 A1 A2)
def r_main_v13 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v3 A0 A1 A2)
def r_main_v14 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v13 A0 A1 A2)
def r_main_v15 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v14 A0 A1 A2) (r_main_v12 A0 A1 A2)
def r_main_v16 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![1, 0] · slices_S7x6_S1x6_1_0) : (⟨S7x6, .f32⟩ : BufTy).Contents (Elt F) → (⟨S1x6, .f32⟩ : BufTy).Contents (Elt F)) (r_main_cst A0 A1 A2)
def r_main_v17 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v16 A0 A1 A2) shapeCasts_S1x6_S6
def r_main_v18 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![1, 0] · slices_S7x6_S1x6_1_0) : (⟨S7x6, .f32⟩ : BufTy).Contents (Elt F) → (⟨S1x6, .f32⟩ : BufTy).Contents (Elt F)) (r_main_cst_0 A0 A1 A2)
def r_main_v19 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v18 A0 A1 A2) shapeCasts_S1x6_S6
def r_main_v20 (A0 : (⟨S500000, .f32⟩ : BufTy).Contents (Elt F)) (A1 : (⟨S2000000, .f32⟩ : BufTy).Contents (Elt F)) (A2 : (⟨S2000000, .i32⟩ : BufTy).Contents (Elt F)) : (⟨S500000x1, .f32⟩ : BufTy).Contents (Elt F) :=
  (broadcastInDim S500000x1 ![0] bcast_S500000_S500000x1_0 : (⟨S500000, .f32⟩ : BufTy).Contents (Elt F) → (⟨S500000x1, .f32⟩ : BufTy).Contents (Elt F)) (r_main_v1 A0 A1 A2)
def r_main_v21 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v19 A0 A1 A2)
def r_main_v22 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v21 A0 A1 A2)
def r_main_v23 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S500000x1_S500000x6_0_1 : (⟨S500000x1, .f32⟩ : BufTy).Contents (Elt F) → (⟨S500000x6, .f32⟩ : BufTy).Contents (Elt F)) (r_main_v20 A0 A1 A2)
def r_main_v24 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v22 A0 A1 A2) (r_main_v23 A0 A1 A2)
def r_main_v25 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.sin : (⟨S500000x6, .f32⟩ : BufTy).Contents (Elt F) → (⟨S500000x6, .f32⟩ : BufTy).Contents (Elt F)) (r_main_v24 A0 A1 A2)
def r_main_v26 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v25 A0 A1 A2) (r_main_v24 A0 A1 A2)
def r_main_v27 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.sin : (⟨S500000x6, .f32⟩ : BufTy).Contents (Elt F) → (⟨S500000x6, .f32⟩ : BufTy).Contents (Elt F)) (r_main_v24 A0 A1 A2)
def r_main_v28 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v24 A0 A1 A2) (r_main_v24 A0 A1 A2)
def r_main_v29 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v27 A0 A1 A2) (r_main_v28 A0 A1 A2)
def r_main_v30 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.cos : (⟨S500000x6, .f32⟩ : BufTy).Contents (Elt F) → (⟨S500000x6, .f32⟩ : BufTy).Contents (Elt F)) (r_main_v24 A0 A1 A2)
def r_main_v31 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v30 A0 A1 A2) (r_main_v24 A0 A1 A2)
def r_main_v32 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v29 A0 A1 A2) (r_main_v31 A0 A1 A2)
def r_main_v33 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v17 A0 A1 A2)
def r_main_v34 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v33 A0 A1 A2)
def r_main_v35 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v34 A0 A1 A2) (r_main_v32 A0 A1 A2)
def r_main_v36 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![2, 0] · slices_S7x6_S1x6_2_0) : (⟨S7x6, .f32⟩ : BufTy).Contents (Elt F) → (⟨S1x6, .f32⟩ : BufTy).Contents (Elt F)) (r_main_cst A0 A1 A2)
def r_main_v37 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v36 A0 A1 A2) shapeCasts_S1x6_S6
def r_main_v38 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![2, 0] · slices_S7x6_S1x6_2_0) : (⟨S7x6, .f32⟩ : BufTy).Contents (Elt F) → (⟨S1x6, .f32⟩ : BufTy).Contents (Elt F)) (r_main_cst_0 A0 A1 A2)
def r_main_v39 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v38 A0 A1 A2) shapeCasts_S1x6_S6
def r_main_v40 (A0 : (⟨S500000, .f32⟩ : BufTy).Contents (Elt F)) (A1 : (⟨S2000000, .f32⟩ : BufTy).Contents (Elt F)) (A2 : (⟨S2000000, .i32⟩ : BufTy).Contents (Elt F)) : (⟨S500000x1, .f32⟩ : BufTy).Contents (Elt F) :=
  (broadcastInDim S500000x1 ![0] bcast_S500000_S500000x1_0 : (⟨S500000, .f32⟩ : BufTy).Contents (Elt F) → (⟨S500000x1, .f32⟩ : BufTy).Contents (Elt F)) (r_main_v1 A0 A1 A2)
def r_main_v41 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v39 A0 A1 A2)
def r_main_v42 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v41 A0 A1 A2)
def r_main_v43 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S500000x1_S500000x6_0_1 : (⟨S500000x1, .f32⟩ : BufTy).Contents (Elt F) → (⟨S500000x6, .f32⟩ : BufTy).Contents (Elt F)) (r_main_v40 A0 A1 A2)
def r_main_v44 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v42 A0 A1 A2) (r_main_v43 A0 A1 A2)
def r_main_v45 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.sin : (⟨S500000x6, .f32⟩ : BufTy).Contents (Elt F) → (⟨S500000x6, .f32⟩ : BufTy).Contents (Elt F)) (r_main_v44 A0 A1 A2)
def r_main_v46 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v45 A0 A1 A2) (r_main_v44 A0 A1 A2)
def r_main_v47 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.sin : (⟨S500000x6, .f32⟩ : BufTy).Contents (Elt F) → (⟨S500000x6, .f32⟩ : BufTy).Contents (Elt F)) (r_main_v44 A0 A1 A2)
def r_main_v48 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v44 A0 A1 A2) (r_main_v44 A0 A1 A2)
def r_main_v49 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v47 A0 A1 A2) (r_main_v48 A0 A1 A2)
def r_main_v50 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.cos : (⟨S500000x6, .f32⟩ : BufTy).Contents (Elt F) → (⟨S500000x6, .f32⟩ : BufTy).Contents (Elt F)) (r_main_v44 A0 A1 A2)
def r_main_v51 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v50 A0 A1 A2) (r_main_v44 A0 A1 A2)
def r_main_v52 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v49 A0 A1 A2) (r_main_v51 A0 A1 A2)
def r_main_cst_3 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40400000#32)
def r_main_v53 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_3 A0 A1 A2)
def r_main_v54 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v53 A0 A1 A2) (r_main_v44 A0 A1 A2)
def r_main_v55 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v54 A0 A1 A2) (r_main_v52 A0 A1 A2)
def r_main_v56 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v55 A0 A1 A2) (r_main_v46 A0 A1 A2)
def r_main_v57 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v37 A0 A1 A2)
def r_main_v58 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v57 A0 A1 A2)
def r_main_v59 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v58 A0 A1 A2) (r_main_v56 A0 A1 A2)
def r_main_v60 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![3, 0] · slices_S7x6_S1x6_3_0) : (⟨S7x6, .f32⟩ : BufTy).Contents (Elt F) → (⟨S1x6, .f32⟩ : BufTy).Contents (Elt F)) (r_main_cst A0 A1 A2)
def r_main_v61 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v60 A0 A1 A2) shapeCasts_S1x6_S6
def r_main_v62 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![3, 0] · slices_S7x6_S1x6_3_0) : (⟨S7x6, .f32⟩ : BufTy).Contents (Elt F) → (⟨S1x6, .f32⟩ : BufTy).Contents (Elt F)) (r_main_cst_0 A0 A1 A2)
def r_main_v63 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v62 A0 A1 A2) shapeCasts_S1x6_S6
def r_main_v64 (A0 : (⟨S500000, .f32⟩ : BufTy).Contents (Elt F)) (A1 : (⟨S2000000, .f32⟩ : BufTy).Contents (Elt F)) (A2 : (⟨S2000000, .i32⟩ : BufTy).Contents (Elt F)) : (⟨S500000x1, .f32⟩ : BufTy).Contents (Elt F) :=
  (broadcastInDim S500000x1 ![0] bcast_S500000_S500000x1_0 : (⟨S500000, .f32⟩ : BufTy).Contents (Elt F) → (⟨S500000x1, .f32⟩ : BufTy).Contents (Elt F)) (r_main_v1 A0 A1 A2)
def r_main_v65 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v63 A0 A1 A2)
def r_main_v66 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v65 A0 A1 A2)
def r_main_v67 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S500000x1_S500000x6_0_1 : (⟨S500000x1, .f32⟩ : BufTy).Contents (Elt F) → (⟨S500000x6, .f32⟩ : BufTy).Contents (Elt F)) (r_main_v64 A0 A1 A2)
def r_main_v68 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v66 A0 A1 A2) (r_main_v67 A0 A1 A2)
def r_main_v69 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.sin : (⟨S500000x6, .f32⟩ : BufTy).Contents (Elt F) → (⟨S500000x6, .f32⟩ : BufTy).Contents (Elt F)) (r_main_v68 A0 A1 A2)
def r_main_v70 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v69 A0 A1 A2) (r_main_v68 A0 A1 A2)
def r_main_v71 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.sin : (⟨S500000x6, .f32⟩ : BufTy).Contents (Elt F) → (⟨S500000x6, .f32⟩ : BufTy).Contents (Elt F)) (r_main_v68 A0 A1 A2)
def r_main_v72 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v68 A0 A1 A2) (r_main_v68 A0 A1 A2)
def r_main_v73 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v71 A0 A1 A2) (r_main_v72 A0 A1 A2)
def r_main_v74 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.cos : (⟨S500000x6, .f32⟩ : BufTy).Contents (Elt F) → (⟨S500000x6, .f32⟩ : BufTy).Contents (Elt F)) (r_main_v68 A0 A1 A2)
def r_main_v75 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v74 A0 A1 A2) (r_main_v68 A0 A1 A2)
def r_main_v76 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v73 A0 A1 A2) (r_main_v75 A0 A1 A2)
def r_main_cst_4 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40400000#32)
def r_main_v77 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_4 A0 A1 A2)
def r_main_v78 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v77 A0 A1 A2) (r_main_v68 A0 A1 A2)
def r_main_v79 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v78 A0 A1 A2) (r_main_v76 A0 A1 A2)
def r_main_v80 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v79 A0 A1 A2) (r_main_v70 A0 A1 A2)
def r_main_cst_5 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40A00000#32)
def r_main_v81 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_5 A0 A1 A2)
def r_main_v82 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v81 A0 A1 A2) (r_main_v68 A0 A1 A2)
def r_main_v83 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v82 A0 A1 A2) (r_main_v80 A0 A1 A2)
def r_main_v84 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v83 A0 A1 A2) (r_main_v76 A0 A1 A2)
def r_main_v85 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v61 A0 A1 A2)
def r_main_v86 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v85 A0 A1 A2)
def r_main_v87 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v86 A0 A1 A2) (r_main_v84 A0 A1 A2)
def r_main_v88 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![4, 0] · slices_S7x6_S1x6_4_0) : (⟨S7x6, .f32⟩ : BufTy).Contents (Elt F) → (⟨S1x6, .f32⟩ : BufTy).Contents (Elt F)) (r_main_cst A0 A1 A2)
def r_main_v89 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v88 A0 A1 A2) shapeCasts_S1x6_S6
def r_main_v90 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![4, 0] · slices_S7x6_S1x6_4_0) : (⟨S7x6, .f32⟩ : BufTy).Contents (Elt F) → (⟨S1x6, .f32⟩ : BufTy).Contents (Elt F)) (r_main_cst_0 A0 A1 A2)
def r_main_v91 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v90 A0 A1 A2) shapeCasts_S1x6_S6
def r_main_v92 (A0 : (⟨S500000, .f32⟩ : BufTy).Contents (Elt F)) (A1 : (⟨S2000000, .f32⟩ : BufTy).Contents (Elt F)) (A2 : (⟨S2000000, .i32⟩ : BufTy).Contents (Elt F)) : (⟨S500000x1, .f32⟩ : BufTy).Contents (Elt F) :=
  (broadcastInDim S500000x1 ![0] bcast_S500000_S500000x1_0 : (⟨S500000, .f32⟩ : BufTy).Contents (Elt F) → (⟨S500000x1, .f32⟩ : BufTy).Contents (Elt F)) (r_main_v1 A0 A1 A2)
def r_main_v93 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v91 A0 A1 A2)
def r_main_v94 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v93 A0 A1 A2)
def r_main_v95 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S500000x1_S500000x6_0_1 : (⟨S500000x1, .f32⟩ : BufTy).Contents (Elt F) → (⟨S500000x6, .f32⟩ : BufTy).Contents (Elt F)) (r_main_v92 A0 A1 A2)
def r_main_v96 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v94 A0 A1 A2) (r_main_v95 A0 A1 A2)
def r_main_v97 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.sin : (⟨S500000x6, .f32⟩ : BufTy).Contents (Elt F) → (⟨S500000x6, .f32⟩ : BufTy).Contents (Elt F)) (r_main_v96 A0 A1 A2)
def r_main_v98 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v97 A0 A1 A2) (r_main_v96 A0 A1 A2)
def r_main_v99 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.sin : (⟨S500000x6, .f32⟩ : BufTy).Contents (Elt F) → (⟨S500000x6, .f32⟩ : BufTy).Contents (Elt F)) (r_main_v96 A0 A1 A2)
def r_main_v100 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v96 A0 A1 A2) (r_main_v96 A0 A1 A2)
def r_main_v101 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v99 A0 A1 A2) (r_main_v100 A0 A1 A2)
def r_main_v102 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.cos : (⟨S500000x6, .f32⟩ : BufTy).Contents (Elt F) → (⟨S500000x6, .f32⟩ : BufTy).Contents (Elt F)) (r_main_v96 A0 A1 A2)
def r_main_v103 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v102 A0 A1 A2) (r_main_v96 A0 A1 A2)
def r_main_v104 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v101 A0 A1 A2) (r_main_v103 A0 A1 A2)
def r_main_cst_6 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40400000#32)
def r_main_v105 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_6 A0 A1 A2)
def r_main_v106 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v105 A0 A1 A2) (r_main_v96 A0 A1 A2)
def r_main_v107 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v106 A0 A1 A2) (r_main_v104 A0 A1 A2)
def r_main_v108 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v107 A0 A1 A2) (r_main_v98 A0 A1 A2)
def r_main_cst_7 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40A00000#32)
def r_main_v109 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_7 A0 A1 A2)
def r_main_v110 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v109 A0 A1 A2) (r_main_v96 A0 A1 A2)
def r_main_v111 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v110 A0 A1 A2) (r_main_v108 A0 A1 A2)
def r_main_v112 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v111 A0 A1 A2) (r_main_v104 A0 A1 A2)
def r_main_cst_8 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40E00000#32)
def r_main_v113 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_8 A0 A1 A2)
def r_main_v114 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v113 A0 A1 A2) (r_main_v96 A0 A1 A2)
def r_main_v115 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v114 A0 A1 A2) (r_main_v112 A0 A1 A2)
def r_main_v116 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v115 A0 A1 A2) (r_main_v108 A0 A1 A2)
def r_main_v117 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v89 A0 A1 A2)
def r_main_v118 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v117 A0 A1 A2)
def r_main_v119 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v118 A0 A1 A2) (r_main_v116 A0 A1 A2)
def r_main_v120 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![5, 0] · slices_S7x6_S1x6_5_0) : (⟨S7x6, .f32⟩ : BufTy).Contents (Elt F) → (⟨S1x6, .f32⟩ : BufTy).Contents (Elt F)) (r_main_cst A0 A1 A2)
def r_main_v121 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v120 A0 A1 A2) shapeCasts_S1x6_S6
def r_main_v122 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![5, 0] · slices_S7x6_S1x6_5_0) : (⟨S7x6, .f32⟩ : BufTy).Contents (Elt F) → (⟨S1x6, .f32⟩ : BufTy).Contents (Elt F)) (r_main_cst_0 A0 A1 A2)
def r_main_v123 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v122 A0 A1 A2) shapeCasts_S1x6_S6
def r_main_v124 (A0 : (⟨S500000, .f32⟩ : BufTy).Contents (Elt F)) (A1 : (⟨S2000000, .f32⟩ : BufTy).Contents (Elt F)) (A2 : (⟨S2000000, .i32⟩ : BufTy).Contents (Elt F)) : (⟨S500000x1, .f32⟩ : BufTy).Contents (Elt F) :=
  (broadcastInDim S500000x1 ![0] bcast_S500000_S500000x1_0 : (⟨S500000, .f32⟩ : BufTy).Contents (Elt F) → (⟨S500000x1, .f32⟩ : BufTy).Contents (Elt F)) (r_main_v1 A0 A1 A2)
def r_main_v125 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v123 A0 A1 A2)
def r_main_v126 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v125 A0 A1 A2)
def r_main_v127 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S500000x1_S500000x6_0_1 : (⟨S500000x1, .f32⟩ : BufTy).Contents (Elt F) → (⟨S500000x6, .f32⟩ : BufTy).Contents (Elt F)) (r_main_v124 A0 A1 A2)
def r_main_v128 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v126 A0 A1 A2) (r_main_v127 A0 A1 A2)
def r_main_v129 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.sin : (⟨S500000x6, .f32⟩ : BufTy).Contents (Elt F) → (⟨S500000x6, .f32⟩ : BufTy).Contents (Elt F)) (r_main_v128 A0 A1 A2)
def r_main_v130 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v129 A0 A1 A2) (r_main_v128 A0 A1 A2)
def r_main_v131 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.sin : (⟨S500000x6, .f32⟩ : BufTy).Contents (Elt F) → (⟨S500000x6, .f32⟩ : BufTy).Contents (Elt F)) (r_main_v128 A0 A1 A2)
def r_main_v132 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v128 A0 A1 A2) (r_main_v128 A0 A1 A2)
def r_main_v133 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v131 A0 A1 A2) (r_main_v132 A0 A1 A2)
def r_main_v134 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.cos : (⟨S500000x6, .f32⟩ : BufTy).Contents (Elt F) → (⟨S500000x6, .f32⟩ : BufTy).Contents (Elt F)) (r_main_v128 A0 A1 A2)
def r_main_v135 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v134 A0 A1 A2) (r_main_v128 A0 A1 A2)
def r_main_v136 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v133 A0 A1 A2) (r_main_v135 A0 A1 A2)
def r_main_cst_9 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40400000#32)
def r_main_v137 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_9 A0 A1 A2)
def r_main_v138 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v137 A0 A1 A2) (r_main_v128 A0 A1 A2)
def r_main_v139 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v138 A0 A1 A2) (r_main_v136 A0 A1 A2)
def r_main_v140 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v139 A0 A1 A2) (r_main_v130 A0 A1 A2)
def r_main_cst_10 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40A00000#32)
def r_main_v141 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_10 A0 A1 A2)
def r_main_v142 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v141 A0 A1 A2) (r_main_v128 A0 A1 A2)
def r_main_v143 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v142 A0 A1 A2) (r_main_v140 A0 A1 A2)
def r_main_v144 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v143 A0 A1 A2) (r_main_v136 A0 A1 A2)
def r_main_cst_11 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40E00000#32)
def r_main_v145 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_11 A0 A1 A2)
def r_main_v146 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v145 A0 A1 A2) (r_main_v128 A0 A1 A2)
def r_main_v147 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v146 A0 A1 A2) (r_main_v144 A0 A1 A2)
def r_main_v148 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v147 A0 A1 A2) (r_main_v140 A0 A1 A2)
def r_main_cst_12 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x41100000#32)
def r_main_v149 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_12 A0 A1 A2)
def r_main_v150 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v149 A0 A1 A2) (r_main_v128 A0 A1 A2)
def r_main_v151 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v150 A0 A1 A2) (r_main_v148 A0 A1 A2)
def r_main_v152 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v151 A0 A1 A2) (r_main_v144 A0 A1 A2)
def r_main_v153 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v121 A0 A1 A2)
def r_main_v154 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v153 A0 A1 A2)
def r_main_v155 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v154 A0 A1 A2) (r_main_v152 A0 A1 A2)
def r_main_v156 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![6, 0] · slices_S7x6_S1x6_6_0) : (⟨S7x6, .f32⟩ : BufTy).Contents (Elt F) → (⟨S1x6, .f32⟩ : BufTy).Contents (Elt F)) (r_main_cst A0 A1 A2)
def r_main_v157 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v156 A0 A1 A2) shapeCasts_S1x6_S6
def r_main_v158 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  ((extractStridedSlice S1x6 ![6, 0] · slices_S7x6_S1x6_6_0) : (⟨S7x6, .f32⟩ : BufTy).Contents (Elt F) → (⟨S1x6, .f32⟩ : BufTy).Contents (Elt F)) (r_main_cst_0 A0 A1 A2)
def r_main_v159 (A0 : (⟨S500000, .f32⟩ : BufTy).Contents (Elt F)) (A1 : (⟨S2000000, .f32⟩ : BufTy).Contents (Elt F)) (A2 : (⟨S2000000, .i32⟩ : BufTy).Contents (Elt F)) : (⟨S6, .f32⟩ : BufTy).Contents (Elt F) :=
  shapeCast S6 (r_main_v158 A0 A1 A2) shapeCasts_S1x6_S6
def r_main_v160 (A0 : (⟨S500000, .f32⟩ : BufTy).Contents (Elt F)) (A1 : (⟨S2000000, .f32⟩ : BufTy).Contents (Elt F)) (A2 : (⟨S2000000, .i32⟩ : BufTy).Contents (Elt F)) : (⟨S500000x1, .f32⟩ : BufTy).Contents (Elt F) :=
  (broadcastInDim S500000x1 ![0] bcast_S500000_S500000x1_0 : (⟨S500000, .f32⟩ : BufTy).Contents (Elt F) → (⟨S500000x1, .f32⟩ : BufTy).Contents (Elt F)) (r_main_v1 A0 A1 A2)
def r_main_v161 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v159 A0 A1 A2)
def r_main_v162 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v161 A0 A1 A2)
def r_main_v163 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S500000x1_S500000x6_0_1 : (⟨S500000x1, .f32⟩ : BufTy).Contents (Elt F) → (⟨S500000x6, .f32⟩ : BufTy).Contents (Elt F)) (r_main_v160 A0 A1 A2)
def r_main_v164 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v162 A0 A1 A2) (r_main_v163 A0 A1 A2)
def r_main_v165 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.sin : (⟨S500000x6, .f32⟩ : BufTy).Contents (Elt F) → (⟨S500000x6, .f32⟩ : BufTy).Contents (Elt F)) (r_main_v164 A0 A1 A2)
def r_main_v166 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v165 A0 A1 A2) (r_main_v164 A0 A1 A2)
def r_main_v167 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.sin : (⟨S500000x6, .f32⟩ : BufTy).Contents (Elt F) → (⟨S500000x6, .f32⟩ : BufTy).Contents (Elt F)) (r_main_v164 A0 A1 A2)
def r_main_v168 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v164 A0 A1 A2) (r_main_v164 A0 A1 A2)
def r_main_v169 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v167 A0 A1 A2) (r_main_v168 A0 A1 A2)
def r_main_v170 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.cos : (⟨S500000x6, .f32⟩ : BufTy).Contents (Elt F) → (⟨S500000x6, .f32⟩ : BufTy).Contents (Elt F)) (r_main_v164 A0 A1 A2)
def r_main_v171 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v170 A0 A1 A2) (r_main_v164 A0 A1 A2)
def r_main_v172 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v169 A0 A1 A2) (r_main_v171 A0 A1 A2)
def r_main_cst_13 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40400000#32)
def r_main_v173 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_13 A0 A1 A2)
def r_main_v174 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v173 A0 A1 A2) (r_main_v164 A0 A1 A2)
def r_main_v175 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v174 A0 A1 A2) (r_main_v172 A0 A1 A2)
def r_main_v176 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v175 A0 A1 A2) (r_main_v166 A0 A1 A2)
def r_main_cst_14 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40A00000#32)
def r_main_v177 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_14 A0 A1 A2)
def r_main_v178 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v177 A0 A1 A2) (r_main_v164 A0 A1 A2)
def r_main_v179 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v178 A0 A1 A2) (r_main_v176 A0 A1 A2)
def r_main_v180 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v179 A0 A1 A2) (r_main_v172 A0 A1 A2)
def r_main_cst_15 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40E00000#32)
def r_main_v181 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_15 A0 A1 A2)
def r_main_v182 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v181 A0 A1 A2) (r_main_v164 A0 A1 A2)
def r_main_v183 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v182 A0 A1 A2) (r_main_v180 A0 A1 A2)
def r_main_v184 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v183 A0 A1 A2) (r_main_v176 A0 A1 A2)
def r_main_cst_16 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x41100000#32)
def r_main_v185 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_16 A0 A1 A2)
def r_main_v186 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v185 A0 A1 A2) (r_main_v164 A0 A1 A2)
def r_main_v187 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v186 A0 A1 A2) (r_main_v184 A0 A1 A2)
def r_main_v188 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v187 A0 A1 A2) (r_main_v180 A0 A1 A2)
def r_main_cst_17 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x41300000#32)
def r_main_v189 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![] bcast_S_S500000x6 : (⟨S_, .f32⟩ : BufTy).Contents (Elt F) → (⟨S500000x6, .f32⟩ : BufTy).Contents (Elt F)) (r_main_cst_17 A0 A1 A2)
def r_main_v190 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (Host.divf : (⟨S500000x6, .f32⟩ : BufTy).Contents (Elt F) → (⟨S500000x6, .f32⟩ : BufTy).Contents (Elt F) → (⟨S500000x6, .f32⟩ : BufTy).Contents (Elt F)) (r_main_v189 A0 A1 A2) (r_main_v164 A0 A1 A2)
def r_main_v191 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v190 A0 A1 A2) (r_main_v188 A0 A1 A2)
def r_main_v192 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (subf : (⟨S500000x6, .f32⟩ : BufTy).Contents (Elt F) → (⟨S500000x6, .f32⟩ : BufTy).Contents (Elt F) → (⟨S500000x6, .f32⟩ : BufTy).Contents (Elt F)) (r_main_v191 A0 A1 A2) (r_main_v184 A0 A1 A2)
def r_main_v193 (A0 : (⟨S500000, .f32⟩ : BufTy).Contents (Elt F)) (A1 : (⟨S2000000, .f32⟩ : BufTy).Contents (Elt F)) (A2 : (⟨S2000000, .i32⟩ : BufTy).Contents (Elt F)) : (⟨S1x6, .f32⟩ : BufTy).Contents (Elt F) :=
  (broadcastInDim S1x6 ![1] bcast_S6_S1x6_1 : (⟨S6, .f32⟩ : BufTy).Contents (Elt F) → (⟨S1x6, .f32⟩ : BufTy).Contents (Elt F)) (r_main_v157 A0 A1 A2)
def r_main_v194 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (broadcastInDim S500000x6 ![0, 1] bcast_S1x6_S500000x6_0_1 : (⟨S1x6, .f32⟩ : BufTy).Contents (Elt F) → (⟨S500000x6, .f32⟩ : BufTy).Contents (Elt F)) (r_main_v193 A0 A1 A2)
def r_main_v195 (A0 : (⟨S500000, .f32⟩ : BufTy).Contents (Elt F)) (A1 : (⟨S2000000, .f32⟩ : BufTy).Contents (Elt F)) (A2 : (⟨S2000000, .i32⟩ : BufTy).Contents (Elt F)) : (⟨S500000x6, .f32⟩ : BufTy).Contents (Elt F) :=
  (mulf : (⟨S500000x6, .f32⟩ : BufTy).Contents (Elt F) → (⟨S500000x6, .f32⟩ : BufTy).Contents (Elt F) → (⟨S500000x6, .f32⟩ : BufTy).Contents (Elt F)) (r_main_v194 A0 A1 A2) (r_main_v192 A0 A1 A2)
def r_main_v196 (A0 : (⟨S500000, .f32⟩ : BufTy).Contents (Elt F)) (A1 : (⟨S2000000, .f32⟩ : BufTy).Contents (Elt F)) (A2 : (⟨S2000000, .i32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (r_main_v15 A0 A1 A2)
def r_main_v197 (A0 : (⟨S500000, .f32⟩ : BufTy).Contents (Elt F)) (A1 : (⟨S2000000, .f32⟩ : BufTy).Contents (Elt F)) (A2 : (⟨S2000000, .i32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (r_main_v35 A0 A1 A2)
def r_main_v198 (A0 : (⟨S500000, .f32⟩ : BufTy).Contents (Elt F)) (A1 : (⟨S2000000, .f32⟩ : BufTy).Contents (Elt F)) (A2 : (⟨S2000000, .i32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (r_main_v59 A0 A1 A2)
def r_main_v199 (A0 : (⟨S500000, .f32⟩ : BufTy).Contents (Elt F)) (A1 : (⟨S2000000, .f32⟩ : BufTy).Contents (Elt F)) (A2 : (⟨S2000000, .i32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (r_main_v87 A0 A1 A2)
def r_main_v200 (A0 : (⟨S500000, .f32⟩ : BufTy).Contents (Elt F)) (A1 : (⟨S2000000, .f32⟩ : BufTy).Contents (Elt F)) (A2 : (⟨S2000000, .i32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (r_main_v119 A0 A1 A2)
def r_main_v201 (A0 : (⟨S500000, .f32⟩ : BufTy).Contents (Elt F)) (A1 : (⟨S2000000, .f32⟩ : BufTy).Contents (Elt F)) (A2 : (⟨S2000000, .i32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (r_main_v155 A0 A1 A2)
def r_main_v202 (A0 : (⟨S500000, .f32⟩ : BufTy).Contents (Elt F)) (A1 : (⟨S2000000, .f32⟩ : BufTy).Contents (Elt F)) (A2 : (⟨S2000000, .i32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (r_main_v195 A0 A1 A2)
def r_main_v203 (A0 : (⟨S500000, .f32⟩ : BufTy).Contents (Elt F)) (A1 : (⟨S2000000, .f32⟩ : BufTy).Contents (Elt F)) (A2 : (⟨S2000000, .i32⟩ : BufTy).Contents (Elt F)) : (⟨S500000x7x6, .f32⟩ : BufTy).Contents (Elt F) :=
  concatenate S500000x7x6 1 [⟨S500000x1x6, (r_main_v196 A0 A1 A2)⟩, ⟨S500000x1x6, (r_main_v197 A0 A1 A2)⟩, ⟨S500000x1x6, (r_main_v198 A0 A1 A2)⟩, ⟨S500000x1x6, (r_main_v199 A0 A1 A2)⟩, ⟨S500000x1x6, (r_main_v200 A0 A1 A2)⟩, ⟨S500000x1x6, (r_main_v201 A0 A1 A2)⟩, ⟨S500000x1x6, (r_main_v202 A0 A1 A2)⟩] concatenates_S500000x1x6_S500000x1x6_S500000x1x6_S500000x1x6_S500000x1x6_S500000x1x6_S500000x1x6_S500000x7x6_d1
def r_main_v204 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (r_main_v1 A0 A1 A2) (r_main_v1 A0 A1 A2)
def r_main_v205 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (r_main_v204 A0 A1 A2) (r_main_v204 A0 A1 A2)
def r_main_v206 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (r_main_v1 A0 A1 A2) (r_main_v205 A0 A1 A2)
def r_main_v207 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (r_main_v206 A0 A1 A2) (r_main_v1 A0 A1 A2)
def r_main_cst_18 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x3F800000#32)
def r_main_v208 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (broadcastInDim S500000 ![] bcast_S_S500000 : (⟨S_, .f32⟩ : BufTy).Contents (Elt F) → (⟨S500000, .f32⟩ : BufTy).Contents (Elt F)) (r_main_cst_18 A0 A1 A2)
def r_main_v209 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (Host.divf : (⟨S500000, .f32⟩ : BufTy).Contents (Elt F) → (⟨S500000, .f32⟩ : BufTy).Contents (Elt F) → (⟨S500000, .f32⟩ : BufTy).Contents (Elt F)) (r_main_v208 A0 A1 A2) (r_main_v1 A0 A1 A2)
def r_main_cst_19 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0xC1A80000#32)
def r_main_v210 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (broadcastInDim S500000 ![] bcast_S_S500000 : (⟨S_, .f32⟩ : BufTy).Contents (Elt F) → (⟨S500000, .f32⟩ : BufTy).Contents (Elt F)) (r_main_cst_19 A0 A1 A2)
def r_main_v211 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (r_main_v210 A0 A1 A2) (r_main_v206 A0 A1 A2)
def r_main_v212 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (addf : (⟨S500000, .f32⟩ : BufTy).Contents (Elt F) → (⟨S500000, .f32⟩ : BufTy).Contents (Elt F) → (⟨S500000, .f32⟩ : BufTy).Contents (Elt F)) (r_main_v209 A0 A1 A2) (r_main_v211 A0 A1 A2)
def r_main_cst_20 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x420C0000#32)
def r_main_v213 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (broadcastInDim S500000 ![] bcast_S_S500000 : (⟨S_, .f32⟩ : BufTy).Contents (Elt F) → (⟨S500000, .f32⟩ : BufTy).Contents (Elt F)) (r_main_cst_20 A0 A1 A2)
def r_main_v214 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (r_main_v213 A0 A1 A2) (r_main_v207 A0 A1 A2)
def r_main_v215 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (addf : (⟨S500000, .f32⟩ : BufTy).Contents (Elt F) → (⟨S500000, .f32⟩ : BufTy).Contents (Elt F) → (⟨S500000, .f32⟩ : BufTy).Contents (Elt F)) (r_main_v212 A0 A1 A2) (r_main_v214 A0 A1 A2)
def r_main_cst_21 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0xC1700000#32)
def r_main_v216 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (broadcastInDim S500000 ![] bcast_S_S500000 : (⟨S_, .f32⟩ : BufTy).Contents (Elt F) → (⟨S500000, .f32⟩ : BufTy).Contents (Elt F)) (r_main_cst_21 A0 A1 A2)
def r_main_v217 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (r_main_v216 A0 A1 A2) (r_main_v207 A0 A1 A2)
def r_main_v218 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (r_main_v217 A0 A1 A2) (r_main_v1 A0 A1 A2)
def r_main_v219 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (addf : (⟨S500000, .f32⟩ : BufTy).Contents (Elt F) → (⟨S500000, .f32⟩ : BufTy).Contents (Elt F) → (⟨S500000, .f32⟩ : BufTy).Contents (Elt F)) (r_main_v215 A0 A1 A2) (r_main_v218 A0 A1 A2)
def r_main_cst_22 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x3F800000#32)
def r_main_v220 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (broadcastInDim S500000 ![] bcast_S_S500000 : (⟨S_, .f32⟩ : BufTy).Contents (Elt F) → (⟨S500000, .f32⟩ : BufTy).Contents (Elt F)) (r_main_cst_22 A0 A1 A2)
def r_main_v221 (A0 : (⟨S500000, .f32⟩ : BufTy).Contents (Elt F)) (A1 : (⟨S2000000, .f32⟩ : BufTy).Contents (Elt F)) (A2 : (⟨S2000000, .i32⟩ : BufTy).Contents (Elt F)) : (⟨S500000, .i1⟩ : BufTy).Contents (Elt F) :=
  (cmpf .olt : (⟨S500000, .f32⟩ : BufTy).Contents (Elt F) → (⟨S500000, .f32⟩ : BufTy).Contents (Elt F) → (⟨S500000, .i1⟩ : BufTy).Contents (Elt F)) (r_main_v1 A0 A1 A2) (r_main_v220 A0 A1 A2)
def r_main_cst_23 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x00000000#32)
def r_main_v222 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  (broadcastInDim S500000 ![] bcast_S_S500000 : (⟨S_, .f32⟩ : BufTy).Contents (Elt F) → (⟨S500000, .f32⟩ : BufTy).Contents (Elt F)) (r_main_cst_23 A0 A1 A2)
def r_main_v223 (A0 : (⟨S500000, .f32⟩ : BufTy).Contents (Elt F)) (A1 : (⟨S2000000, .f32⟩ : BufTy).Contents (Elt F)) (A2 : (⟨S2000000, .i32⟩ : BufTy).Contents (Elt F)) : (⟨S500000, .f32⟩ : BufTy).Contents (Elt F) :=
  select (r_main_v221 A0 A1 A2) (r_main_v219 A0 A1 A2) (r_main_v222 A0 A1 A2)
def r_main_v224 (A0 : (⟨S500000, .f32⟩ : BufTy).Contents (Elt F)) (A1 : (⟨S2000000, .f32⟩ : BufTy).Contents (Elt F)) (A2 : (⟨S2000000, .i32⟩ : BufTy).Contents (Elt F)) : (⟨S500000x1x1, .f32⟩ : BufTy).Contents (Elt F) :=
  (broadcastInDim S500000x1x1 ![0] bcast_S500000_S500000x1x1_0 : (⟨S500000, .f32⟩ : BufTy).Contents (Elt F) → (⟨S500000x1x1, .f32⟩ : BufTy).Contents (Elt F)) (r_main_v223 A0 A1 A2)
def r_main_v225 (A0 : (⟨S500000, .f32⟩ : BufTy).Contents (Elt F)) (A1 : (⟨S2000000, .f32⟩ : BufTy).Contents (Elt F)) (A2 : (⟨S2000000, .i32⟩ : BufTy).Contents (Elt F)) : (⟨S500000x7x6, .f32⟩ : BufTy).Contents (Elt F) :=
  (broadcastInDim S500000x7x6 ![0, 1, 2] bcast_S500000x1x1_S500000x7x6_0_1_2 : (⟨S500000x1x1, .f32⟩ : BufTy).Contents (Elt F) → (⟨S500000x7x6, .f32⟩ : BufTy).Contents (Elt F)) (r_main_v224 A0 A1 A2)
def r_main_v226 (A0 : (⟨S500000, .f32⟩ : BufTy).Contents (Elt F)) (A1 : (⟨S2000000, .f32⟩ : BufTy).Contents (Elt F)) (A2 : (⟨S2000000, .i32⟩ : BufTy).Contents (Elt F)) : (⟨S500000x7x6, .f32⟩ : BufTy).Contents (Elt F) :=
  (mulf : (⟨S500000x7x6, .f32⟩ : BufTy).Contents (Elt F) → (⟨S500000x7x6, .f32⟩ : BufTy).Contents (Elt F) → (⟨S500000x7x6, .f32⟩ : BufTy).Contents (Elt F)) (r_main_v225 A0 A1 A2) (r_main_v203 A0 A1 A2)
def r_main_v227 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (Host.cos : (⟨S2000000, .f32⟩ : BufTy).Contents (Elt F) → (⟨S2000000, .f32⟩ : BufTy).Contents (Elt F)) A1
def r_main_cst_24 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x3F800000#32)
def r_main_v228 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_24 A0 A1 A2)
def r_main_cst_25 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40400000#32)
def r_main_v229 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_25 A0 A1 A2)
def r_main_v230 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v229 A0 A1 A2) (r_main_v227 A0 A1 A2)
def r_main_v231 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v230 A0 A1 A2) (r_main_v227 A0 A1 A2)
def r_main_cst_26 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x3F800000#32)
def r_main_v232 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_26 A0 A1 A2)
def r_main_v233 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v232 A0 A1 A2) (r_main_v228 A0 A1 A2)
def r_main_v234 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (subf : (⟨S2000000, .f32⟩ : BufTy).Contents (Elt F) → (⟨S2000000, .f32⟩ : BufTy).Contents (Elt F) → (⟨S2000000, .f32⟩ : BufTy).Contents (Elt F)) (r_main_v231 A0 A1 A2) (r_main_v233 A0 A1 A2)
def r_main_cst_27 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40000000#32)
def r_main_v235 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_27 A0 A1 A2)
def r_main_v236 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (Host.divf : (⟨S2000000, .f32⟩ : BufTy).Contents (Elt F) → (⟨S2000000, .f32⟩ : BufTy).Contents (Elt F) → (⟨S2000000, .f32⟩ : BufTy).Contents (Elt F)) (r_main_v234 A0 A1 A2) (r_main_v235 A0 A1 A2)
def r_main_cst_28 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40A00000#32)
def r_main_v237 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_28 A0 A1 A2)
def r_main_v238 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v237 A0 A1 A2) (r_main_v227 A0 A1 A2)
def r_main_v239 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v238 A0 A1 A2) (r_main_v236 A0 A1 A2)
def r_main_cst_29 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40000000#32)
def r_main_v240 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_29 A0 A1 A2)
def r_main_v241 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v240 A0 A1 A2) (r_main_v227 A0 A1 A2)
def r_main_v242 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (subf : (⟨S2000000, .f32⟩ : BufTy).Contents (Elt F) → (⟨S2000000, .f32⟩ : BufTy).Contents (Elt F) → (⟨S2000000, .f32⟩ : BufTy).Contents (Elt F)) (r_main_v239 A0 A1 A2) (r_main_v241 A0 A1 A2)
def r_main_cst_30 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40400000#32)
def r_main_v243 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_30 A0 A1 A2)
def r_main_v244 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (Host.divf : (⟨S2000000, .f32⟩ : BufTy).Contents (Elt F) → (⟨S2000000, .f32⟩ : BufTy).Contents (Elt F) → (⟨S2000000, .f32⟩ : BufTy).Contents (Elt F)) (r_main_v242 A0 A1 A2) (r_main_v243 A0 A1 A2)
def r_main_cst_31 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40E00000#32)
def r_main_v245 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_31 A0 A1 A2)
def r_main_v246 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v245 A0 A1 A2) (r_main_v227 A0 A1 A2)
def r_main_v247 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v246 A0 A1 A2) (r_main_v244 A0 A1 A2)
def r_main_cst_32 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40400000#32)
def r_main_v248 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_32 A0 A1 A2)
def r_main_v249 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v248 A0 A1 A2) (r_main_v236 A0 A1 A2)
def r_main_v250 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (subf : (⟨S2000000, .f32⟩ : BufTy).Contents (Elt F) → (⟨S2000000, .f32⟩ : BufTy).Contents (Elt F) → (⟨S2000000, .f32⟩ : BufTy).Contents (Elt F)) (r_main_v247 A0 A1 A2) (r_main_v249 A0 A1 A2)
def r_main_cst_33 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40800000#32)
def r_main_v251 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_33 A0 A1 A2)
def r_main_v252 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (Host.divf : (⟨S2000000, .f32⟩ : BufTy).Contents (Elt F) → (⟨S2000000, .f32⟩ : BufTy).Contents (Elt F) → (⟨S2000000, .f32⟩ : BufTy).Contents (Elt F)) (r_main_v250 A0 A1 A2) (r_main_v251 A0 A1 A2)
def r_main_cst_34 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x41100000#32)
def r_main_v253 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_34 A0 A1 A2)
def r_main_v254 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v253 A0 A1 A2) (r_main_v227 A0 A1 A2)
def r_main_v255 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v254 A0 A1 A2) (r_main_v252 A0 A1 A2)
def r_main_cst_35 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40800000#32)
def r_main_v256 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_35 A0 A1 A2)
def r_main_v257 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v256 A0 A1 A2) (r_main_v244 A0 A1 A2)
def r_main_v258 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (subf : (⟨S2000000, .f32⟩ : BufTy).Contents (Elt F) → (⟨S2000000, .f32⟩ : BufTy).Contents (Elt F) → (⟨S2000000, .f32⟩ : BufTy).Contents (Elt F)) (r_main_v255 A0 A1 A2) (r_main_v257 A0 A1 A2)
def r_main_cst_36 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40A00000#32)
def r_main_v259 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_36 A0 A1 A2)
def r_main_v260 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (Host.divf : (⟨S2000000, .f32⟩ : BufTy).Contents (Elt F) → (⟨S2000000, .f32⟩ : BufTy).Contents (Elt F) → (⟨S2000000, .f32⟩ : BufTy).Contents (Elt F)) (r_main_v258 A0 A1 A2) (r_main_v259 A0 A1 A2)
def r_main_cst_37 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x41300000#32)
def r_main_v261 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_37 A0 A1 A2)
def r_main_v262 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v261 A0 A1 A2) (r_main_v227 A0 A1 A2)
def r_main_v263 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v262 A0 A1 A2) (r_main_v260 A0 A1 A2)
def r_main_cst_38 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40A00000#32)
def r_main_v264 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_38 A0 A1 A2)
def r_main_v265 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (r_main_v264 A0 A1 A2) (r_main_v252 A0 A1 A2)
def r_main_v266 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (subf : (⟨S2000000, .f32⟩ : BufTy).Contents (Elt F) → (⟨S2000000, .f32⟩ : BufTy).Contents (Elt F) → (⟨S2000000, .f32⟩ : BufTy).Contents (Elt F)) (r_main_v263 A0 A1 A2) (r_main_v265 A0 A1 A2)
def r_main_cst_39 (A0 : (⟨S500000, .f32⟩ : BufTy).Contents (Elt F)) (A1 : (⟨S2000000, .f32⟩ : BufTy).Contents (Elt F)) (A2 : (⟨S2000000, .i32⟩ : BufTy).Contents (Elt F)) : (⟨S_, .f32⟩ : BufTy).Contents (Elt F) :=
  (constant S_ .f32 0x40C00000#32)
def r_main_v267 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (r_main_cst_39 A0 A1 A2)
def r_main_v268 (A0 : (⟨S500000, .f32⟩ : BufTy).Contents (Elt F)) (A1 : (⟨S2000000, .f32⟩ : BufTy).Contents (Elt F)) (A2 : (⟨S2000000, .i32⟩ : BufTy).Contents (Elt F)) : (⟨S2000000, .f32⟩ : BufTy).Contents (Elt F) :=
  (Host.divf : (⟨S2000000, .f32⟩ : BufTy).Contents (Elt F) → (⟨S2000000, .f32⟩ : BufTy).Contents (Elt F) → (⟨S2000000, .f32⟩ : BufTy).Contents (Elt F)) (r_main_v266 A0 A1 A2) (r_main_v267 A0 A1 A2)
def r_main_v269 (A0 : (⟨S500000, .f32⟩ : BufTy).Contents (Elt F)) (A1 : (⟨S2000000, .f32⟩ : BufTy).Contents (Elt F)) (A2 : (⟨S2000000, .i32⟩ : BufTy).Contents (Elt F)) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (r_main_v228 A0 A1 A2)
def r_main_v270 (A0 : (⟨S500000, .f32⟩ : BufTy).Contents (Elt F)) (A1 : (⟨S2000000, .f32⟩ : BufTy).Contents (Elt F)) (A2 : (⟨S2000000, .i32⟩ : BufTy).Contents (Elt F)) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (r_main_v227 A0 A1 A2)
def r_main_v271 (A0 : (⟨S500000, .f32⟩ : BufTy).Contents (Elt F)) (A1 : (⟨S2000000, .f32⟩ : BufTy).Contents (Elt F)) (A2 : (⟨S2000000, .i32⟩ : BufTy).Contents (Elt F)) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (r_main_v236 A0 A1 A2)
def r_main_v272 (A0 : (⟨S500000, .f32⟩ : BufTy).Contents (Elt F)) (A1 : (⟨S2000000, .f32⟩ : BufTy).Contents (Elt F)) (A2 : (⟨S2000000, .i32⟩ : BufTy).Contents (Elt F)) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (r_main_v244 A0 A1 A2)
def r_main_v273 (A0 : (⟨S500000, .f32⟩ : BufTy).Contents (Elt F)) (A1 : (⟨S2000000, .f32⟩ : BufTy).Contents (Elt F)) (A2 : (⟨S2000000, .i32⟩ : BufTy).Contents (Elt F)) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (r_main_v252 A0 A1 A2)
def r_main_v274 (A0 : (⟨S500000, .f32⟩ : BufTy).Contents (Elt F)) (A1 : (⟨S2000000, .f32⟩ : BufTy).Contents (Elt F)) (A2 : (⟨S2000000, .i32⟩ : BufTy).Contents (Elt F)) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (r_main_v260 A0 A1 A2)
def r_main_v275 (A0 : (⟨S500000, .f32⟩ : BufTy).Contents (Elt F)) (A1 : (⟨S2000000, .f32⟩ : BufTy).Contents (Elt F)) (A2 : (⟨S2000000, .i32⟩ : BufTy).Contents (Elt F)) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (r_main_v268 A0 A1 A2)
def r_main_v276 (A0 : (⟨S500000, .f32⟩ : BufTy).Contents (Elt F)) (A1 : (⟨S2000000, .f32⟩ : BufTy).Contents (Elt F)) (A2 : (⟨S2000000, .i32⟩ : BufTy).Contents (Elt F)) : (⟨S2000000x7, .f32⟩ : BufTy).Contents (Elt F) :=
  concatenate S2000000x7 1 [⟨S2000000x1, (r_main_v269 A0 A1 A2)⟩, ⟨S2000000x1, (r_main_v270 A0 A1 A2)⟩, ⟨S2000000x1, (r_main_v271 A0 A1 A2)⟩, ⟨S2000000x1, (r_main_v272 A0 A1 A2)⟩, ⟨S2000000x1, (r_main_v273 A0 A1 A2)⟩, ⟨S2000000x1, (r_main_v274 A0 A1 A2)⟩, ⟨S2000000x1, (r_main_v275 A0 A1 A2)⟩] concatenates_S2000000x1_S2000000x1_S2000000x1_S2000000x1_S2000000x1_S2000000x1_S2000000x1_S2000000x7_d1
def r_main_v277 (A0 : (⟨S500000, .f32⟩ : BufTy).Contents (Elt F)) (A1 : (⟨S2000000, .f32⟩ : BufTy).Contents (Elt F)) (A2 : (⟨S2000000, .i32⟩ : BufTy).Contents (Elt F)) : (⟨S1x7, .f32⟩ : BufTy).Contents (Elt F) :=
  (broadcastInDim S1x7 ![1] bcast_S7_S1x7_1 : (⟨S7, .f32⟩ : BufTy).Contents (Elt F) → (⟨S1x7, .f32⟩ : BufTy).Contents (Elt F)) (r_main_cst_1 A0 A1 A2)
def r_main_v278 (A0 : (⟨S500000, .f32⟩ : BufTy).Contents (Elt F)) (A1 : (⟨S2000000, .f32⟩ : BufTy).Contents (Elt F)) (A2 : (⟨S2000000, .i32⟩ : BufTy).Contents (Elt F)) : (⟨S2000000x7, .f32⟩ : BufTy).Contents (Elt F) :=
  (broadcastInDim S2000000x7 ![0, 1] bcast_S1x7_S2000000x7_0_1 : (⟨S1x7, .f32⟩ : BufTy).Contents (Elt F) → (⟨S2000000x7, .f32⟩ : BufTy).Contents (Elt F)) (r_main_v277 A0 A1 A2)
def r_main_v279 (A0 : (⟨S500000, .f32⟩ : BufTy).Contents (Elt F)) (A1 : (⟨S2000000, .f32⟩ : BufTy).Contents (Elt F)) (A2 : (⟨S2000000, .i32⟩ : BufTy).Contents (Elt F)) : (⟨S2000000x7, .f32⟩ : BufTy).Contents (Elt F) :=
  (mulf : (⟨S2000000x7, .f32⟩ : BufTy).Contents (Elt F) → (⟨S2000000x7, .f32⟩ : BufTy).Contents (Elt F) → (⟨S2000000x7, .f32⟩ : BufTy).Contents (Elt F)) (r_main_v276 A0 A1 A2) (r_main_v278 A0 A1 A2)
def r_main_c (A0 : (⟨S500000, .f32⟩ : BufTy).Contents (Elt F)) (A1 : (⟨S2000000, .f32⟩ : BufTy).Contents (Elt F)) (A2 : (⟨S2000000, .i32⟩ : BufTy).Contents (Elt F)) : (⟨S_, .i32⟩ : BufTy).Contents (Elt F) :=
  (constantI S_ 32 0#32)
def r_main_v280 (A0 : (⟨S500000, .f32⟩ : BufTy).Contents (Elt F)) (A1 : (⟨S2000000, .f32⟩ : BufTy).Contents (Elt F)) (A2 : (⟨S2000000, .i32⟩ : BufTy).Contents (Elt F)) : (⟨S2000000, .i32⟩ : BufTy).Contents (Elt F) :=
  (broadcastInDim S2000000 ![] bcast_S_S2000000 : (⟨S_, .i32⟩ : BufTy).Contents (Elt F) → (⟨S2000000, .i32⟩ : BufTy).Contents (Elt F)) (r_main_c A0 A1 A2)
def r_main_v281 (A0 : (⟨S500000, .f32⟩ : BufTy).Contents (Elt F)) (A1 : (⟨S2000000, .f32⟩ : BufTy).Contents (Elt F)) (A2 : (⟨S2000000, .i32⟩ : BufTy).Contents (Elt F)) : (⟨S2000000, .i1⟩ : BufTy).Contents (Elt F) :=
  (cmpi .slt : (⟨S2000000, .i32⟩ : BufTy).Contents (Elt F) → (⟨S2000000, .i32⟩ : BufTy).Contents (Elt F) → (⟨S2000000, .i1⟩ : BufTy).Contents (Elt F)) A2 (r_main_v280 A0 A1 A2)
def r_main_c_40 (A0 : (⟨S500000, .f32⟩ : BufTy).Contents (Elt F)) (A1 : (⟨S2000000, .f32⟩ : BufTy).Contents (Elt F)) (A2 : (⟨S2000000, .i32⟩ : BufTy).Contents (Elt F)) : (⟨S_, .i32⟩ : BufTy).Contents (Elt F) :=
  (constantI S_ 32 500000#32)
def r_main_v282 (A0 : (⟨S500000, .f32⟩ : BufTy).Contents (Elt F)) (A1 : (⟨S2000000, .f32⟩ : BufTy).Contents (Elt F)) (A2 : (⟨S2000000, .i32⟩ : BufTy).Contents (Elt F)) : (⟨S2000000, .i32⟩ : BufTy).Contents (Elt F) :=
  (broadcastInDim S2000000 ![] bcast_S_S2000000 : (⟨S_, .i32⟩ : BufTy).Contents (Elt F) → (⟨S2000000, .i32⟩ : BufTy).Contents (Elt F)) (r_main_c_40 A0 A1 A2)
def r_main_v283 (A0 : (⟨S500000, .f32⟩ : BufTy).Contents (Elt F)) (A1 : (⟨S2000000, .f32⟩ : BufTy).Contents (Elt F)) (A2 : (⟨S2000000, .i32⟩ : BufTy).Contents (Elt F)) : (⟨S2000000, .i32⟩ : BufTy).Contents (Elt F) :=
  (addi : (⟨S2000000, .i32⟩ : BufTy).Contents (Elt F) → (⟨S2000000, .i32⟩ : BufTy).Contents (Elt F) → (⟨S2000000, .i32⟩ : BufTy).Contents (Elt F)) A2 (r_main_v282 A0 A1 A2)
def r_main_v284 (A0 : (⟨S500000, .f32⟩ : BufTy).Contents (Elt F)) (A1 : (⟨S2000000, .f32⟩ : BufTy).Contents (Elt F)) (A2 : (⟨S2000000, .i32⟩ : BufTy).Contents (Elt F)) : (⟨S2000000, .i32⟩ : BufTy).Contents (Elt F) :=
  (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) (r_main_v281 A0 A1 A2) (r_main_v283 A0 A1 A2) A2
def r_main_v285 (A0 : (⟨S500000, .f32⟩ : BufTy).Contents (Elt F)) (A1 : (⟨S2000000, .f32⟩ : BufTy).Contents (Elt F)) (A2 : (⟨S2000000, .i32⟩ : BufTy).Contents (Elt F)) : (⟨S2000000x1, .i32⟩ : BufTy).Contents (Elt F) :=
  (broadcastInDim S2000000x1 ![0] bcast_S2000000_S2000000x1_0 : (⟨S2000000, .i32⟩ : BufTy).Contents (Elt F) → (⟨S2000000x1, .i32⟩ : BufTy).Contents (Elt F)) (r_main_v284 A0 A1 A2)
def r_main_v286 (A0 : (⟨S500000, .f32⟩ : BufTy).Contents (Elt F)) (A1 : (⟨S2000000, .f32⟩ : BufTy).Contents (Elt F)) (A2 : (⟨S2000000, .i32⟩ : BufTy).Contents (Elt F)) : (⟨S2000000x7x6, .f32⟩ : BufTy).Contents (Elt F) :=
  ((fun x i => Host.gather gather_S500000x7x6_S2000000x1_S2000000x7x6_12_0_n_n_0_1_176 x i) : (⟨S500000x7x6, .f32⟩ : BufTy).Contents (Elt F) → (⟨S2000000x1, .i32⟩ : BufTy).Contents (Elt F) → (⟨S2000000x7x6, .f32⟩ : BufTy).Contents (Elt F)) (r_main_v226 A0 A1 A2) (r_main_v285 A0 A1 A2)
def r_main_v287 (A0 : (⟨S500000, .f32⟩ : BufTy).Contents (Elt F)) (A1 : (⟨S2000000, .f32⟩ : BufTy).Contents (Elt F)) (A2 : (⟨S2000000, .i32⟩ : BufTy).Contents (Elt F)) : (⟨S2000000x7x1, .f32⟩ : BufTy).Contents (Elt F) :=
  (broadcastInDim S2000000x7x1 ![0, 1] bcast_S2000000x7_S2000000x7x1_0_1 : (⟨S2000000x7, .f32⟩ : BufTy).Contents (Elt F) → (⟨S2000000x7x1, .f32⟩ : BufTy).Contents (Elt F)) (r_main_v279 A0 A1 A2)
def r_main_v288 (A0 : (⟨S500000, .f32⟩ : BufTy).Contents (Elt F)) (A1 : (⟨S2000000, .f32⟩ : BufTy).Contents (Elt F)) (A2 : (⟨S2000000, .i32⟩ : BufTy).Contents (Elt F)) : (⟨S2000000x7x6, .f32⟩ : BufTy).Contents (Elt F) :=
  (broadcastInDim S2000000x7x6 ![0, 1, 2] bcast_S2000000x7x1_S2000000x7x6_0_1_2 : (⟨S2000000x7x1, .f32⟩ : BufTy).Contents (Elt F) → (⟨S2000000x7x6, .f32⟩ : BufTy).Contents (Elt F)) (r_main_v287 A0 A1 A2)
def r_main_v289 (A0 : (⟨S500000, .f32⟩ : BufTy).Contents (Elt F)) (A1 : (⟨S2000000, .f32⟩ : BufTy).Contents (Elt F)) (A2 : (⟨S2000000, .i32⟩ : BufTy).Contents (Elt F)) : (⟨S2000000x7x6, .f32⟩ : BufTy).Contents (Elt F) :=
  (mulf : (⟨S2000000x7x6, .f32⟩ : BufTy).Contents (Elt F) → (⟨S2000000x7x6, .f32⟩ : BufTy).Contents (Elt F) → (⟨S2000000x7x6, .f32⟩ : BufTy).Contents (Elt F)) (r_main_v286 A0 A1 A2) (r_main_v288 A0 A1 A2)
def r_main_v290 (A0 : (⟨S500000, .f32⟩ : BufTy).Contents (Elt F)) (A1 : (⟨S2000000, .f32⟩ : BufTy).Contents (Elt F)) (A2 : (⟨S2000000, .i32⟩ : BufTy).Contents (Elt F)) : (⟨S2000000x42, .f32⟩ : BufTy).Contents (Elt F) :=
  shapeCast S2000000x42 (r_main_v289 A0 A1 A2) shapeCasts_S2000000x7x6_S2000000x42

end Cert.ReferenceIdeal.RefRun

end
-- ==== Proof.RefRun.lean ====
/-
  The reference program's run, read back.

  @main is a straight line of host operations (the list `ops`); run from any memory, every weakly fair execution
  terminates with each buffer at the fold of the operations' results over the launch contents. Read at the result
  buffer, that fold is the composed term `r_main_v290` of the three argument arrays; read at an argument, it is the
  argument as launched. The two seven-piece stacks are read with each piece at its own buffer.
-/
import proofs.«131485_j49366354100415_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the six windows' lists one after the other. -/
abbrev ops : List (HloOp τ sig (Elt F)) := ops0 ++ (ops1 ++ (ops2 ++ (ops3 ++ (ops4 ++ ops5))))

set_option maxRecDepth 16384 in
set_option maxHeartbeats 4000000 in
/-- Window 0 of @main is the line of its own operations. -/
private theorem part0_eq (c : Dev nD) : main_part0 (F := F) c = seq ops0 := rfl

set_option maxRecDepth 16384 in
set_option maxHeartbeats 4000000 in
/-- Window 1 of @main is the line of its own operations. -/
private theorem part1_eq (c : Dev nD) : main_part1 (F := F) c = seq ops1 := rfl

set_option maxRecDepth 16384 in
set_option maxHeartbeats 4000000 in
/-- Window 2 of @main is the line of its own operations. -/
private theorem part2_eq (c : Dev nD) : main_part2 (F := F) c = seq ops2 := rfl

set_option maxRecDepth 16384 in
set_option maxHeartbeats 4000000 in
/-- Window 3 of @main is the line of its own operations. -/
private theorem part3_eq (c : Dev nD) : main_part3 (F := F) c = seq ops3 := rfl

set_option maxRecDepth 16384 in
set_option maxHeartbeats 4000000 in
/-- Window 4 of @main is the line of its own operations (the module-local select unfolded at its call). -/
private theorem part4_eq (c : Dev nD) : main_part4 (F := F) c = seq ops4 := rfl

set_option maxRecDepth 16384 in
set_option maxHeartbeats 4000000 in
/-- Window 5 of @main is the line of its own operations. -/
private theorem part5_eq (c : Dev nD) : main_part5 (F := F) c = seq ops5 := rfl

/-- @main runs its six windows in order; each is the line of its own operations, and lines run one after the
    other are their concatenation run as one (`seq_append`). -/
theorem main_eq (c : Dev nD) : main (F := F) c = seq ops := by
  have e : (seq (ops (F := F)) : Prog (TpuEff nD τ sig (Elt F) (Pipeline.Sig Λ₀ (Fin 0) fun p => (pcfgs (F := F) p).Adm) .tc) PUnit)
      = (seq ops0 >>= fun _ => seq ops1 >>= fun _ => seq ops2 >>= fun _ => seq ops3 >>= fun _ => seq ops4 >>= fun _ => seq ops5) := by
    unfold ops
    rw [seq_append, seq_append, seq_append, seq_append, seq_append]
  rw [e, ← part0_eq c, ← part1_eq c, ← part2_eq c, ← part3_eq c, ← part4_eq c, ← part5_eq c]
  rfl
theorem scopedRefs_eq : (Finset.univ.filter fun b : Ref sig .tc => b.isScoped) = ∅ := by decide
theorem scopedSems_eq : (Finset.univ.filter fun sm : SemLoc sig => sm.isScoped .tc) = ∅ := by decide

/-! ## The side conditions of the run, over the concatenation -/

/-- Every operation of the line touches TensorCore references only: window by window. -/
private theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    rcases List.mem_append.mp h with h | h
    · exact List.forall_iff_forall_mem.mp ops2_sub op h
    rcases List.mem_append.mp h with h | h
    · exact List.forall_iff_forall_mem.mp ops3_sub op h
    rcases List.mem_append.mp h with h | h
    · exact List.forall_iff_forall_mem.mp ops4_sub op h
    · exact List.forall_iff_forall_mem.mp ops5_sub op h

set_option maxRecDepth 16384 in
set_option maxHeartbeats 4000000 in
private theorem fresh0 : ∀ op ∈ (ops0 : List (HloOp τ sig (Elt F))), op.fresh = ∅ := by
  intro _ h; (repeat (cases h with | head => rfl | tail _ h => ?_)); exact nomatch h

set_option maxRecDepth 16384 in
set_option maxHeartbeats 4000000 in
private theorem fresh1 : ∀ op ∈ (ops1 : List (HloOp τ sig (Elt F))), op.fresh = ∅ := by
  intro _ h; (repeat (cases h with | head => rfl | tail _ h => ?_)); exact nomatch h

set_option maxRecDepth 16384 in
set_option maxHeartbeats 4000000 in
private theorem fresh2 : ∀ op ∈ (ops2 : List (HloOp τ sig (Elt F))), op.fresh = ∅ := by
  intro _ h; (repeat (cases h with | head => rfl | tail _ h => ?_)); exact nomatch h

set_option maxRecDepth 16384 in
set_option maxHeartbeats 4000000 in
private theorem fresh3 : ∀ op ∈ (ops3 : List (HloOp τ sig (Elt F))), op.fresh = ∅ := by
  intro _ h; (repeat (cases h with | head => rfl | tail _ h => ?_)); exact nomatch h

set_option maxRecDepth 16384 in
set_option maxHeartbeats 4000000 in
private theorem fresh4 : ∀ op ∈ (ops4 : List (HloOp τ sig (Elt F))), op.fresh = ∅ := by
  intro _ h; (repeat (cases h with | head => rfl | tail _ h => ?_)); exact nomatch h

set_option maxRecDepth 16384 in
set_option maxHeartbeats 4000000 in
private theorem fresh5 : ∀ op ∈ (ops5 : List (HloOp τ sig (Elt F))), op.fresh = ∅ := by
  intro _ h; (repeat (cases h with | head => rfl | tail _ h => ?_)); exact nomatch h

/-- Every operation of the line determines its results (none leaves a buffer at contents not chosen): window by window. -/
private theorem ops_fresh : ∀ op ∈ (ops : List (HloOp τ sig (Elt F))), op.fresh = ∅ := fun op h => by
  rcases List.mem_append.mp h with h | h
  · exact fresh0 op h
  rcases List.mem_append.mp h with h | h
  · exact fresh1 op h
  rcases List.mem_append.mp h with h | h
  · exact fresh2 op h
  rcases List.mem_append.mp h with h | h
  · exact fresh3 op h
  rcases List.mem_append.mp h with h | h
  · exact fresh4 op h
  · exact fresh5 op h

/-! ## The fold over a concatenation -/

/-- The contents after two lines run one after the other: the second line's fold over the first's. -/
private theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The contents after @main: six nested folds, one per window. -/
private theorem after_ops (V : Valuation τ sig (Elt F)) :
    after (ops (F := F)) V = after ops5 (after ops4 (after ops3 (after ops2 (after ops1 (after ops0 V))))) := by
  unfold ops
  rw [after_append, after_append, after_append, after_append, after_append]

/-! ## A stack of seven pieces, each read at its own buffer -/

/-- The result of an operation over a literal family of seven references, with each operand's contents at its own
    reference (under the binder of the general statement the reference `![x0, …, x6] k` is no literal, and no
    operation's result can be read at it). -/
private theorem nary7_result {x0 x1 x2 x3 x4 x5 x6 y : Ref sig .tc}
    (f : ((k : Fin 7) → ((![x0, x1, x2, x3, x4, x5, x6] : Fin 7 → Ref sig .tc) k).ty.Contents (Elt F)) → y.ty.Contents (Elt F)) (hxs hy)
    (V : Valuation τ sig (Elt F)) :
    (nary (τ := τ) ![x0, x1, x2, x3, x4, x5, x6] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (fun i => i.elim0)))))))) := by
  rw [nary_result]; congr 1; funext k; fin_cases k <;> rfl
private theorem nary7_result' {x0 x1 x2 x3 x4 x5 x6 y : Ref sig .tc}
    (f : ((k : Fin 7) → ((![x0, x1, x2, x3, x4, x5, x6] : Fin 7 → Ref sig .tc) k).ty.Contents (Elt F)) → y.ty.Contents (Elt F)) (hxs hy)
    (V : Valuation τ sig (Elt F)) :
    (nary (τ := τ) ![x0, x1, x2, x3, x4, x5, x6] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (fun i => i.elim0)))))))) :=
  nary7_result f hxs hy V

/-- Each operation's result at its own result buffer is its function's value, at any other reference what was there
    (the references told apart by computation): one pass over the folds. -/
local macro "read_results" : tactic =>
  `(tactic| (simp (disch := decide) only [after_cons, after_nil,
      nullary_result', unary_result', binary_result', ternary_result', reshape_result', nary7_result',
      nullary_result_ne', unary_result_ne', binary_result_ne', ternary_result_ne', reshape_result_ne', nary_result_ne']))

/-! ## The fold read at the result and at the arguments -/

set_option maxRecDepth 65536 in
set_option maxHeartbeats 400000000 in
/-- The result buffer after @main: each operation's function applied to its operands' contents, down to the
    arguments' — the composed term, every `r_` definition unfolding to its operation's function of its operands' terms. -/
private theorem read_result (V : Valuation τ sig (Elt F)) :
    after (ops (F := F)) V (Proc.devRef .tc main_v290)
      = r_main_v290 (V (Proc.devRef .tc main_arg0)) (V (Proc.devRef .tc main_arg1)) (V (Proc.devRef .tc main_arg2)) := by
  rw [after_ops]
  read_results
  rfl

set_option maxRecDepth 65536 in
set_option maxHeartbeats 400000000 in
/-- No operation writes an argument's buffer. -/
private theorem read_arg0 (V : Valuation τ sig (Elt F)) :
    after (ops (F := F)) V (Proc.devRef .tc main_arg0) = V (Proc.devRef .tc main_arg0) := by
  rw [after_ops]
  read_results
set_option maxRecDepth 65536 in
set_option maxHeartbeats 400000000 in
private theorem read_arg1 (V : Valuation τ sig (Elt F)) :
    after (ops (F := F)) V (Proc.devRef .tc main_arg1) = V (Proc.devRef .tc main_arg1) := by
  rw [after_ops]
  read_results
set_option maxRecDepth 65536 in
set_option maxHeartbeats 400000000 in
private theorem read_arg2 (V : Valuation τ sig (Elt F)) :
    after (ops (F := F)) V (Proc.devRef .tc main_arg2) = V (Proc.devRef .tc main_arg2) := by
  rw [after_ops]
  read_results

/-- On every device, for any float values, from any memory with zero counters: every weakly fair execution of @main
    terminates with the result at the operations' composed term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v290)
        = r_main_v290 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run defs _ _).mono (fun _ h c => ⟨(h c main_v290).trans (read_result _), (h c main_arg0).trans (read_arg0 _),
      (h c main_arg1).trans (read_arg1 _), (h c main_arg2).trans (read_arg2 _)⟩)
    (run_seq scopedRefs_eq scopedSems_eq defs main (fun _ => ops) main_eq (fun _ => ops_sub) m ρ (fun _ => ops_fresh))

end Cert.ReferenceIdeal.RefRun

end
-- ==== Proof.RefRbf.lean ====
/-
  The reference's radial factors, order by order.

  For order l the reference forms, on an [E, 6] array, z = Z(l, ·) · x with x = d / 5, the spherical Bessel function
  j_l(z) by the upward recurrence, and N(l, ·) · j_l(z). Entry (e, k) of that array is `rbfR l k (d e)`: the table
  rows are spread over the edges and the scaled distance over the six radial indices, and every arithmetic step is
  entrywise.
-/
import proofs.«131485_j49366354100415_1_alg».proof.Proof.RefOps
import proofs.«131485_j49366354100415_1_alg».proof.Proof.Spec
import proofs.«131485_j49366354100415_1_alg».proof.Proof.LibLayout

noncomputable section

namespace Cert.ReferenceIdeal.RefRun

open Cert.ReferenceIdeal Cert.ReferenceIdeal.Gen Idealize.ShloMosaic Idealize.ShloMosaic.ValueIdx Cert.Basis

/-! ## The tables' words -/

/-- Position (l, k) of the 7 × 6 table, row-major, is 6 l + k. -/
private theorem rowMajor_ck (l : Fin 7) (k : Fin 6) : S7x6.rowMajor (ix2 l k) = ck l k := by
  apply Fin.ext
  rw [Shape.rowMajor_val_two]
  show l.val * 6 + k.val = 6 * l.val + k.val
  omega

/-- The reference's table of normalisers is the specification's, word for word … -/
private theorem lit0_eq (c : Fin 42) : lit0 c = Nt c := by fin_cases c <;> rfl
/-- … and so is its table of roots. -/
private theorem lit1_eq (c : Fin 42) : lit1 c = Zt c := by fin_cases c <;> rfl

/-! ## The three kinds of leaves, at entry (e, k) -/

/-- The scaled distance: entry e is d(e) / 5. -/
theorem x_apply (A0 : (⟨S500000, .f32⟩ : BufTy).Contents (Elt Ideal)) (A1 : (⟨S2000000, .f32⟩ : BufTy).Contents (Elt Ideal)) (A2 : (⟨S2000000, .i32⟩ : BufTy).Contents (Elt Ideal)) (e : Fin 500000) :
    r_main_v1 A0 A1 A2 (ix1 e) = xR (A0 (ix1 e)) := rfl

/-- Row l of the normalisers, spread over the edges: entry (e, k) is N(l, k). -/
private theorem nRow_apply (A0 : (⟨S500000, .f32⟩ : BufTy).Contents (Elt Ideal)) (A1 : (⟨S2000000, .f32⟩ : BufTy).Contents (Elt Ideal)) (A2 : (⟨S2000000, .i32⟩ : BufTy).Contents (Elt Ideal)) (l : Fin 7) (hs : S7x6.Slices ![l.val, 0] S1x6) (e : Fin 500000) (k : Fin 6) :
    broadcastInDim S500000x6 ![0, 1] bcast_S1x6_S500000x6_0_1 (broadcastInDim S1x6 ![1] bcast_S6_S1x6_1
      (shapeCast S6 (extractStridedSlice S1x6 ![l.val, 0] (r_main_cst A0 A1 A2) hs) shapeCasts_S1x6_S6)) (ix2 e k)
      = w (Nt (ck l k)) := by
  refine (tableRow_apply l (r_main_cst A0 A1 A2) hs _ _ _ e k).trans ?_
  show w (lit0 (S7x6.rowMajor (ix2 l k))) = _
  rw [rowMajor_ck, lit0_eq]

/-- Row l of the roots, spread over the edges: entry (e, k) is Z(l, k). -/
private theorem zRow_apply (A0 : (⟨S500000, .f32⟩ : BufTy).Contents (Elt Ideal)) (A1 : (⟨S2000000, .f32⟩ : BufTy).Contents (Elt Ideal)) (A2 : (⟨S2000000, .i32⟩ : BufTy).Contents (Elt Ideal)) (l : Fin 7) (hs : S7x6.Slices ![l.val, 0] S1x6) (e : Fin 500000) (k : Fin 6) :
    broadcastInDim S500000x6 ![0, 1] bcast_S1x6_S500000x6_0_1 (broadcastInDim S1x6 ![1] bcast_S6_S1x6_1
      (shapeCast S6 (extractStridedSlice S1x6 ![l.val, 0] (r_main_cst_0 A0 A1 A2) hs) shapeCasts_S1x6_S6)) (ix2 e k)
      = w (Zt (ck l k)) := by
  refine (tableRow_apply l (r_main_cst_0 A0 A1 A2) hs _ _ _ e k).trans ?_
  show w (lit1 (S7x6.rowMajor (ix2 l k))) = _
  rw [rowMajor_ck, lit1_eq]

/-- The scaled distance spread over the six radial indices: entry (e, k) is x(e). -/
private theorem xCol_apply (A0 : (⟨S500000, .f32⟩ : BufTy).Contents (Elt Ideal)) (A1 : (⟨S2000000, .f32⟩ : BufTy).Contents (Elt Ideal)) (A2 : (⟨S2000000, .i32⟩ : BufTy).Contents (Elt Ideal)) (e : Fin 500000) (k : Fin 6) :
    broadcastInDim S500000x6 ![0, 1] bcast_S500000x1_S500000x6_0_1
      (broadcastInDim S500000x1 ![0] bcast_S500000_S500000x1_0 (r_main_v1 A0 A1 A2)) (ix2 e k) = xR (A0 (ix1 e)) :=
  (colSpread_apply (r_main_v1 A0 A1 A2) _ _ e k).trans (x_apply A0 A1 A2 e)

/-! ## The entrywise steps, at one index

Every arithmetic operation of the reference acts entry by entry, and at the extended reals each is the function of the
same name; so an array built by one step from arrays whose entries at i are known has the step's value at i. -/

/-- A product of two arrays. -/
private theorem mul_at (P Q : FVec Ideal S500000x6 .f32) (i : S500000x6.Idx) (p q : EReal) (hp : P i = p) (hq : Q i = q) :
    mulf P Q i = p * q := by
  subst hp hq; rfl

/-- j_0 = sin z / z. -/
private theorem j0_at (Z : FVec Ideal S500000x6 .f32) (i : S500000x6.Idx) (z : EReal) (hz : Z i = z) :
    Host.divf (Host.sin Z) Z i = sj0 z := by
  subst hz; rfl

/-- j_1 = sin z / z² − cos z / z. -/
private theorem j1_at (Z : FVec Ideal S500000x6 .f32) (i : S500000x6.Idx) (z : EReal) (hz : Z i = z) :
    subf (Host.divf (Host.sin Z) (mulf Z Z)) (Host.divf (Host.cos Z) Z) i = sj1 z := by
  subst hz; rfl

/-- One step of the recurrence: c / z · j_m − j_{m−1}, the odd number c a scalar constant spread everywhere. -/
private theorem step_at (cw : BitVec 32) (Z J Jm : FVec Ideal S500000x6 .f32) (i : S500000x6.Idx) (z jc jm1 : EReal)
    (hz : Z i = z) (hj : J i = jc) (hm : Jm i = jm1) :
    subf (mulf (Host.divf (broadcastInDim S500000x6 ![] bcast_S_S500000x6 (constant S_ .f32 cw)) Z) J) Jm i
      = sjStep cw z jc jm1 := by
  subst hz hj hm; rfl

/-- Order 0: entry (e, k) of N(0, ·) · j_0(Z(0, ·) · x). -/
theorem rbf0_apply (A0 : (⟨S500000, .f32⟩ : BufTy).Contents (Elt Ideal)) (A1 : (⟨S2000000, .f32⟩ : BufTy).Contents (Elt Ideal)) (A2 : (⟨S2000000, .i32⟩ : BufTy).Contents (Elt Ideal)) (e : Fin 500000) (k : Fin 6) :
    r_main_v15 A0 A1 A2 (ix2 e k) = rbfR 0 k (A0 (ix1 e)) := by
  -- z = Z(0, k) · x(e)
  have hz : r_main_v10 A0 A1 A2 (ix2 e k) = w (Zt (ck 0 k)) * xR (A0 (ix1 e)) :=
    mul_at _ _ _ _ _ (zRow_apply A0 A1 A2 0 slices_S7x6_S1x6_0_0 e k) (xCol_apply A0 A1 A2 e k)
  have h0 : r_main_v12 A0 A1 A2 (ix2 e k) = sj0 _ := j0_at _ _ _ hz
  exact mul_at _ _ _ _ _ (nRow_apply A0 A1 A2 0 slices_S7x6_S1x6_0_0 e k) h0

/-- Order 1: entry (e, k) of N(1, ·) · j_1(Z(1, ·) · x). -/
theorem rbf1_apply (A0 : (⟨S500000, .f32⟩ : BufTy).Contents (Elt Ideal)) (A1 : (⟨S2000000, .f32⟩ : BufTy).Contents (Elt Ideal)) (A2 : (⟨S2000000, .i32⟩ : BufTy).Contents (Elt Ideal)) (e : Fin 500000) (k : Fin 6) :
    r_main_v35 A0 A1 A2 (ix2 e k) = rbfR 1 k (A0 (ix1 e)) := by
  have hz : r_main_v24 A0 A1 A2 (ix2 e k) = w (Zt (ck 1 k)) * xR (A0 (ix1 e)) :=
    mul_at _ _ _ _ _ (zRow_apply A0 A1 A2 1 slices_S7x6_S1x6_1_0 e k) (xCol_apply A0 A1 A2 e k)
  have h1 : r_main_v32 A0 A1 A2 (ix2 e k) = sj1 _ := j1_at _ _ _ hz
  exact mul_at _ _ _ _ _ (nRow_apply A0 A1 A2 1 slices_S7x6_S1x6_1_0 e k) h1

/-- Order 2: entry (e, k) of N(2, ·) · j_2(Z(2, ·) · x). -/
theorem rbf2_apply (A0 : (⟨S500000, .f32⟩ : BufTy).Contents (Elt Ideal)) (A1 : (⟨S2000000, .f32⟩ : BufTy).Contents (Elt Ideal)) (A2 : (⟨S2000000, .i32⟩ : BufTy).Contents (Elt Ideal)) (e : Fin 500000) (k : Fin 6) :
    r_main_v59 A0 A1 A2 (ix2 e k) = rbfR 2 k (A0 (ix1 e)) := by
  have hz : r_main_v44 A0 A1 A2 (ix2 e k) = w (Zt (ck 2 k)) * xR (A0 (ix1 e)) :=
    mul_at _ _ _ _ _ (zRow_apply A0 A1 A2 2 slices_S7x6_S1x6_2_0 e k) (xCol_apply A0 A1 A2 e k)
  have h0 : r_main_v46 A0 A1 A2 (ix2 e k) = sj0 _ := j0_at _ _ _ hz
  have h1 : r_main_v52 A0 A1 A2 (ix2 e k) = sj1 _ := j1_at _ _ _ hz
  have h2 : r_main_v56 A0 A1 A2 (ix2 e k) = sj2 _ := step_at 0x40400000#32 _ _ _ _ _ _ _ hz h1 h0
  exact mul_at _ _ _ _ _ (nRow_apply A0 A1 A2 2 slices_S7x6_S1x6_2_0 e k) h2

/-- Order 3: entry (e, k) of N(3, ·) · j_3(Z(3, ·) · x). -/
theorem rbf3_apply (A0 : (⟨S500000, .f32⟩ : BufTy).Contents (Elt Ideal)) (A1 : (⟨S2000000, .f32⟩ : BufTy).Contents (Elt Ideal)) (A2 : (⟨S2000000, .i32⟩ : BufTy).Contents (Elt Ideal)) (e : Fin 500000) (k : Fin 6) :
    r_main_v87 A0 A1 A2 (ix2 e k) = rbfR 3 k (A0 (ix1 e)) := by
  have hz : r_main_v68 A0 A1 A2 (ix2 e k) = w (Zt (ck 3 k)) * xR (A0 (ix1 e)) :=
    mul_at _ _ _ _ _ (zRow_apply A0 A1 A2 3 slices_S7x6_S1x6_3_0 e k) (xCol_apply A0 A1 A2 e k)
  have h0 : r_main_v70 A0 A1 A2 (ix2 e k) = sj0 _ := j0_at _ _ _ hz
  have h1 : r_main_v76 A0 A1 A2 (ix2 e k) = sj1 _ := j1_at _ _ _ hz
  have h2 : r_main_v80 A0 A1 A2 (ix2 e k) = sj2 _ := step_at 0x40400000#32 _ _ _ _ _ _ _ hz h1 h0
  have h3 : r_main_v84 A0 A1 A2 (ix2 e k) = sj3 _ := step_at 0x40A00000#32 _ _ _ _ _ _ _ hz h2 h1
  exact mul_at _ _ _ _ _ (nRow_apply A0 A1 A2 3 slices_S7x6_S1x6_3_0 e k) h3

/-- Order 4: entry (e, k) of N(4, ·) · j_4(Z(4, ·) · x). -/
theorem rbf4_apply (A0 : (⟨S500000, .f32⟩ : BufTy).Contents (Elt Ideal)) (A1 : (⟨S2000000, .f32⟩ : BufTy).Contents (Elt Ideal)) (A2 : (⟨S2000000, .i32⟩ : BufTy).Contents (Elt Ideal)) (e : Fin 500000) (k : Fin 6) :
    r_main_v119 A0 A1 A2 (ix2 e k) = rbfR 4 k (A0 (ix1 e)) := by
  have hz : r_main_v96 A0 A1 A2 (ix2 e k) = w (Zt (ck 4 k)) * xR (A0 (ix1 e)) :=
    mul_at _ _ _ _ _ (zRow_apply A0 A1 A2 4 slices_S7x6_S1x6_4_0 e k) (xCol_apply A0 A1 A2 e k)
  have h0 : r_main_v98 A0 A1 A2 (ix2 e k) = sj0 _ := j0_at _ _ _ hz
  have h1 : r_main_v104 A0 A1 A2 (ix2 e k) = sj1 _ := j1_at _ _ _ hz
  have h2 : r_main_v108 A0 A1 A2 (ix2 e k) = sj2 _ := step_at 0x40400000#32 _ _ _ _ _ _ _ hz h1 h0
  have h3 : r_main_v112 A0 A1 A2 (ix2 e k) = sj3 _ := step_at 0x40A00000#32 _ _ _ _ _ _ _ hz h2 h1
  have h4 : r_main_v116 A0 A1 A2 (ix2 e k) = sj4 _ := step_at 0x40E00000#32 _ _ _ _ _ _ _ hz h3 h2
  exact mul_at _ _ _ _ _ (nRow_apply A0 A1 A2 4 slices_S7x6_S1x6_4_0 e k) h4

/-- Order 5: entry (e, k) of N(5, ·) · j_5(Z(5, ·) · x). -/
theorem rbf5_apply (A0 : (⟨S500000, .f32⟩ : BufTy).Contents (Elt Ideal)) (A1 : (⟨S2000000, .f32⟩ : BufTy).Contents (Elt Ideal)) (A2 : (⟨S2000000, .i32⟩ : BufTy).Contents (Elt Ideal)) (e : Fin 500000) (k : Fin 6) :
    r_main_v155 A0 A1 A2 (ix2 e k) = rbfR 5 k (A0 (ix1 e)) := by
  have hz : r_main_v128 A0 A1 A2 (ix2 e k) = w (Zt (ck 5 k)) * xR (A0 (ix1 e)) :=
    mul_at _ _ _ _ _ (zRow_apply A0 A1 A2 5 slices_S7x6_S1x6_5_0 e k) (xCol_apply A0 A1 A2 e k)
  have h0 : r_main_v130 A0 A1 A2 (ix2 e k) = sj0 _ := j0_at _ _ _ hz
  have h1 : r_main_v136 A0 A1 A2 (ix2 e k) = sj1 _ := j1_at _ _ _ hz
  have h2 : r_main_v140 A0 A1 A2 (ix2 e k) = sj2 _ := step_at 0x40400000#32 _ _ _ _ _ _ _ hz h1 h0
  have h3 : r_main_v144 A0 A1 A2 (ix2 e k) = sj3 _ := step_at 0x40A00000#32 _ _ _ _ _ _ _ hz h2 h1
  have h4 : r_main_v148 A0 A1 A2 (ix2 e k) = sj4 _ := step_at 0x40E00000#32 _ _ _ _ _ _ _ hz h3 h2
  have h5 : r_main_v152 A0 A1 A2 (ix2 e k) = sj5 _ := step_at 0x41100000#32 _ _ _ _ _ _ _ hz h4 h3
  exact mul_at _ _ _ _ _ (nRow_apply A0 A1 A2 5 slices_S7x6_S1x6_5_0 e k) h5

/-- Order 6: entry (e, k) of N(6, ·) · j_6(Z(6, ·) · x). -/
theorem rbf6_apply (A0 : (⟨S500000, .f32⟩ : BufTy).Contents (Elt Ideal)) (A1 : (⟨S2000000, .f32⟩ : BufTy).Contents (Elt Ideal)) (A2 : (⟨S2000000, .i32⟩ : BufTy).Contents (Elt Ideal)) (e : Fin 500000) (k : Fin 6) :
    r_main_v195 A0 A1 A2 (ix2 e k) = rbfR 6 k (A0 (ix1 e)) := by
  have hz : r_main_v164 A0 A1 A2 (ix2 e k) = w (Zt (ck 6 k)) * xR (A0 (ix1 e)) :=
    mul_at _ _ _ _ _ (zRow_apply A0 A1 A2 6 slices_S7x6_S1x6_6_0 e k) (xCol_apply A0 A1 A2 e k)
  have h0 : r_main_v166 A0 A1 A2 (ix2 e k) = sj0 _ := j0_at _ _ _ hz
  have h1 : r_main_v172 A0 A1 A2 (ix2 e k) = sj1 _ := j1_at _ _ _ hz
  have h2 : r_main_v176 A0 A1 A2 (ix2 e k) = sj2 _ := step_at 0x40400000#32 _ _ _ _ _ _ _ hz h1 h0
  have h3 : r_main_v180 A0 A1 A2 (ix2 e k) = sj3 _ := step_at 0x40A00000#32 _ _ _ _ _ _ _ hz h2 h1
  have h4 : r_main_v184 A0 A1 A2 (ix2 e k) = sj4 _ := step_at 0x40E00000#32 _ _ _ _ _ _ _ hz h3 h2
  have h5 : r_main_v188 A0 A1 A2 (ix2 e k) = sj5 _ := step_at 0x41100000#32 _ _ _ _ _ _ _ hz h4 h3
  have h6 : r_main_v192 A0 A1 A2 (ix2 e k) = sj6 _ := step_at 0x41300000#32 _ _ _ _ _ _ _ hz h5 h4
  exact mul_at _ _ _ _ _ (nRow_apply A0 A1 A2 6 slices_S7x6_S1x6_6_0 e k) h6

end Cert.ReferenceIdeal.RefRun

end
-- ==== Proof.RefRad.lean ====
/-
  The reference's radial table.

  The seven radial arrays (one per order, [E, 6] each) are given a unit middle axis, stacked into an [E, 7, 6] array and
  multiplied by the envelope of the scaled distance spread over the two trailing axes. Entry (e, l, k) is
  env(x_e) · N(l,k) · j_l(Z(l,k) · x_e).
-/
import proofs.«131485_j49366354100415_1_alg».proof.Proof.RefRbf

noncomputable section

namespace Cert.ReferenceIdeal.RefRun

open Cert.ReferenceIdeal Cert.ReferenceIdeal.Gen Idealize.ShloMosaic Idealize.ShloMosaic.ValueIdx Cert.Basis

/-- The envelope array: entry e is env(d_e / 5). -/
theorem env_apply (A0 : (⟨S500000, .f32⟩ : BufTy).Contents (Elt Ideal)) (A1 : (⟨S2000000, .f32⟩ : BufTy).Contents (Elt Ideal)) (A2 : (⟨S2000000, .i32⟩ : BufTy).Contents (Elt Ideal)) (e : Fin 500000) :
    r_main_v223 A0 A1 A2 (ix1 e) = envR (xR (A0 (ix1 e))) := by
  have hx := x_apply A0 A1 A2 e
  generalize xR (A0 (ix1 e)) = x at hx ⊢
  -- the six scalar constants, spread over the edges, read their words everywhere
  have c208 : r_main_v208 A0 A1 A2 (ix1 e) = w 0x3F800000#32 := broadcastInDim_scalar_apply _ _ _
  have c210 : r_main_v210 A0 A1 A2 (ix1 e) = w 0xC1A80000#32 := broadcastInDim_scalar_apply _ _ _
  have c213 : r_main_v213 A0 A1 A2 (ix1 e) = w 0x420C0000#32 := broadcastInDim_scalar_apply _ _ _
  have c216 : r_main_v216 A0 A1 A2 (ix1 e) = w 0xC1700000#32 := broadcastInDim_scalar_apply _ _ _
  have c220 : r_main_v220 A0 A1 A2 (ix1 e) = w 0x3F800000#32 := broadcastInDim_scalar_apply _ _ _
  have c222 : r_main_v222 A0 A1 A2 (ix1 e) = w 0x00000000#32 := broadcastInDim_scalar_apply _ _ _
  -- the powers: x², x⁴ = x²·x², x⁵ = x·x⁴, x⁶ = x⁵·x, each an entrywise product
  have h204 : r_main_v204 A0 A1 A2 (ix1 e) = x * x := by
    show (r_main_v1 A0 A1 A2 (ix1 e) : EReal) * r_main_v1 A0 A1 A2 (ix1 e) = _
    rw [hx]
  have h205 : r_main_v205 A0 A1 A2 (ix1 e) = x * x * (x * x) := by
    show (r_main_v204 A0 A1 A2 (ix1 e) : EReal) * r_main_v204 A0 A1 A2 (ix1 e) = _
    rw [h204]
  have h206 : r_main_v206 A0 A1 A2 (ix1 e) = x * (x * x * (x * x)) := by
    show (r_main_v1 A0 A1 A2 (ix1 e) : EReal) * r_main_v205 A0 A1 A2 (ix1 e) = _
    rw [hx, h205]
  have h207 : r_main_v207 A0 A1 A2 (ix1 e) = x * (x * x * (x * x)) * x := by
    show (r_main_v206 A0 A1 A2 (ix1 e) : EReal) * r_main_v1 A0 A1 A2 (ix1 e) = _
    rw [h206, hx]
  -- the four terms of the polynomial and their running sums
  have h209 : r_main_v209 A0 A1 A2 (ix1 e) = Ideal.div (w 0x3F800000#32) x := by
    show Ideal.div (r_main_v208 A0 A1 A2 (ix1 e)) (r_main_v1 A0 A1 A2 (ix1 e)) = _
    rw [c208, hx]
  have h211 : r_main_v211 A0 A1 A2 (ix1 e) = w 0xC1A80000#32 * (x * (x * x * (x * x))) := by
    show (r_main_v210 A0 A1 A2 (ix1 e) : EReal) * r_main_v206 A0 A1 A2 (ix1 e) = _
    rw [c210, h206]
  have h212 : r_main_v212 A0 A1 A2 (ix1 e)
      = Ideal.div (w 0x3F800000#32) x + w 0xC1A80000#32 * (x * (x * x * (x * x))) := by
    show (r_main_v209 A0 A1 A2 (ix1 e) : EReal) + r_main_v211 A0 A1 A2 (ix1 e) = _
    rw [h209, h211]
  have h214 : r_main_v214 A0 A1 A2 (ix1 e) = w 0x420C0000#32 * (x * (x * x * (x * x)) * x) := by
    show (r_main_v213 A0 A1 A2 (ix1 e) : EReal) * r_main_v207 A0 A1 A2 (ix1 e) = _
    rw [c213, h207]
  have h215 : r_main_v215 A0 A1 A2 (ix1 e)
      = Ideal.div (w 0x3F800000#32) x + w 0xC1A80000#32 * (x * (x * x * (x * x)))
        + w 0x420C0000#32 * (x * (x * x * (x * x)) * x) := by
    show (r_main_v212 A0 A1 A2 (ix1 e) : EReal) + r_main_v214 A0 A1 A2 (ix1 e) = _
    rw [h212, h214]
  have h217 : r_main_v217 A0 A1 A2 (ix1 e) = w 0xC1700000#32 * (x * (x * x * (x * x)) * x) := by
    show (r_main_v216 A0 A1 A2 (ix1 e) : EReal) * r_main_v207 A0 A1 A2 (ix1 e) = _
    rw [c216, h207]
  have h218 : r_main_v218 A0 A1 A2 (ix1 e) = w 0xC1700000#32 * (x * (x * x * (x * x)) * x) * x := by
    show (r_main_v217 A0 A1 A2 (ix1 e) : EReal) * r_main_v1 A0 A1 A2 (ix1 e) = _
    rw [h217, hx]
  have h219 : r_main_v219 A0 A1 A2 (ix1 e) = envPolyR x := by
    show (r_main_v215 A0 A1 A2 (ix1 e) : EReal) + r_main_v218 A0 A1 A2 (ix1 e) = _
    rw [h215, h218]
    rfl
  -- the comparison x < 1, entrywise
  have h221 : r_main_v221 A0 A1 A2 (ix1 e) = Ideal.cmp .olt x (w 0x3F800000#32) := by
    show Ideal.cmp .olt (r_main_v1 A0 A1 A2 (ix1 e)) (r_main_v220 A0 A1 A2 (ix1 e)) = _
    rw [hx, c220]
  -- the select, entrywise
  show Scalar.select (r_main_v221 A0 A1 A2 (ix1 e)) (r_main_v219 A0 A1 A2 (ix1 e)) (r_main_v222 A0 A1 A2 (ix1 e)) = envR x
  rw [h221, h219, c222]
  rfl

/-- Entry (e, l, k) of the radial table: the envelope times the radial factor of order l at radial index k. -/
theorem rbfEnv_apply (A0 : (⟨S500000, .f32⟩ : BufTy).Contents (Elt Ideal)) (A1 : (⟨S2000000, .f32⟩ : BufTy).Contents (Elt Ideal)) (A2 : (⟨S2000000, .i32⟩ : BufTy).Contents (Elt Ideal)) (e : Fin 500000) (l : Fin 7) (k : Fin 6) :
    r_main_v226 A0 A1 A2 (ix3 e l k) = envR (xR (A0 (ix1 e))) * rbfR l k (A0 (ix1 e)) := by
  -- the product is entrywise
  show (r_main_v225 A0 A1 A2 (ix3 e l k) : EReal) * r_main_v203 A0 A1 A2 (ix3 e l k) = _
  -- the envelope spread over the two trailing axes reads entry e
  have h225 : r_main_v225 A0 A1 A2 (ix3 e l k) = envR (xR (A0 (ix1 e))) :=
    (rowSpread3_apply (r_main_v223 A0 A1 A2) _ _ e l k).trans (env_apply A0 A1 A2 e)
  rw [h225]
  congr 1
  -- off the stacking axis the index (e, 0, k) of a piece has the coordinates of (e, n, k)
  have hi : ∀ (n : Nat) (hn : n < 7) (b : Fin 3), b ≠ 1 →
      ((ix3 e (0 : Fin 1) k) b).val = ((ix3 e (⟨n, hn⟩ : Fin 7) k) b).val := by
    intro n hn b hb
    match b with
    | ⟨0, _⟩ => rfl
    | ⟨1, _⟩ => exact absurd rfl hb
    | ⟨2, _⟩ => rfl
  -- the stack of the seven pieces, each of extent 1 along axis 1: entry (e, l, k) is piece l at (e, 0, k), which is the
  -- radial array of order l at (e, k)
  unfold r_main_v203
  match l with
  | ⟨0, _⟩ =>
    refine Eq.trans (concatenate_apply_piece (t := S500000x7x6) 1 _ _ _ 0 ?_ S500000x1x6 (r_main_v196 A0 A1 A2) ?_ ?_ 0 ?_
      (ix3 e (0 : Fin 1) k) ?_ ?_) ?_
    · exact (by decide : (0 : Nat) < 7)
    · rfl
    · rfl
    · rfl
    · exact fun b hb => hi 0 (by decide) b hb
    · rfl
    · exact (midUnit_apply (r_main_v15 A0 A1 A2) _ e 0 k).trans (rbf0_apply A0 A1 A2 e k)
  | ⟨1, _⟩ =>
    refine Eq.trans (concatenate_apply_piece (t := S500000x7x6) 1 _ _ _ 1 ?_ S500000x1x6 (r_main_v197 A0 A1 A2) ?_ ?_ 1 ?_
      (ix3 e (0 : Fin 1) k) ?_ ?_) ?_
    · exact (by decide : (1 : Nat) < 7)
    · rfl
    · rfl
    · rfl
    · exact fun b hb => hi 1 (by decide) b hb
    · rfl
    · exact (midUnit_apply (r_main_v35 A0 A1 A2) _ e 0 k).trans (rbf1_apply A0 A1 A2 e k)
  | ⟨2, _⟩ =>
    refine Eq.trans (concatenate_apply_piece (t := S500000x7x6) 1 _ _ _ 2 ?_ S500000x1x6 (r_main_v198 A0 A1 A2) ?_ ?_ 2 ?_
      (ix3 e (0 : Fin 1) k) ?_ ?_) ?_
    · exact (by decide : (2 : Nat) < 7)
    · rfl
    · rfl
    · rfl
    · exact fun b hb => hi 2 (by decide) b hb
    · rfl
    · exact (midUnit_apply (r_main_v59 A0 A1 A2) _ e 0 k).trans (rbf2_apply A0 A1 A2 e k)
  | ⟨3, _⟩ =>
    refine Eq.trans (concatenate_apply_piece (t := S500000x7x6) 1 _ _ _ 3 ?_ S500000x1x6 (r_main_v199 A0 A1 A2) ?_ ?_ 3 ?_
      (ix3 e (0 : Fin 1) k) ?_ ?_) ?_
    · exact (by decide : (3 : Nat) < 7)
    · rfl
    · rfl
    · rfl
    · exact fun b hb => hi 3 (by decide) b hb
    · rfl
    · exact (midUnit_apply (r_main_v87 A0 A1 A2) _ e 0 k).trans (rbf3_apply A0 A1 A2 e k)
  | ⟨4, _⟩ =>
    refine Eq.trans (concatenate_apply_piece (t := S500000x7x6) 1 _ _ _ 4 ?_ S500000x1x6 (r_main_v200 A0 A1 A2) ?_ ?_ 4 ?_
      (ix3 e (0 : Fin 1) k) ?_ ?_) ?_
    · exact (by decide : (4 : Nat) < 7)
    · rfl
    · rfl
    · rfl
    · exact fun b hb => hi 4 (by decide) b hb
    · rfl
    · exact (midUnit_apply (r_main_v119 A0 A1 A2) _ e 0 k).trans (rbf4_apply A0 A1 A2 e k)
  | ⟨5, _⟩ =>
    refine Eq.trans (concatenate_apply_piece (t := S500000x7x6) 1 _ _ _ 5 ?_ S500000x1x6 (r_main_v201 A0 A1 A2) ?_ ?_ 5 ?_
      (ix3 e (0 : Fin 1) k) ?_ ?_) ?_
    · exact (by decide : (5 : Nat) < 7)
    · rfl
    · rfl
    · rfl
    · exact fun b hb => hi 5 (by decide) b hb
    · rfl
    · exact (midUnit_apply (r_main_v155 A0 A1 A2) _ e 0 k).trans (rbf5_apply A0 A1 A2 e k)
  | ⟨6, _⟩ =>
    refine Eq.trans (concatenate_apply_piece (t := S500000x7x6) 1 _ _ _ 6 ?_ S500000x1x6 (r_main_v202 A0 A1 A2) ?_ ?_ 6 ?_
      (ix3 e (0 : Fin 1) k) ?_ ?_) ?_
    · exact (by decide : (6 : Nat) < 7)
    · rfl
    · rfl
    · rfl
    · exact fun b hb => hi 6 (by decide) b hb
    · rfl
    · exact (midUnit_apply (r_main_v195 A0 A1 A2) _ e 0 k).trans (rbf6_apply A0 A1 A2 e k)

end Cert.ReferenceIdeal.RefRun

end
-- ==== Proof.RefAng.lean ====
/-
  The reference's angular factor.

  The seven Legendre values of cos(angle), by their recurrence on a length-T vector, are made columns, stacked into a
  [T, 7] array and multiplied by the coefficients Y spread over the rows. Entry (t, l) is P_l(cos a_t) · Y_l.
-/
import proofs.«131485_j49366354100415_1_alg».proof.Proof.RefOps
import proofs.«131485_j49366354100415_1_alg».proof.Proof.Spec
import proofs.«131485_j49366354100415_1_alg».proof.Proof.LibLayout

noncomputable section

namespace Cert.ReferenceIdeal.RefRun

open Cert.ReferenceIdeal Cert.ReferenceIdeal.Gen Idealize.ShloMosaic Idealize.ShloMosaic.ValueIdx Cert.Basis

/-! ## The seven Legendre values on the length-T vector -/

/-- P_0 is the constant 1 spread over the vector. -/
private theorem p0_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v228 A0 A1 A2 (ix1 t) = leg0 (Ideal.cos (A1 (ix1 t))) := rfl

/-- P_1 is the cosine of the angle, entrywise. -/
private theorem p1_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v227 A0 A1 A2 (ix1 t) = leg1 (Ideal.cos (A1 (ix1 t))) := rfl

/-- P_2 is one step of the recurrence from P_1 and P_0: the products, the difference and the quotient are entrywise,
    and the three numbers are scalars spread over the vector. -/
private theorem p2_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v236 A0 A1 A2 (ix1 t) = leg2 (Ideal.cos (A1 (ix1 t))) := by
  have h : r_main_v236 A0 A1 A2 (ix1 t) = legStep 0x40400000#32 0x3F800000#32 0x40000000#32 (r_main_v227 A0 A1 A2 (ix1 t))
      (r_main_v227 A0 A1 A2 (ix1 t)) (r_main_v228 A0 A1 A2 (ix1 t)) := rfl
  rw [h, p1_apply, p0_apply]
  rfl

/-- P_3 is one step of the recurrence from P_2 and P_1: the products, the difference and the quotient are entrywise,
    and the three numbers are scalars spread over the vector. -/
private theorem p3_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v244 A0 A1 A2 (ix1 t) = leg3 (Ideal.cos (A1 (ix1 t))) := by
  have h : r_main_v244 A0 A1 A2 (ix1 t) = legStep 0x40A00000#32 0x40000000#32 0x40400000#32 (r_main_v227 A0 A1 A2 (ix1 t))
      (r_main_v236 A0 A1 A2 (ix1 t)) (r_main_v227 A0 A1 A2 (ix1 t)) := rfl
  rw [h, p1_apply, p2_apply]
  rfl

/-- P_4 is one step of the recurrence from P_3 and P_2: the products, the difference and the quotient are entrywise,
    and the three numbers are scalars spread over the vector. -/
private theorem p4_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v252 A0 A1 A2 (ix1 t) = leg4 (Ideal.cos (A1 (ix1 t))) := by
  have h : r_main_v252 A0 A1 A2 (ix1 t) = legStep 0x40E00000#32 0x40400000#32 0x40800000#32 (r_main_v227 A0 A1 A2 (ix1 t))
      (r_main_v244 A0 A1 A2 (ix1 t)) (r_main_v236 A0 A1 A2 (ix1 t)) := rfl
  rw [h, p1_apply, p3_apply, p2_apply]
  rfl

/-- P_5 is one step of the recurrence from P_4 and P_3: the products, the difference and the quotient are entrywise,
    and the three numbers are scalars spread over the vector. -/
private theorem p5_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v260 A0 A1 A2 (ix1 t) = leg5 (Ideal.cos (A1 (ix1 t))) := by
  have h : r_main_v260 A0 A1 A2 (ix1 t) = legStep 0x41100000#32 0x40800000#32 0x40A00000#32 (r_main_v227 A0 A1 A2 (ix1 t))
      (r_main_v252 A0 A1 A2 (ix1 t)) (r_main_v244 A0 A1 A2 (ix1 t)) := rfl
  rw [h, p1_apply, p4_apply, p3_apply]
  rfl

/-- P_6 is one step of the recurrence from P_5 and P_4: the products, the difference and the quotient are entrywise,
    and the three numbers are scalars spread over the vector. -/
private theorem p6_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v268 A0 A1 A2 (ix1 t) = leg6 (Ideal.cos (A1 (ix1 t))) := by
  have h : r_main_v268 A0 A1 A2 (ix1 t) = legStep 0x41300000#32 0x40A00000#32 0x40C00000#32 (r_main_v227 A0 A1 A2 (ix1 t))
      (r_main_v260 A0 A1 A2 (ix1 t)) (r_main_v252 A0 A1 A2 (ix1 t)) := rfl
  rw [h, p1_apply, p5_apply, p4_apply]
  rfl

/-! ## The seven columns stacked, and the coefficients spread over the rows -/

/-- Column 0 of the stack is piece 0 of the concatenation: the 0 unit-wide pieces before it span columns 0..-1 (none). -/
private theorem stack0_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v276 A0 A1 A2 (ix2 t (0 : Fin 7)) = r_main_v269 A0 A1 A2 (ix2 t (0 : Fin 1)) := by
  unfold r_main_v276
  refine concatenate_apply_piece _ _ _ (ix2 t (0 : Fin 7)) 0 (by show (0 : Nat) < 7; omega) S2000000x1
    (r_main_v269 A0 A1 A2) rfl rfl 0 rfl (ix2 t (0 : Fin 1)) ?_ rfl
  intro b hb
  match b with
  | ⟨0, _⟩ => rfl
  | ⟨1, _⟩ => exact absurd rfl hb

/-- Column 1 of the stack is piece 1 of the concatenation: the 1 unit-wide pieces before it span columns 0..0. -/
private theorem stack1_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v276 A0 A1 A2 (ix2 t (1 : Fin 7)) = r_main_v270 A0 A1 A2 (ix2 t (0 : Fin 1)) := by
  unfold r_main_v276
  refine concatenate_apply_piece _ _ _ (ix2 t (1 : Fin 7)) 1 (by show (1 : Nat) < 7; omega) S2000000x1
    (r_main_v270 A0 A1 A2) rfl rfl 1 rfl (ix2 t (0 : Fin 1)) ?_ rfl
  intro b hb
  match b with
  | ⟨0, _⟩ => rfl
  | ⟨1, _⟩ => exact absurd rfl hb

/-- Column 2 of the stack is piece 2 of the concatenation: the 2 unit-wide pieces before it span columns 0..1. -/
private theorem stack2_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v276 A0 A1 A2 (ix2 t (2 : Fin 7)) = r_main_v271 A0 A1 A2 (ix2 t (0 : Fin 1)) := by
  unfold r_main_v276
  refine concatenate_apply_piece _ _ _ (ix2 t (2 : Fin 7)) 2 (by show (2 : Nat) < 7; omega) S2000000x1
    (r_main_v271 A0 A1 A2) rfl rfl 2 rfl (ix2 t (0 : Fin 1)) ?_ rfl
  intro b hb
  match b with
  | ⟨0, _⟩ => rfl
  | ⟨1, _⟩ => exact absurd rfl hb

/-- Column 3 of the stack is piece 3 of the concatenation: the 3 unit-wide pieces before it span columns 0..2. -/
private theorem stack3_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v276 A0 A1 A2 (ix2 t (3 : Fin 7)) = r_main_v272 A0 A1 A2 (ix2 t (0 : Fin 1)) := by
  unfold r_main_v276
  refine concatenate_apply_piece _ _ _ (ix2 t (3 : Fin 7)) 3 (by show (3 : Nat) < 7; omega) S2000000x1
    (r_main_v272 A0 A1 A2) rfl rfl 3 rfl (ix2 t (0 : Fin 1)) ?_ rfl
  intro b hb
  match b with
  | ⟨0, _⟩ => rfl
  | ⟨1, _⟩ => exact absurd rfl hb

/-- Column 4 of the stack is piece 4 of the concatenation: the 4 unit-wide pieces before it span columns 0..3. -/
private theorem stack4_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v276 A0 A1 A2 (ix2 t (4 : Fin 7)) = r_main_v273 A0 A1 A2 (ix2 t (0 : Fin 1)) := by
  unfold r_main_v276
  refine concatenate_apply_piece _ _ _ (ix2 t (4 : Fin 7)) 4 (by show (4 : Nat) < 7; omega) S2000000x1
    (r_main_v273 A0 A1 A2) rfl rfl 4 rfl (ix2 t (0 : Fin 1)) ?_ rfl
  intro b hb
  match b with
  | ⟨0, _⟩ => rfl
  | ⟨1, _⟩ => exact absurd rfl hb

/-- Column 5 of the stack is piece 5 of the concatenation: the 5 unit-wide pieces before it span columns 0..4. -/
private theorem stack5_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v276 A0 A1 A2 (ix2 t (5 : Fin 7)) = r_main_v274 A0 A1 A2 (ix2 t (0 : Fin 1)) := by
  unfold r_main_v276
  refine concatenate_apply_piece _ _ _ (ix2 t (5 : Fin 7)) 5 (by show (5 : Nat) < 7; omega) S2000000x1
    (r_main_v274 A0 A1 A2) rfl rfl 5 rfl (ix2 t (0 : Fin 1)) ?_ rfl
  intro b hb
  match b with
  | ⟨0, _⟩ => rfl
  | ⟨1, _⟩ => exact absurd rfl hb

/-- Column 6 of the stack is piece 6 of the concatenation: the 6 unit-wide pieces before it span columns 0..5. -/
private theorem stack6_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) :
    r_main_v276 A0 A1 A2 (ix2 t (6 : Fin 7)) = r_main_v275 A0 A1 A2 (ix2 t (0 : Fin 1)) := by
  unfold r_main_v276
  refine concatenate_apply_piece _ _ _ (ix2 t (6 : Fin 7)) 6 (by show (6 : Nat) < 7; omega) S2000000x1
    (r_main_v275 A0 A1 A2) rfl rfl 6 rfl (ix2 t (0 : Fin 1)) ?_ rfl
  intro b hb
  match b with
  | ⟨0, _⟩ => rfl
  | ⟨1, _⟩ => exact absurd rfl hb

/-- The coefficient table spread over the rows: entry (t, l) is the table's entry l. -/
private theorem tab_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) (l : Fin 7) :
    r_main_v278 A0 A1 A2 (ix2 t l) = r_main_cst_1 A0 A1 A2 (ix1 l) := by
  unfold r_main_v278 r_main_v277
  exact rowVec_apply _ _ _ t l

/-- Entry 0 of the coefficient table is the word Y_0. -/
private theorem y0_apply (A0 : (⟨S500000, .f32⟩ : BufTy).Contents (Elt Ideal)) (A1 : (⟨S2000000, .f32⟩ : BufTy).Contents (Elt Ideal)) (A2 : (⟨S2000000, .i32⟩ : BufTy).Contents (Elt Ideal)) : r_main_cst_1 A0 A1 A2 (ix1 (0 : Fin 7)) = w (Yt 0) := rfl

/-- Entry 1 of the coefficient table is the word Y_1. -/
private theorem y1_apply (A0 : (⟨S500000, .f32⟩ : BufTy).Contents (Elt Ideal)) (A1 : (⟨S2000000, .f32⟩ : BufTy).Contents (Elt Ideal)) (A2 : (⟨S2000000, .i32⟩ : BufTy).Contents (Elt Ideal)) : r_main_cst_1 A0 A1 A2 (ix1 (1 : Fin 7)) = w (Yt 1) := rfl

/-- Entry 2 of the coefficient table is the word Y_2. -/
private theorem y2_apply (A0 : (⟨S500000, .f32⟩ : BufTy).Contents (Elt Ideal)) (A1 : (⟨S2000000, .f32⟩ : BufTy).Contents (Elt Ideal)) (A2 : (⟨S2000000, .i32⟩ : BufTy).Contents (Elt Ideal)) : r_main_cst_1 A0 A1 A2 (ix1 (2 : Fin 7)) = w (Yt 2) := rfl

/-- Entry 3 of the coefficient table is the word Y_3. -/
private theorem y3_apply (A0 : (⟨S500000, .f32⟩ : BufTy).Contents (Elt Ideal)) (A1 : (⟨S2000000, .f32⟩ : BufTy).Contents (Elt Ideal)) (A2 : (⟨S2000000, .i32⟩ : BufTy).Contents (Elt Ideal)) : r_main_cst_1 A0 A1 A2 (ix1 (3 : Fin 7)) = w (Yt 3) := rfl

/-- Entry 4 of the coefficient table is the word Y_4. -/
private theorem y4_apply (A0 : (⟨S500000, .f32⟩ : BufTy).Contents (Elt Ideal)) (A1 : (⟨S2000000, .f32⟩ : BufTy).Contents (Elt Ideal)) (A2 : (⟨S2000000, .i32⟩ : BufTy).Contents (Elt Ideal)) : r_main_cst_1 A0 A1 A2 (ix1 (4 : Fin 7)) = w (Yt 4) := rfl

/-- Entry 5 of the coefficient table is the word Y_5. -/
private theorem y5_apply (A0 : (⟨S500000, .f32⟩ : BufTy).Contents (Elt Ideal)) (A1 : (⟨S2000000, .f32⟩ : BufTy).Contents (Elt Ideal)) (A2 : (⟨S2000000, .i32⟩ : BufTy).Contents (Elt Ideal)) : r_main_cst_1 A0 A1 A2 (ix1 (5 : Fin 7)) = w (Yt 5) := rfl

/-- Entry 6 of the coefficient table is the word Y_6. -/
private theorem y6_apply (A0 : (⟨S500000, .f32⟩ : BufTy).Contents (Elt Ideal)) (A1 : (⟨S2000000, .f32⟩ : BufTy).Contents (Elt Ideal)) (A2 : (⟨S2000000, .i32⟩ : BufTy).Contents (Elt Ideal)) : r_main_cst_1 A0 A1 A2 (ix1 (6 : Fin 7)) = w (Yt 6) := rfl

/-- Column l of the stack is the l-th Legendre vector made a column: entry (t, l) is P_l(cos a_t). -/
private theorem legs_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) (l : Fin 7) :
    (r_main_v276 A0 A1 A2 (ix2 t l) : EReal) = leg l (Ideal.cos (A1 (ix1 t))) := by
  match l with
  | ⟨0, _⟩ =>
    refine (stack0_apply A0 A1 A2 t).trans ?_
    unfold r_main_v269
    exact (col_apply _ _ t 0).trans (p0_apply A0 A1 A2 t)
  | ⟨1, _⟩ =>
    refine (stack1_apply A0 A1 A2 t).trans ?_
    unfold r_main_v270
    exact (col_apply _ _ t 0).trans (p1_apply A0 A1 A2 t)
  | ⟨2, _⟩ =>
    refine (stack2_apply A0 A1 A2 t).trans ?_
    unfold r_main_v271
    exact (col_apply _ _ t 0).trans (p2_apply A0 A1 A2 t)
  | ⟨3, _⟩ =>
    refine (stack3_apply A0 A1 A2 t).trans ?_
    unfold r_main_v272
    exact (col_apply _ _ t 0).trans (p3_apply A0 A1 A2 t)
  | ⟨4, _⟩ =>
    refine (stack4_apply A0 A1 A2 t).trans ?_
    unfold r_main_v273
    exact (col_apply _ _ t 0).trans (p4_apply A0 A1 A2 t)
  | ⟨5, _⟩ =>
    refine (stack5_apply A0 A1 A2 t).trans ?_
    unfold r_main_v274
    exact (col_apply _ _ t 0).trans (p5_apply A0 A1 A2 t)
  | ⟨6, _⟩ =>
    refine (stack6_apply A0 A1 A2 t).trans ?_
    unfold r_main_v275
    exact (col_apply _ _ t 0).trans (p6_apply A0 A1 A2 t)

/-- Entry (t, l) of the spread table is the word Y_l. -/
private theorem coef_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) (l : Fin 7) :
    (r_main_v278 A0 A1 A2 (ix2 t l) : EReal) = w (Yt l) := by
  refine (tab_apply A0 A1 A2 t l).trans ?_
  match l with
  | ⟨0, _⟩ => exact y0_apply A0 A1 A2
  | ⟨1, _⟩ => exact y1_apply A0 A1 A2
  | ⟨2, _⟩ => exact y2_apply A0 A1 A2
  | ⟨3, _⟩ => exact y3_apply A0 A1 A2
  | ⟨4, _⟩ => exact y4_apply A0 A1 A2
  | ⟨5, _⟩ => exact y5_apply A0 A1 A2
  | ⟨6, _⟩ => exact y6_apply A0 A1 A2

/-- Entry (t, l) of the angular array: P_l(cos a_t) · Y_l. -/
theorem cbf_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) (l : Fin 7) :
    r_main_v279 A0 A1 A2 (ix2 t l) = leg l (Ideal.cos (A1 (ix1 t))) * w (Yt l) := by
  -- the last product is entrywise
  show (r_main_v276 A0 A1 A2 (ix2 t l) : EReal) * (r_main_v278 A0 A1 A2 (ix2 t l) : EReal) = _
  rw [legs_apply, coef_apply]

end Cert.ReferenceIdeal.RefRun

end
-- ==== Proof.RefRead.lean ====
/-
  The reference's result is the specified array.

  The seven radial arrays are stacked along a new middle axis and multiplied by the envelope of the scaled distance;
  the seven Legendre values of cos(angle) are stacked and multiplied by the coefficients Y; the radial table is gathered
  at the prepared index words, multiplied by the angular factor spread over the radial axis, and flattened. Entry
  (t, c) is therefore env(x) · (N · j_l(Z · x)) · (P_l(cos a) · Y_l) at the selected edge's distance and t's angle,
  with l = c / 6: the specified entry, in the reference's arrangement of the product.
-/
import proofs.«131485_j49366354100415_1_alg».proof.Proof.RefRad
import proofs.«131485_j49366354100415_1_alg».proof.Proof.RefAng
import proofs.«131485_j49366354100415_1_alg».proof.Proof.LibGathers

noncomputable section

namespace Cert.ReferenceIdeal.RefRun

open Cert.ReferenceIdeal Cert.ReferenceIdeal.Gen Idealize.ShloMosaic Idealize.ShloMosaic.ValueIdx Cert.Basis

/-- The index words the gather reads are the prepared ones: the same comparison with zero, the same addition of the
    table's length, the same choice, the same column. -/
private theorem idx_eq (A0 : (⟨S500000, .f32⟩ : BufTy).Contents (Elt Ideal)) (A1 : (⟨S2000000, .f32⟩ : BufTy).Contents (Elt Ideal)) (A2 : (⟨S2000000, .i32⟩ : BufTy).Contents (Elt Ideal)) :
    r_main_v285 A0 A1 A2 = nidx A2 := rfl

/-- The gathered table: row t is the row of the edge that t's index word selects, every (l, k) entry kept in place. -/
private theorem gathered_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) (l : Fin 7) (k : Fin 6) :
    r_main_v286 A0 A1 A2 (ix3 t l k) = r_main_v226 A0 A1 A2 (ix3 (gi (nidx A2) t) l k) := by
  show Host.gather gather_S500000x7x6_S2000000x1_S2000000x7x6_12_0_n_n_0_1_176 (r_main_v226 A0 A1 A2)
    (r_main_v285 A0 A1 A2) (ix3 t l k) = _
  rw [idx_eq]
  -- a gather that collapses the first axis and copies the other two whole; the clamp's bound 500000 − 1 is 499999
  exact gather_rows_apply (by decide) gather_S500000x7x6_S2000000x1_S2000000x7x6_12_0_n_n_0_1_176_wf
    (r_main_v226 A0 A1 A2) (nidx A2) t l k

/-- The angular array spread over the radial axis: entry (t, l, k) is its entry (t, l). -/
private theorem ang_apply (A0 : (⟨S500000, .f32⟩ : BufTy).Contents (Elt Ideal)) (A1 : (⟨S2000000, .f32⟩ : BufTy).Contents (Elt Ideal)) (A2 : (⟨S2000000, .i32⟩ : BufTy).Contents (Elt Ideal)) (t : Fin 2000000) (l : Fin 7) (k : Fin 6) :
    r_main_v288 A0 A1 A2 (ix3 t l k) = r_main_v279 A0 A1 A2 (ix2 t l) :=
  lastSpread_apply (r_main_v279 A0 A1 A2) bcast_S2000000x7_S2000000x7x1_0_1 bcast_S2000000x7x1_S2000000x7x6_0_1_2 t l k

/-- The reference's composed result term is the specified array of the three arguments. -/
theorem out_eq (A0 : (⟨S500000, .f32⟩ : BufTy).Contents (Elt Ideal)) (A1 : (⟨S2000000, .f32⟩ : BufTy).Contents (Elt Ideal)) (A2 : (⟨S2000000, .i32⟩ : BufTy).Contents (Elt Ideal)) :
    r_main_v290 A0 A1 A2 = G A0 A1 (nidx A2) := by
  funext j
  obtain ⟨t, c, rfl⟩ : ∃ (t : Fin 2000000) (c : Fin 42), j = ix2 t c := ⟨j 0, j 1, eq_ix2 j⟩
  rw [G_apply]
  -- the flattening: entry (t, c) is entry (t, c / 6, c % 6) of the product array
  refine (flatten76_apply (r_main_v289 A0 A1 A2) shapeCasts_S2000000x7x6_S2000000x42 t c).trans ?_
  -- the product is entrywise: the gathered radial entry times the spread angular entry
  show r_main_v286 A0 A1 A2 (ix3 t (lOf c) (kOf c)) * r_main_v288 A0 A1 A2 (ix3 t (lOf c) (kOf c)) = _
  rw [gathered_apply, rbfEnv_apply, ang_apply, cbf_apply]
  -- env(x) · (N · j_l(Z · x)) · (P_l(cos a) · Y_l) with the tables read at column 6 · (c / 6) + c % 6 = c
  unfold Gat colOf
  rw [← colR_eq]
  unfold colR rbfR
  rw [ck_lOf_kOf]

end Cert.ReferenceIdeal.RefRun

end
-- ==== Proof.lean ====
/-
  The certificate's five claims.

  Both idealized programs compute, entry by entry,
      N(l,k) · j_l(Z(l,k) · x) · env(x) · P_l(cos a) · Y(l),   x = d / 5,
  at the distance d of the edge an index word selects and the angle a of the row (Proof/Spec.lean): the kernel on the
  gathered distances, block by block, the reference on every edge before gathering rows of the result. The kernel's
  run is read off its frame run (Proof/KernelRun.lean), the reference's off its straight line of host operations
  (Proof/RefRun.lean, Proof/RefRead.lean); the two arrangements of the product agree by commutativity and associativity
  of multiplication on the extended reals and by division by 5 being multiplication by 1/5 there, so the precondition
  is not used. The kernel's one named constant, the reciprocal 1/5, is the idealization's one ledger entry.
-/
import proofs.«131485_j49366354100415_1_alg».proof.Defs
import proofs.«131485_j49366354100415_1_alg».proof.Proof.Gen.Kernel
import proofs.«131485_j49366354100415_1_alg».proof.Proof.Gen.Kernel.Frame
import proofs.«131485_j49366354100415_1_alg».proof.Proof.Gen.KernelIdeal
import proofs.«131485_j49366354100415_1_alg».proof.Proof.Gen.KernelIdeal.Frame
import proofs.«131485_j49366354100415_1_alg».proof.Proof.Gen.ReferenceIdeal
import proofs.«131485_j49366354100415_1_alg».proof.Proof.Gen.Pre_finite_inputs
import proofs.«131485_j49366354100415_1_alg».proof.Proof.KernelRun
import proofs.«131485_j49366354100415_1_alg».proof.Proof.RefRun
import proofs.«131485_j49366354100415_1_alg».proof.Proof.RefRead

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with its result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ledger's one entry: the table gives the name the value 1/5. -/
theorem preserves : Cert.preserves_Kernel_KernelIdeal :=
  IdealRules.named_const.statement Cert.KernelIdeal.κ "inv_5" .f32 0x3E4CCCCD#32 ((1 / 5 : ℝ) : EReal) rfl

/-- Both runs end with the specified array of the (agreeing) arguments. -/
theorem algebraic : Cert.algebraic_KernelIdeal_ReferenceIdeal := by
  intro m ρ m' ρ' _ hagree
  refine ⟨fun c => Cert.Basis.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.Basis.nidx (m ((c.tc : Thread Cert.KernelIdeal.nD Cert.KernelIdeal.τ).loc Cert.KernelIdeal.main_arg2))),
    Cert.KernelIdeal.KVal.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRun.out_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
